-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S400000x64 : Shape := ⟨2, ![400000, 64]⟩
abbrev S2x400000 : Shape := ⟨2, ![2, 400000]⟩
abbrev S128x320 : Shape := ⟨2, ![128, 320]⟩
abbrev S128 : Shape := ⟨1, ![128]⟩
abbrev S128x128 : Shape := ⟨2, ![128, 128]⟩
abbrev S64x320 : Shape := ⟨2, ![64, 320]⟩
abbrev S64 : Shape := ⟨1, ![64]⟩
abbrev S64x64 : Shape := ⟨2, ![64, 64]⟩
abbrev S128x256 : Shape := ⟨2, ![128, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x64 : S_.BroadcastsInDim S400000x64 (![] : Fin 0 → Fin S400000x64.rank)
  reducesTo_S400000x64_S_d0_1 : S400000x64.ReducesTo [0, 1] S_
  bcast_S_S128x320 : S_.BroadcastsInDim S128x320 (![] : Fin 0 → Fin S128x320.rank)
  reducesTo_S128x320_S_d0_1 : S128x320.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x320 : S_.BroadcastsInDim S64x320 (![] : Fin 0 → Fin S64x320.rank)
  reducesTo_S64x320_S_d0_1 : S64x320.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x256 : S_.BroadcastsInDim S128x256 (![] : Fin 0 → Fin S128x256.rank)
  reducesTo_S128x256_S_d0_1 : S128x256.ReducesTo [0, 1] S_

variable [Facts]

def fn_part4 {F : FTy → Type} [FloatOps F] (main_arg15 : FVec F S128 .f32) (main_arg16 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg12 : FVec F S64 .f32) (main_arg13 : FVec F S128x256 .f32) (main_arg14 : FVec F S128 .f32) (main_arg15 : FVec F S128 .f32) (main_arg16 : FVec F S128 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x256 .f32 := Host.absf main_arg13
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S128 .f32) (main_arg9 : FVec F S64x320 .f32) (main_arg10 : FVec F S64 .f32) (main_arg11 : FVec F S64x64 .f32) (main_arg12 : FVec F S64 .f32) (main_arg13 : FVec F S128x256 .f32) (main_arg14 : FVec F S128 .f32) (main_arg15 : FVec F S128 .f32) (main_arg16 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S64x320 .f32 := Host.absf main_arg9
  let main_cst_14 : FVec F S_ .f32 := constant S_ .f32 0x7F800000#32
  let main_v40 : FVec F S64x320 .f32 := broadcastInDim S64x320 ![] bcast_S_S64x320 main_cst_14
  let main_v41 : IVec S64x320 1 := cmpf .olt main_v39 main_v40
  let main_c_15 : IVec S_ 1 := constantI S_ 1 1#1
  let main_v42 : IVec S_ 1 := (fun x v => Host.reduce IntOp.andi x v reducesTo_S64x320_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S64x320 .f32) (main_arg10 : FVec F S64 .f32) (main_arg11 : FVec F S64x64 .f32) (main_arg12 : FVec F S64 .f32) (main_arg13 : FVec F S128x256 .f32) (main_arg14 : FVec F S128 .f32) (main_arg15 : FVec F S128 .f32) (main_arg16 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x128 .f32) (main_arg1 : FVec F S400000x64 .f32) (main_arg2 : IVec S2x400000 32) (main_arg3 : FVec F S128x320 .f32) (main_arg4 : FVec F S128 .f32) (main_arg5 : FVec F S128x128 .f32) (main_arg6 : FVec F S128 .f32) (main_arg7 : FVec F S128x128 .f32) (main_arg8 : FVec F S128 .f32) (main_arg9 : FVec F S64x320 .f32) (main_arg10 : FVec F S64 .f32) (main_arg11 : FVec F S64x64 .f32) (main_arg12 : FVec F S64 .f32) (main_arg13 : FVec F S128x256 .f32) (main_arg14 : FVec F S128 .f32) (main_arg15 : FVec F S128 .f32) (main_arg16 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x64 .f32 := Host.absf main_arg1
  let main_cst_0 : FVec F S_ .f32 := constant S_ .f32 0x7F800000#32
  let main_v5 : FVec F S400000x64 .f32 := broadcastInDim S400000x64 ![] bcast_S_S400000x64 main_cst_0
  let main_v6 : IVec S400000x64 1 := cmpf .olt main_v4 main_v5
  let main_c_1 : IVec S_ 1 := constantI S_ 1 1#1
  let main_v7 : IVec S_ 1 := (fun x v => Host.reduce IntOp.andi x v reducesTo_S400000x64_S_d0_1 h_S_) main_v6 main_c_1
  let main_v8 : IVec S_ 1 := andi main_v3 main_v7
  let main_v9 : FVec F S128x320 .f32 := Host.absf main_arg3
  let main_cst_2 : FVec F S_ .f32 := constant S_ .f32 0x7F800000#32
  let main_v10 : FVec F S128x320 .f32 := broadcastInDim S128x320 ![] bcast_S_S128x320 main_cst_2
  let main_v11 : IVec S128x320 1 := cmpf .olt main_v9 main_v10
  let main_c_3 : IVec S_ 1 := constantI S_ 1 1#1
  let main_v12 : IVec S_ 1 := (fun x v => Host.reduce IntOp.andi x v reducesTo_S128x320_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S400000x64 : Shape := ⟨2, ![400000, 64]⟩
abbrev S2x400000 : Shape := ⟨2, ![2, 400000]⟩
abbrev S128x320 : Shape := ⟨2, ![128, 320]⟩
abbrev S128 : Shape := ⟨1, ![128]⟩
abbrev S128x128 : Shape := ⟨2, ![128, 128]⟩
abbrev S64x320 : Shape := ⟨2, ![64, 320]⟩
abbrev S64 : Shape := ⟨1, ![64]⟩
abbrev S64x64 : Shape := ⟨2, ![64, 64]⟩
abbrev S128x256 : Shape := ⟨2, ![128, 256]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S400000x320 : Shape := ⟨2, ![400000, 320]⟩
abbrev S320x128 : Shape := ⟨2, ![320, 128]⟩
abbrev S320x64 : Shape := ⟨2, ![320, 64]⟩
abbrev S4000x320 : Shape := ⟨2, ![4000, 320]⟩
abbrev S4000x128 : Shape := ⟨2, ![4000, 128]⟩
abbrev S4000x64 : Shape := ⟨2, ![4000, 64]⟩
abbrev S1x128 : Shape := ⟨2, ![1, 128]⟩
abbrev S1x64 : Shape := ⟨2, ![1, 64]⟩
abbrev S2000x128 : Shape := ⟨2, ![2000, 128]⟩
abbrev S2000 : Shape := ⟨1, ![2000]⟩
abbrev S2000x1 : Shape := ⟨2, ![2000, 1]⟩

abbrev nBuf : Space → Nat
  | .hbm => 56
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S400000x64, .f32⟩
  | .hbm, ⟨2, _⟩ => ⟨S2x400000, .i32⟩
  | .hbm, ⟨3, _⟩ => ⟨S128x320, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S64x320, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S128x256, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S1x400000, .i32⟩
  | .hbm, ⟨18, _⟩ => ⟨S400000, .i32⟩
  | .hbm, ⟨19, _⟩ => ⟨S1x400000, .i32⟩
  | .hbm, ⟨20, _⟩ => ⟨S400000, .i32⟩
  | .hbm, ⟨21, _⟩ => ⟨S_, .i32⟩
  | .hbm, ⟨22, _⟩ => ⟨S400000, .i32⟩
  | .hbm, ⟨23, _⟩ => ⟨S400000, .i1⟩
  | .hbm, ⟨24, _⟩ => ⟨S_, .i32⟩
  | .hbm, ⟨25, _⟩ => ⟨S400000, .i32⟩
  | .hbm, ⟨26, _⟩ => ⟨S400000, .i32⟩
  | .hbm, ⟨27, _⟩ => ⟨S400000, .i32⟩
  | .hbm, ⟨28, _⟩ => ⟨S400000x1, .i32⟩
  | .hbm, ⟨29, _⟩ => ⟨S400000x128, .f32⟩
  | .hbm, ⟨30, _⟩ => ⟨S_, .i32⟩
  | .hbm, ⟨31, _⟩ => ⟨S400000, .i32⟩
  | .hbm, ⟨32, _⟩ => ⟨S400000, .i1⟩
  | .hbm, ⟨33, _⟩ => ⟨S_, .i32⟩
  | .hbm, ⟨34, _⟩ => ⟨S400000, .i32⟩
  | .hbm, ⟨35, _⟩ => ⟨S400000, .i32⟩
  | .hbm, ⟨36, _⟩ => ⟨S400000, .i32⟩
  | .hbm, ⟨37, _⟩ => ⟨S400000x1, .i32⟩
  | .hbm, ⟨38, _⟩ => ⟨S400000x128, .f32⟩
  | .hbm, ⟨39, _⟩ => ⟨S400000x320, .f32⟩
  | .hbm, ⟨40, _⟩ => ⟨S320x128, .f32⟩
  | .hbm, ⟨41, _⟩ => ⟨S128x128, .f32⟩
  | .hbm, ⟨42, _⟩ => ⟨S128x128, .f32⟩
  | .hbm, ⟨43, _⟩ => ⟨S320x64, .f32⟩
  | .hbm, ⟨44, _⟩ => ⟨S64x64, .f32⟩
  | .hbm, ⟨45, _⟩ => ⟨S400000x128, .f32⟩
  | .hbm, ⟨46, _⟩ => ⟨S400000x64, .f32⟩
  | .hbm, ⟨47, _⟩ => ⟨S_, .f32⟩
  | .hbm, ⟨48, _⟩ => ⟨S50000x128, .f32⟩
  | .hbm, ⟨49, _⟩ => ⟨S400000x1, .i32⟩
  | .hbm, ⟨50, _⟩ => ⟨S50000x128, .f32⟩
  | .hbm, ⟨51, _⟩ => ⟨S128x128, .f32⟩
  | .hbm, ⟨52, _⟩ => ⟨S128x128, .f32⟩
  | .hbm, ⟨53, _⟩ => ⟨S128x128, .f32⟩
  | .hbm, ⟨54, _⟩ => ⟨S128x128, .f32⟩
  | .hbm, ⟨55, _⟩ => ⟨S50000x128, .f32⟩
  | .local _ .vmem, ⟨0, _⟩ => ⟨S4000x320, .f32⟩
  | .local _ .vmem, ⟨1, _⟩ => ⟨S4000x320, .f32⟩
  | .local _ .vmem, ⟨2, _⟩ => ⟨S320x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S320x64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S4000x128, .f32⟩
  | .local _ .vmem, ⟨13, _⟩ => ⟨S4000x128, .f32⟩
  | .local _ .vmem, ⟨14, _⟩ => ⟨S4000x64, .f32⟩
  | .local _ .vmem, ⟨15, _⟩ => ⟨S4000x64, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S128x128, .f32⟩
  | .local _ .vmem, ⟨22, _⟩ => ⟨S128, .f32⟩
  | .local _ .vmem, ⟨23, _⟩ => ⟨S128, .f32⟩
  | .local _ .vmem, ⟨24, _⟩ => ⟨S128, .f32⟩
  | .local _ .vmem, ⟨25, _⟩ => ⟨S2000x128, .f32⟩
  | .local _ .vmem, ⟨26, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24_0 : Ref sig .tc := ⟨.hbm, 45, rfl⟩
abbrev main_v24_1 : Ref sig .tc := ⟨.hbm, 46, rfl⟩
abbrev main_cst : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem7_1 : DmaSem sig := 26

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S320x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S320x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4000x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x64_S400000x320_d1 : Shape.Concatenates [S400000x128, S400000x128, S400000x64] S400000x320 1
  transposes_S128x320_S320x128_1_0 : S128x320.Transposes [1, 0] S320x128
  transposes_S128x128_S128x128_1_0 : S128x128.Transposes [1, 0] S128x128
  transposes_S64x320_S320x64_1_0 : S64x320.Transposes [1, 0] S320x64
  transposes_S64x64_S64x64_1_0 : S64x64.Transposes [1, 0] S64x64
  inb_S4000x320_S4000x320_0_0 : ∀ a, (![0, 0] : Fin 2 → Nat) a + S4000x320.size a ≤ S4000x320.size a
  h_S4000x320 : 0 < S4000x320.numel
  shapeCasts_S4000x320_S4000x320 : S4000x320.ShapeCasts S4000x320
  bitsLt_bf16_f32 : FTy.bits .bf16 < FTy.bits .f32
  inb_S320x128_S320x128_0_0 : ∀ a, (![0, 0] : Fin 2 → Nat) a + S320x128.size a ≤ S320x128.size a
  h_S320x128 : 0 < S320x128.numel
  shapeCasts_S320x128_S320x128 : S320x128.ShapeCasts S320x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x128_S4000x128_0_0 : ∀ a, (![0, 0] : Fin 2 → Nat) a + S4000x128.size a ≤ S4000x128.size a
  h_S4000x128 : 0 < S4000x128.numel
  inb_S320x64_S320x64_0_0 : ∀ a, (![0, 0] : Fin 2 → Nat) a + S320x64.size a ≤ S320x64.size a
  h_S320x64 : 0 < S320x64.numel
  shapeCasts_S320x64_S320x64 : S320x64.ShapeCasts S320x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S4000x64_S4000x64_0_0 : ∀ a, (![0, 0] : Fin 2 → Nat) a + S4000x64.size a ≤ S4000x64.size a
  h_S4000x64 : 0 < S4000x64.numel
  bcast_S_S50000x128 : S_.BroadcastsInDim S50000x128 (![] : Fin 0 → Fin S50000x128.rank)
  slices_S128x256_S128x128_0_0 : S128x256.Slices ![0, 0] S128x128
  slices_S128x256_S128x128_0_128 : S128x256.Slices ![0, 128] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S50000x128_S400000x1_S400000x128_1_0_n_n_0_1_1128_wf : GatherDims.WF S50000x128 S400000x1 S400000x128 [1] [0] [] [0] [] 1 ![1, 128]
  dot_S4000x320_S320x128_S4000x128_1_0_0_1_n_n_wf : DotDims.WF S4000x320 S320x128 S4000x128 [1] [0] [0] [1] [] []
  dot_S4000x128_S128x128_S4000x128_1_0_0_1_n_n_wf : DotDims.WF S4000x128 S128x128 S4000x128 [1] [0] [0] [1] [] []
  dot_S4000x320_S320x64_S4000x64_1_0_0_1_n_n_wf : DotDims.WF S4000x320 S320x64 S4000x64 [1] [0] [0] [1] [] []
  dot_S4000x64_S64x64_S4000x64_1_0_0_1_n_n_wf : DotDims.WF S4000x64 S64x64 S4000x64 [1] [0] [0] [1] [] []
  scatter_S50000x128_S400000x1_S400000x128_1_0_0_1_wf : ScatterDims.WF S50000x128 S400000x1 S400000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x320.size a ≤ S400000x320.size a
  hwx0_0 : ∀ i : grid0.Coords, EltTy.bits .f32 = 32 ∨ (Rect.block (s := S400000x320) S4000x320.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S320x128.size a ≤ S320x128.size a
  hwx0_1 : ∀ i : grid0.Coords, EltTy.bits .f32 = 32 ∨ (Rect.block (s := S320x128) S320x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S320x64.size a ≤ S320x64.size a
  hwx0_7 : ∀ i : grid0.Coords, EltTy.bits .f32 = 32 ∨ (Rect.block (s := S320x64) S320x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S400000x128.size a
  hwx0_11 : ∀ i : grid0.Coords, EltTy.bits .f32 = 32 ∨ (Rect.block (s := S400000x128) S4000x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x64.size a ≤ S400000x64.size a
  hwx0_12 : ∀ i : grid0.Coords, EltTy.bits .f32 = 32 ∨ (Rect.block (s := S400000x64) S4000x64.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S4000x320_S320x128_S4000x128_1_0_0_1_n_n : DotDims S4000x320 S320x128 S4000x128 where
  lhsContracting := [1]
  rhsContracting := [0]
  lhsNonContracting := [0]
  rhsNonContracting := [1]
  lhsBatch := []
  rhsBatch := []
  wf := dot_S4000x320_S320x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x320_S320x64_S4000x64_1_0_0_1_n_n : DotDims S4000x320 S320x64 S4000x64 where
  lhsContracting := [1]
  rhsContracting := [0]
  lhsNonContracting := [0]
  rhsNonContracting := [1]
  lhsBatch := []
  rhsBatch := []
  wf := dot_S4000x320_S320x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v18) S4000x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S320x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S320x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v24_0) S4000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v24_1) S4000x64.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg15) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg16) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S400000x64 : Shape := ⟨2, ![400000, 64]⟩
abbrev S2x400000 : Shape := ⟨2, ![2, 400000]⟩
abbrev S128x320 : Shape := ⟨2, ![128, 320]⟩
abbrev S128 : Shape := ⟨1, ![128]⟩
abbrev S128x128 : Shape := ⟨2, ![128, 128]⟩
abbrev S64x320 : Shape := ⟨2, ![64, 320]⟩
abbrev S64 : Shape := ⟨1, ![64]⟩
abbrev S64x64 : Shape := ⟨2, ![64, 64]⟩
abbrev S128x256 : Shape := ⟨2, ![128, 256]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S400000x320 : Shape := ⟨2, ![400000, 320]⟩
abbrev S320x128 : Shape := ⟨2, ![320, 128]⟩
abbrev S1x128 : Shape := ⟨2, ![1, 128]⟩
abbrev S320x64 : Shape := ⟨2, ![320, 64]⟩
abbrev S1x64 : Shape := ⟨2, ![1, 64]⟩
abbrev S50000x256 : Shape := ⟨2, ![50000, 256]⟩
abbrev S256x128 : Shape := ⟨2, ![256, 128]⟩
abbrev S50000 : Shape := ⟨1, ![50000]⟩
abbrev S50000x1 : Shape := ⟨2, ![50000, 1]⟩

abbrev nBuf : Space → Nat
  | .hbm => 116
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S400000x64, .f32⟩
  | .hbm, ⟨2, _⟩ => ⟨S2x400000, .i32⟩
  | .hbm, ⟨3, _⟩ => ⟨S128x320, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S64x320, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S128x256, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S1x400000, .i32⟩
  | .hbm, ⟨18, _⟩ => ⟨S400000, .i32⟩
  | .hbm, ⟨19, _⟩ => ⟨S1x400000, .i32⟩
  | .hbm, ⟨20, _⟩ => ⟨S400000, .i32⟩
  | .hbm, ⟨21, _⟩ => ⟨S_, .i32⟩
  | .hbm, ⟨22, _⟩ => ⟨S400000, .i32⟩
  | .hbm, ⟨23, _⟩ => ⟨S400000, .i1⟩
  | .hbm, ⟨24, _⟩ => ⟨S_, .i32⟩
  | .hbm, ⟨25, _⟩ => ⟨S400000, .i32⟩
  | .hbm, ⟨26, _⟩ => ⟨S400000, .i32⟩
  | .hbm, ⟨27, _⟩ => ⟨S400000, .i32⟩
  | .hbm, ⟨28, _⟩ => ⟨S400000x1, .i32⟩
  | .hbm, ⟨29, _⟩ => ⟨S400000x128, .f32⟩
  | .hbm, ⟨30, _⟩ => ⟨S_, .i32⟩
  | .hbm, ⟨31, _⟩ => ⟨S400000, .i32⟩
  | .hbm, ⟨32, _⟩ => ⟨S400000, .i1⟩
  | .hbm, ⟨33, _⟩ => ⟨S_, .i32⟩
  | .hbm, ⟨34, _⟩ => ⟨S400000, .i32⟩
  | .hbm, ⟨35, _⟩ => ⟨S400000, .i32⟩
  | .hbm, ⟨36, _⟩ => ⟨S400000, .i32⟩
  | .hbm, ⟨37, _⟩ => ⟨S400000x1, .i32⟩
  | .hbm, ⟨38, _⟩ => ⟨S400000x128, .f32⟩
  | .hbm, ⟨39, _⟩ => ⟨S400000x320, .f32⟩
  | .hbm, ⟨40, _⟩ => ⟨S320x128, .f32⟩
  | .hbm, ⟨41, _⟩ => ⟨S400000x128, .f32⟩
  | .hbm, ⟨42, _⟩ => ⟨S1x128, .f32⟩
  | .hbm, ⟨43, _⟩ => ⟨S400000x128, .f32⟩
  | .hbm, ⟨44, _⟩ => ⟨S400000x128, .f32⟩
  | .hbm, ⟨45, _⟩ => ⟨S_, .f32⟩
  | .hbm, ⟨46, _⟩ => ⟨S400000x128, .f32⟩
  | .hbm, ⟨47, _⟩ => ⟨S400000x128, .f32⟩
  | .hbm, ⟨48, _⟩ => ⟨S128x128, .f32⟩
  | .hbm, ⟨49, _⟩ => ⟨S400000x128, .f32⟩
  | .hbm, ⟨50, _⟩ => ⟨S1x128, .f32⟩
  | .hbm, ⟨51, _⟩ => ⟨S400000x128, .f32⟩
  | .hbm, ⟨52, _⟩ => ⟨S400000x128, .f32⟩
  | .hbm, ⟨53, _⟩ => ⟨S_, .f32⟩
  | .hbm, ⟨54, _⟩ => ⟨S400000x128, .f32⟩
  | .hbm, ⟨55, _⟩ => ⟨S400000x128, .f32⟩
  | .hbm, ⟨56, _⟩ => ⟨S128x128, .f32⟩
  | .hbm, ⟨57, _⟩ => ⟨S400000x128, .f32⟩
  | .hbm, ⟨58, _⟩ => ⟨S1x128, .f32⟩
  | .hbm, ⟨59, _⟩ => ⟨S400000x128, .f32⟩
  | .hbm, ⟨60, _⟩ => ⟨S400000x128, .f32⟩
  | .hbm, ⟨61, _⟩ => ⟨S_, .f32⟩
  | .hbm, ⟨62, _⟩ => ⟨S50000x128, .f32⟩
  | .hbm, ⟨63, _⟩ => ⟨S400000x1, .i32⟩
  | .hbm, ⟨64, _⟩ => ⟨S50000x128, .f32⟩
  | .hbm, ⟨65, _⟩ => ⟨S320x64, .f32⟩
  | .hbm, ⟨66, _⟩ => ⟨S400000x64, .f32⟩
  | .hbm, ⟨67, _⟩ => ⟨S1x64, .f32⟩
  | .hbm, ⟨68, _⟩ => ⟨S400000x64, .f32⟩
  | .hbm, ⟨69, _⟩ => ⟨S400000x64, .f32⟩
  | .hbm, ⟨70, _⟩ => ⟨S_, .f32⟩
  | .hbm, ⟨71, _⟩ => ⟨S400000x64, .f32⟩
  | .hbm, ⟨72, _⟩ => ⟨S400000x64, .f32⟩
  | .hbm, ⟨73, _⟩ => ⟨S64x64, .f32⟩
  | .hbm, ⟨74, _⟩ => ⟨S400000x64, .f32⟩
  | .hbm, ⟨75, _⟩ => ⟨S1x64, .f32⟩
  | .hbm, ⟨76, _⟩ => ⟨S400000x64, .f32⟩
  | .hbm, ⟨77, _⟩ => ⟨S400000x64, .f32⟩
  | .hbm, ⟨78, _⟩ => ⟨S50000x256, .f32⟩
  | .hbm, ⟨79, _⟩ => ⟨S256x128, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000, .f32⟩
  | .hbm, ⟨89, _⟩ => ⟨S50000x1, .f32⟩
  | .hbm, ⟨90, _⟩ => ⟨S_, .f32⟩
  | .hbm, ⟨91, _⟩ => ⟨S50000x1, .f32⟩
  | .hbm, ⟨92, _⟩ => ⟨S50000x1, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S50000, .f32⟩
  | .hbm, ⟨98, _⟩ => ⟨S50000x1, .f32⟩
  | .hbm, ⟨99, _⟩ => ⟨S_, .f32⟩
  | .hbm, ⟨100, _⟩ => ⟨S50000x1, .f32⟩
  | .hbm, ⟨101, _⟩ => ⟨S50000x1, .f32⟩
  | .hbm, ⟨102, _⟩ => ⟨S50000x128, .f32⟩
  | .hbm, ⟨103, _⟩ => ⟨S50000x128, .f32⟩
  | .hbm, ⟨104, _⟩ => ⟨S_, .f32⟩
  | .hbm, ⟨105, _⟩ => ⟨S50000x1, .f32⟩
  | .hbm, ⟨106, _⟩ => ⟨S50000x1, .f32⟩
  | .hbm, ⟨107, _⟩ => ⟨S50000x1, .f32⟩
  | .hbm, ⟨108, _⟩ => ⟨S50000x128, .f32⟩
  | .hbm, ⟨109, _⟩ => ⟨S50000x128, .f32⟩
  | .hbm, ⟨110, _⟩ => ⟨S1x128, .f32⟩
  | .hbm, ⟨111, _⟩ => ⟨S50000x128, .f32⟩
  | .hbm, ⟨112, _⟩ => ⟨S50000x128, .f32⟩
  | .hbm, ⟨113, _⟩ => ⟨S1x128, .f32⟩
  | .hbm, ⟨114, _⟩ => ⟨S50000x128, .f32⟩
  | .hbm, ⟨115, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call0_cst : Ref sig .tc := ⟨.hbm, 45, rfl⟩
abbrev main_call0_v0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_cst : Ref sig .tc := ⟨.hbm, 53, rfl⟩
abbrev main_call1_v0 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call2_cst : Ref sig .tc := ⟨.hbm, 70, rfl⟩
abbrev main_call2_v0 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call3_cst : Ref sig .tc := ⟨.hbm, 84, rfl⟩
abbrev main_call3_v0 : Ref sig .tc := ⟨.hbm, 85, rfl⟩
abbrev main_v56 : Ref sig .tc := ⟨.hbm, 86, rfl⟩
abbrev main_cst_3 : Ref sig .tc := ⟨.hbm, 87, rfl⟩
abbrev main_v57 : Ref sig .tc := ⟨.hbm, 88, rfl⟩
abbrev main_v58 : Ref sig .tc := ⟨.hbm, 89, rfl⟩
abbrev main_cst_4 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_5 : Ref sig .tc := ⟨.hbm, 96, rfl⟩
abbrev main_v64 : Ref sig .tc := ⟨.hbm, 97, rfl⟩
abbrev main_v65 : Ref sig .tc := ⟨.hbm, 98, rfl⟩
abbrev main_cst_6 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_7 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x64_S400000x320_d1 : Shape.Concatenates [S400000x128, S400000x128, S400000x64] S400000x320 1
  transposes_S128x320_S320x128_1_0 : S128x320.Transposes [1, 0] S320x128
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  transposes_S128x128_S128x128_1_0 : S128x128.Transposes [1, 0] S128x128
  bcast_S_S50000x128 : S_.BroadcastsInDim S50000x128 (![] : Fin 0 → Fin S50000x128.rank)
  transposes_S64x320_S320x64_1_0 : S64x320.Transposes [1, 0] S320x64
  bcast_S64_S1x64_1 : S64.BroadcastsInDim S1x64 (![1] : Fin 1 → Fin S1x64.rank)
  bcast_S1x64_S400000x64_0_1 : S1x64.BroadcastsInDim S400000x64 (![0, 1] : Fin 2 → Fin S400000x64.rank)
  bcast_S_S400000x64 : S_.BroadcastsInDim S400000x64 (![] : Fin 0 → Fin S400000x64.rank)
  transposes_S64x64_S64x64_1_0 : S64x64.Transposes [1, 0] S64x64
  concatenates_S50000x128_S50000x128_S50000x256_d1 : Shape.Concatenates [S50000x128, S50000x128] S50000x256 1
  transposes_S128x256_S256x128_1_0 : S128x256.Transposes [1, 0] S256x128
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S400000x1_S400000x128_1_0_n_n_0_1_1128_wf : GatherDims.WF S50000x128 S400000x1 S400000x128 [1] [0] [] [0] [] 1 ![1, 128]
  dot_S400000x320_S320x128_S400000x128_1_0_0_1_n_n_wf : DotDims.WF S400000x320 S320x128 S400000x128 [1] [0] [0] [1] [] []
  dot_S400000x128_S128x128_S400000x128_1_0_0_1_n_n_wf : DotDims.WF S400000x128 S128x128 S400000x128 [1] [0] [0] [1] [] []
  scatter_S50000x128_S400000x1_S400000x128_1_0_0_1_wf : ScatterDims.WF S50000x128 S400000x1 S400000x128 [1] [0] [0] 1
  dot_S400000x320_S320x64_S400000x64_1_0_0_1_n_n_wf : DotDims.WF S400000x320 S320x64 S400000x64 [1] [0] [0] [1] [] []
  dot_S400000x64_S64x64_S400000x64_1_0_0_1_n_n_wf : DotDims.WF S400000x64 S64x64 S400000x64 [1] [0] [0] [1] [] []
  dot_S50000x256_S256x128_S50000x128_1_0_0_1_n_n_wf : DotDims.WF S50000x256 S256x128 S50000x128 [1] [0] [0] [1] [] []

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x320_S320x128_S400000x128_1_0_0_1_n_n : DotDims S400000x320 S320x128 S400000x128 where
  lhsContracting := [1]
  rhsContracting := [0]
  lhsNonContracting := [0]
  rhsNonContracting := [1]
  lhsBatch := []
  rhsBatch := []
  wf := dot_S400000x320_S320x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S400000x320_S320x64_S400000x64_1_0_0_1_n_n : DotDims S400000x320 S320x64 S400000x64 where
  lhsContracting := [1]
  rhsContracting := [0]
  lhsNonContracting := [0]
  rhsNonContracting := [1]
  lhsBatch := []
  rhsBatch := []
  wf := dot_S400000x320_S320x64_S400000x64_1_0_0_1_n_n_wf
def dot_S400000x64_S64x64_S400000x64_1_0_0_1_n_n : DotDims S400000x64 S64x64 S400000x64 where
  lhsContracting := [1]
  rhsContracting := [0]
  lhsNonContracting := [0]
  rhsNonContracting := [1]
  lhsBatch := []
  rhsBatch := []
  wf := dot_S400000x64_S64x64_S400000x64_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.FrameKI0.lean ====
/-
  The edge kernel's half of the frame, at the contents `V` the first pallas_call finds in the core's buffers.

  The call runs over 100 grid points; point `t` sees rows `4000 t … 4000 t + 3999` of the 400000 × 320 edge features
  (window 0), the five transposed weight matrices and five biases whole (windows 1–10, fetched once: their block index
  never moves), and writes rows `4000 t …` of the messages (window 11) and of the updated edge features (window 12).
  The body loads each staging buffer whole, computes, and stores each output buffer whole, once; so what an output
  buffer holds after the body is one function of the input blocks, and the inputs' buffers are left as found.
-/
import proofs.«106394_j49804440764523_1_alg».proof.Proof.Gen.KernelIdeal.Launch
import proofs.«106394_j49804440764523_1_alg».proof.Proof.Gen.KernelIdeal.Skeleton
import proofs.«106394_j49804440764523_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, whether that point fetches it or not: a point that
    does not fetch finds what the last fetch brought, and the block index has not moved since. One statement per input
    window, for any proof data whose array is `V`'s and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every buffer whole, one rectangle per shape -/

abbrev rE320 : Rect S4000x320 := Rect.unit (s := S4000x320) ![0, 0] S4000x320.size inb_S4000x320_S4000x320_0_0
abbrev rW320x128 : Rect S320x128 := Rect.unit (s := S320x128) ![0, 0] S320x128.size inb_S320x128_S320x128_0_0
abbrev rB128 : Rect S128 := Rect.unit (s := S128) ![0] S128.size inb_S128_S128_0
abbrev rW128x128 : Rect S128x128 := Rect.unit (s := S128x128) ![0, 0] S128x128.size inb_S128x128_S128x128_0_0
abbrev rW320x64 : Rect S320x64 := Rect.unit (s := S320x64) ![0, 0] S320x64.size inb_S320x64_S320x64_0_0
abbrev rB64 : Rect S64 := Rect.unit (s := S64) ![0] S64.size inb_S64_S64_0
abbrev rW64x64 : Rect S64x64 := Rect.unit (s := S64x64) ![0, 0] S64x64.size inb_S64x64_S64x64_0_0
abbrev rE128 : Rect S4000x128 := Rect.unit (s := S4000x128) ![0, 0] S4000x128.size inb_S4000x128_S4000x128_0_0
abbrev rE64 : Rect S4000x64 := Rect.unit (s := S4000x64) ![0, 0] S4000x64.size inb_S4000x64_S4000x64_0_0

/-! ## What the body leaves in each output buffer -/

/-- The message block: the three-layer branch of the 4000 edge rows, from the edge features' block, the three weight
    matrices and the three biases — the body's one store into the buffer. -/
def out0_11 (x0 : Vec F S4000x320 .f32) (x1 : Vec F S320x128 .f32) (x2 : Vec F S128 .f32) (x3 : Vec F S128x128 .f32)
    (x4 : Vec F S128 .f32) (x5 : Vec F S128x128 .f32) (x6 : Vec F S128 .f32) : Vec F S4000x128 .f32 :=
  View.canon [⟨rE128, k0_pay3 (View.ld x0 rE320) (View.ld x1 rW320x128) (View.ld x2 rB128) (View.ld x3 rW128x128)
    (View.ld x4 rB128) (View.ld x5 rW128x128) (View.ld x6 rB128)⟩]

/-- The updated-edge block: the two-layer branch of the same 4000 rows. -/
def out0_12 (x0 : Vec F S4000x320 .f32) (x7 : Vec F S320x64 .f32) (x8 : Vec F S64 .f32) (x9 : Vec F S64x64 .f32)
    (x10 : Vec F S64 .f32) : Vec F S4000x64 .f32 :=
  View.canon [⟨rE64, k0_pay1 (k0_pay2 (View.ld x0 rE320)) (k0_pay4 (View.ld x7 rW320x64)) (constant S4000x64 .f32 0x00000000#32)
    (View.ld x8 rB64) (View.ld x9 rW64x64) (View.ld x10 rB64)⟩]

/-- One whole-buffer store covers the buffer. -/
theorem cover0_11 (p0 : Vec F S4000x128 .f32) (y : S4000x128.Idx) :
    ∃ pc ∈ ([⟨rE128, p0⟩] : List (View.Piece (Elt F) S4000x128 .f32)), y ∈ pc.1.set :=
  View.cover_of_tiled [⟨rE128, p0⟩] S4000x128.size (by rfl) y
theorem cover0_12 (p0 : Vec F S4000x64 .f32) (y : S4000x64.Idx) :
    ∃ pc ∈ ([⟨rE64, p0⟩] : List (View.Piece (Elt F) S4000x64 .f32)), y ∈ pc.1.set :=
  View.cover_of_tiled [⟨rE64, p0⟩] S4000x64.size (by rfl) y

/-! ## The body's triple -/

set_option maxHeartbeats 4000000 in
/-- The body on whole staging buffers — the eleven inputs' holding `x0 … x10`, the two outputs' anything — runs to a
    state with the inputs' unchanged and each output's at its function of the inputs. (The body also loads each
    output buffer before storing into it; the loaded value is not used.) -/
theorem sound_kernel0 (c : Dev nD) (E : Set ℕ) (i : grid0.Coords)
    (arg1 : Memref sig .tc .vmem S4000x320 .f32) (harg1 : arg1.IsWhole) (arg2 : Memref sig .tc .vmem S320x128 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S128x128 .f32) (harg6 : arg6.IsWhole)
    (arg7 : Memref sig .tc .vmem S128 .f32) (harg7 : arg7.IsWhole) (arg8 : Memref sig .tc .vmem S320x64 .f32) (harg8 : arg8.IsWhole)
    (arg9 : Memref sig .tc .vmem S64 .f32) (harg9 : arg9.IsWhole) (arg10 : Memref sig .tc .vmem S64x64 .f32) (harg10 : arg10.IsWhole)
    (arg11 : Memref sig .tc .vmem S64 .f32) (harg11 : arg11.IsWhole) (arg12 : Memref sig .tc .vmem S4000x128 .f32) (harg12 : arg12.IsWhole)
    (arg13 : Memref sig .tc .vmem S4000x64 .f32) (harg13 : arg13.IsWhole)
    (x0 : Vec F S4000x320 .f32) (x1 : Vec F S320x128 .f32) (x2 : Vec F S128 .f32) (x3 : Vec F S128x128 .f32) (x4 : Vec F S128 .f32)
    (x5 : Vec F S128x128 .f32) (x6 : Vec F S128 .f32) (x7 : Vec F S320x64 .f32) (x8 : Vec F S64 .f32) (x9 : Vec F S64x64 .f32)
    (x10 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10
            ∗ owns (c : Thread nD τ) arg12 fullShare (out0_11 x0 x1 x2 x3 x4 x5 x6)
            ∗ owns (c : Thread nD τ) arg13 fullShare (out0_12 x0 x7 x8 x9 x10)) -∗ K ⟨⟩))
      ⊢ wp frame (wpE (defs₀ (F := F)) Variants.none c none) E
          (cc0__edge_mlp_kernel i arg1 harg1 arg2 harg2 arg3 harg3 arg4 harg4 arg5 harg5 arg6 harg6 arg7 harg7 arg8 harg8
            arg9 harg9 arg10 harg10 arg11 harg11 arg12 harg12 arg13 harg13) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover0_11 _)
  iexists _; isplitr
  swap; · iexact H12
  ipureintro
  try dsimp only
  exact View.read_writes_eq_canon _ _ _ (cover0_12 _)

/-! ## The pipeline's proof data -/

/-- The first call's proof data on core `c`: the arrays as the call finds them; after the body at point `t` each input's
    buffer still at its block and each output's at its function of the input blocks; nothing of the body's own to
    describe, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t)
    | ⟨12, _⟩ => out0_12 (iblk0 V c 0 t) (iblk0 V c 7 t) (iblk0 V c 8 t) (iblk0 V c 9 t) (iblk0 V c 10 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t
    = out0_11 (iblk0 V c 0 t) (iblk0 V c 1 t) (iblk0 V c 2 t) (iblk0 V c 3 t) (iblk0 V c 4 t) (iblk0 V c 5 t) (iblk0 V c 6 t) := by
  dsimp only [dat0]
theorem after0_12 (c : Dev nD) (t : Fin cfg0.N) : (dat0 V c).after 12 t
    = out0_12 (iblk0 V c 0 t) (iblk0 V c 7 t) (iblk0 V c 8 t) (iblk0 V c 9 t) (iblk0 V c 10 t) := by
  dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body obligation, at a generic point -/

/-- What the pipeline calls the body with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it must return. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

/-- The body at any point: every input's buffer holds its block, so the triple above applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩⟩
  iapply (sound_kernel0 c Set.univ _ _ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrameKI1.lean ====
/-
  The node kernel's half of the frame, at the contents `V` the second pallas_call finds in the core's buffers.

  The call runs over 25 grid points; point `t` sees rows `2000 t … 2000 t + 1999` of the 50000 × 128 node features
  (window 0) and of the summed messages (window 1), the two transposed halves of the node weights, the bias, the scale
  and the shift whole (windows 2–6, fetched once), and writes rows `2000 t …` of the updated node features (window 7).
  The body loads each staging buffer whole, computes, and stores the output buffer whole, once.
-/
import proofs.«106394_j49804440764523_1_alg».proof.Proof.Gen.KernelIdeal.Launch
import proofs.«106394_j49804440764523_1_alg».proof.Proof.Gen.KernelIdeal.Skeleton
import proofs.«106394_j49804440764523_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every buffer whole -/

abbrev rN128 : Rect S2000x128 := Rect.unit (s := S2000x128) ![0, 0] S2000x128.size inb_S2000x128_S2000x128_0_0
abbrev rNW128 : Rect S128x128 := Rect.unit (s := S128x128) ![0, 0] S128x128.size inb_S128x128_S128x128_0_0
abbrev rNB128 : Rect S128 := Rect.unit (s := S128) ![0] S128.size inb_S128_S128_0

/-! ## What the body leaves in the output buffer -/

/-- The updated-node block: the dense layer over the node's own block and its messages' block, the rectifier, and the
    layer normalisation with scale and shift — the body's one store into the buffer. -/
def out1_7 (x0 x1 : Vec F S2000x128 .f32) (x2 x3 : Vec F S128x128 .f32) (x4 x5 x6 : Vec F S128 .f32) : Vec F S2000x128 .f32 :=
  View.canon [⟨rN128, k1_pay1 (k1_pay2 (View.ld x0 rN128) (View.ld x1 rN128) (View.ld x2 rNW128) (View.ld x3 rNW128) (View.ld x4 rNB128))
    (k1_pay3 (View.ld x5 rNB128)) (View.ld x6 rNB128)⟩]

/-- One whole-buffer store covers the buffer. -/
theorem cover1_7 (p0 : Vec F S2000x128 .f32) (y : S2000x128.Idx) :
    ∃ pc ∈ ([⟨rN128, p0⟩] : List (View.Piece (Elt F) S2000x128 .f32)), y ∈ pc.1.set :=
  View.cover_of_tiled [⟨rN128, p0⟩] S2000x128.size (by rfl) y

/-! ## The body's triple -/

set_option maxHeartbeats 4000000 in
/-- The body on whole staging buffers — the seven inputs' holding `x0 … x6`, the output's anything — runs to a state with
    the inputs' unchanged and the output's at its function of the inputs. (The body also loads the output buffer before
    storing into it; the loaded value is not used.) -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S128 .f32) (harg6 : arg6.IsWhole)
    (arg7 : Memref sig .tc .vmem S128 .f32) (harg7 : arg7.IsWhole) (arg8 : Memref sig .tc .vmem S2000x128 .f32) (harg8 : arg8.IsWhole)
    (x0 x1 : Vec F S2000x128 .f32) (x2 x3 : Vec F S128x128 .f32) (x4 x5 x6 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E
          (cc1__node_update_kernel i arg1 harg1 arg2 harg2 arg3 harg3 arg4 harg4 arg5 harg5 arg6 harg6 arg7 harg7 arg8 harg8) K := by
  simp only [cc1__node_update_kernel_eq_skeleton]; unfold cc1__node_update_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

/-! ## The pipeline's proof data -/

/-- The second call's proof data on core `c`: the arrays as the call finds them; after the body at point `t` each
    input's buffer still at its block and the output's at its function of the input blocks; nothing of the body's own
    to describe, nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by
  dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the pipeline calls the body with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it must return. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: every input's buffer holds its block, so the triple above applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrameKIRun.lean ====
/-
  The run of the kernel program: @main's four items — a stretch of host operations (the gathers, the join
  into 320 features, the five transposes), the edge call, a second stretch (the scatter-add of the messages, the two
  halves of the node weights transposed), the node call — from the launch to the return.

  Between two items a core's buffers hold a fold from the launch memory: a host stretch applies its operations; a call
  leaves each of its windows' arrays at what the pipeline's write-backs leave (an input's array as entered) and every
  other buffer as entered. Every weakly fair execution terminates with each unscoped buffer at the last fold; the
  arguments read back through the fold to their launch contents (no host operation writes one, no call has one as an
  output), and the two results are named: the updated nodes are the node call's output array, the updated edges the
  edge call's second output array, which nothing later writes.
-/
import proofs.«106394_j49804440764523_1_alg».proof.Proof.FrameKI0
import proofs.«106394_j49804440764523_1_alg».proof.Proof.FrameKI1
import proofs.«106394_j49804440764523_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch: what the edge call finds. -/
abbrev W1 : Dev nD → Valuation τ sig (Elt F) := fun c => StableHlo.after hostOps0 (W0 m ρ c)
/-- The same read at the core's references. -/
abbrev B1 : (c : Dev nD) → (b : Ref sig .tc) → Buf (Elt F) ((c : Thread nD τ).loc b) := fun c b => W1 m ρ c b
/-- After the edge call: its arrays at what the pipeline leaves, every other buffer as entered. -/
def W2 (c : Dev nD) : Valuation τ sig (Elt F) :=
  Pipeline.withArrays spec0 c (W1 m ρ c) fun w => (dat0 (B1 m ρ) c).arrAt w cfg0.N
theorem W2_arr (c : Dev nD) (w : Fin cfg0.W) :
    W2 m ρ c (Proc.devRef .tc (Pipeline.arrRef spec0 w)) = (dat0 (B1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev B2 : (c : Dev nD) → (b : Ref sig .tc) → Buf (Elt F) ((c : Thread nD τ).loc b) := fun c b => W2 m ρ c b
theorem hF0 (c : Dev nD) (w : Fin cfg0.W) : (dat0 (B1 m ρ) c).arrAt w cfg0.N = B2 m ρ c (Pipeline.arrRef spec0 w) :=
  (W2_arr m ρ c w).symm
theorem hrest0 (c : Dev nD) : ∀ b, b ∉ Finset.univ.image (Pipeline.arrRef spec0) → B2 m ρ c b = B1 m ρ c b :=
  fun b hb => W2_of_ne m ρ c b fun w e => hb (Finset.mem_image.mpr ⟨w, Finset.mem_univ _, e⟩)

/-- After the second host stretch: what the node call finds. -/
abbrev W3 : Dev nD → Valuation τ sig (Elt F) := fun c => StableHlo.after hostOps1 (W2 m ρ c)
abbrev B3 : (c : Dev nD) → (b : Ref sig .tc) → Buf (Elt F) ((c : Thread nD τ).loc b) := fun c b => W3 m ρ c b
/-- After the node call. -/
def W4 (c : Dev nD) : Valuation τ sig (Elt F) :=
  Pipeline.withArrays spec1 c (W3 m ρ c) fun w => (dat1 (B3 m ρ) c).arrAt w cfg1.N
theorem W4_arr (c : Dev nD) (w : Fin cfg1.W) :
    W4 m ρ c (Proc.devRef .tc (Pipeline.arrRef spec1 w)) = (dat1 (B3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev B4 : (c : Dev nD) → (b : Ref sig .tc) → Buf (Elt F) ((c : Thread nD τ).loc b) := fun c b => W4 m ρ c b
theorem hF1 (c : Dev nD) (w : Fin cfg1.W) : (dat1 (B3 m ρ) c).arrAt w cfg1.N = B4 m ρ c (Pipeline.arrRef spec1 w) :=
  (W4_arr m ρ c w).symm
theorem hrest1 (c : Dev nD) : ∀ b, b ∉ Finset.univ.image (Pipeline.arrRef spec1) → B4 m ρ c b = B3 m ρ c b :=
  fun b hb => W4_of_ne m ρ c b fun w e => hb (Finset.mem_image.mpr ⟨w, Finset.mem_univ _, e⟩)

/-! ## What each item leaves alone -/

/-- The first host stretch writes only its own results. -/
theorem W1_keep (c : Dev nD) (b : Ref sig .tc) (h : b ∉ hostOps0_W) :
    W1 m ρ c (Proc.devRef .tc b) = W0 m ρ c (Proc.devRef .tc b) :=
  StableHlo.after_of_writes_sub hostOps0 _ hostOps0_writes h
/-- The second host stretch writes only its own results. -/
theorem W3_keep (c : Dev nD) (b : Ref sig .tc) (h : b ∉ hostOps1_W) :
    W3 m ρ c (Proc.devRef .tc b) = W2 m ρ c (Proc.devRef .tc b) :=
  StableHlo.after_of_writes_sub hostOps1 _ hostOps1_writes h
/-- The edge call leaves an input window's array as it found it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (B1 m ρ) c).arrAt_in w hw _).trans (A_eq0 (B1 m ρ) c w))
/-- The node call leaves an input window's array as it found it. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (B3 m ρ) c).arrAt_in w hw _).trans (A_eq1 (B3 m ρ) c w))

/-! ### The arguments end as launched -/

/-- An argument no call has as a window. -/
theorem W4_plain (c : Dev nD) (b : Ref sig .tc) (h1 : ∀ w, Pipeline.arrRef spec1 w ≠ b) (h3 : b ∉ hostOps1_W)
    (h0 : ∀ w, Pipeline.arrRef spec0 w ≠ b) (h2 : b ∉ hostOps0_W) :
    W4 m ρ c (Proc.devRef .tc b) = m ((c : Thread nD τ).loc b) :=
  (W4_of_ne m ρ c b h1).trans ((W3_keep m ρ c b h3).trans ((W2_of_ne m ρ c b h0).trans ((W1_keep m ρ c b h2).trans rfl)))

theorem W4_main_arg0 (c : Dev nD) : W4 m ρ c (Proc.devRef .tc main_arg0) = m ((c : Thread nD τ).loc main_arg0) :=
  (W4_in m ρ c 0 rfl).trans ((W3_keep m ρ c main_arg0 (by decide)).trans ((W2_of_ne m ρ c main_arg0 (by decide)).trans ((W1_keep m ρ c main_arg0 (by decide)).trans rfl)))
theorem W4_main_arg1 (c : Dev nD) : W4 m ρ c (Proc.devRef .tc main_arg1) = m ((c : Thread nD τ).loc main_arg1) :=
  W4_plain m ρ c main_arg1 (by decide) (by decide) (by decide) (by decide)
theorem W4_main_arg2 (c : Dev nD) : W4 m ρ c (Proc.devRef .tc main_arg2) = m ((c : Thread nD τ).loc main_arg2) :=
  W4_plain m ρ c main_arg2 (by decide) (by decide) (by decide) (by decide)
theorem W4_main_arg3 (c : Dev nD) : W4 m ρ c (Proc.devRef .tc main_arg3) = m ((c : Thread nD τ).loc main_arg3) :=
  W4_plain m ρ c main_arg3 (by decide) (by decide) (by decide) (by decide)
theorem W4_main_arg4 (c : Dev nD) : W4 m ρ c (Proc.devRef .tc main_arg4) = m ((c : Thread nD τ).loc main_arg4) :=
  (W4_of_ne m ρ c main_arg4 (by decide)).trans ((W3_keep m ρ c main_arg4 (by decide)).trans ((W2_in m ρ c 2 rfl).trans ((W1_keep m ρ c main_arg4 (by decide)).trans rfl)))
theorem W4_main_arg5 (c : Dev nD) : W4 m ρ c (Proc.devRef .tc main_arg5) = m ((c : Thread nD τ).loc main_arg5) :=
  W4_plain m ρ c main_arg5 (by decide) (by decide) (by decide) (by decide)
theorem W4_main_arg6 (c : Dev nD) : W4 m ρ c (Proc.devRef .tc main_arg6) = m ((c : Thread nD τ).loc main_arg6) :=
  (W4_of_ne m ρ c main_arg6 (by decide)).trans ((W3_keep m ρ c main_arg6 (by decide)).trans ((W2_in m ρ c 4 rfl).trans ((W1_keep m ρ c main_arg6 (by decide)).trans rfl)))
theorem W4_main_arg7 (c : Dev nD) : W4 m ρ c (Proc.devRef .tc main_arg7) = m ((c : Thread nD τ).loc main_arg7) :=
  W4_plain m ρ c main_arg7 (by decide) (by decide) (by decide) (by decide)
theorem W4_main_arg8 (c : Dev nD) : W4 m ρ c (Proc.devRef .tc main_arg8) = m ((c : Thread nD τ).loc main_arg8) :=
  (W4_of_ne m ρ c main_arg8 (by decide)).trans ((W3_keep m ρ c main_arg8 (by decide)).trans ((W2_in m ρ c 6 rfl).trans ((W1_keep m ρ c main_arg8 (by decide)).trans rfl)))
theorem W4_main_arg9 (c : Dev nD) : W4 m ρ c (Proc.devRef .tc main_arg9) = m ((c : Thread nD τ).loc main_arg9) :=
  W4_plain m ρ c main_arg9 (by decide) (by decide) (by decide) (by decide)
theorem W4_main_arg10 (c : Dev nD) : W4 m ρ c (Proc.devRef .tc main_arg10) = m ((c : Thread nD τ).loc main_arg10) :=
  (W4_of_ne m ρ c main_arg10 (by decide)).trans ((W3_keep m ρ c main_arg10 (by decide)).trans ((W2_in m ρ c 8 rfl).trans ((W1_keep m ρ c main_arg10 (by decide)).trans rfl)))
theorem W4_main_arg11 (c : Dev nD) : W4 m ρ c (Proc.devRef .tc main_arg11) = m ((c : Thread nD τ).loc main_arg11) :=
  W4_plain m ρ c main_arg11 (by decide) (by decide) (by decide) (by decide)
theorem W4_main_arg12 (c : Dev nD) : W4 m ρ c (Proc.devRef .tc main_arg12) = m ((c : Thread nD τ).loc main_arg12) :=
  (W4_of_ne m ρ c main_arg12 (by decide)).trans ((W3_keep m ρ c main_arg12 (by decide)).trans ((W2_in m ρ c 10 rfl).trans ((W1_keep m ρ c main_arg12 (by decide)).trans rfl)))
theorem W4_main_arg13 (c : Dev nD) : W4 m ρ c (Proc.devRef .tc main_arg13) = m ((c : Thread nD τ).loc main_arg13) :=
  W4_plain m ρ c main_arg13 (by decide) (by decide) (by decide) (by decide)
theorem W4_main_arg14 (c : Dev nD) : W4 m ρ c (Proc.devRef .tc main_arg14) = m ((c : Thread nD τ).loc main_arg14) :=
  (W4_in m ρ c 4 rfl).trans ((W3_keep m ρ c main_arg14 (by decide)).trans ((W2_of_ne m ρ c main_arg14 (by decide)).trans ((W1_keep m ρ c main_arg14 (by decide)).trans rfl)))
theorem W4_main_arg15 (c : Dev nD) : W4 m ρ c (Proc.devRef .tc main_arg15) = m ((c : Thread nD τ).loc main_arg15) :=
  (W4_in m ρ c 5 rfl).trans ((W3_keep m ρ c main_arg15 (by decide)).trans ((W2_of_ne m ρ c main_arg15 (by decide)).trans ((W1_keep m ρ c main_arg15 (by decide)).trans rfl)))
theorem W4_main_arg16 (c : Dev nD) : W4 m ρ c (Proc.devRef .tc main_arg16) = m ((c : Thread nD τ).loc main_arg16) :=
  (W4_in m ρ c 6 rfl).trans ((W3_keep m ρ c main_arg16 (by decide)).trans ((W2_of_ne m ρ c main_arg16 (by decide)).trans ((W1_keep m ρ c main_arg16 (by decide)).trans rfl)))

/-! ### The two results, named -/

/-- The updated nodes are the node call's output array. -/
theorem W4_main_v32 (c : Dev nD) : W4 m ρ c (Proc.devRef .tc main_v32) = (dat1 (B3 m ρ) c).arrAt 7 cfg1.N :=
  W4_arr m ρ c 7
/-- The updated edges are the edge call's second output array: the second stretch and the node call leave it alone. -/
theorem W4_main_v24_1 (c : Dev nD) : W4 m ρ c (Proc.devRef .tc main_v24_1) = (dat0 (B1 m ρ) c).arrAt 12 cfg0.N :=
  (W4_of_ne m ρ c main_v24_1 (by decide)).trans ((W3_keep m ρ c main_v24_1 (by decide)).trans (W2_arr m ρ c 12))

/-! ## The proof data family and the thread state -/

/-- No call has a prefetched table. -/
abbrev admNone : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) admNone p) c
  | ⟨0, _⟩ => fun c => dat0 (B1 m ρ) c
  | ⟨1, _⟩ => fun c => dat1 (B3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register. -/
abbrev Tlast (c : Dev nD) : sProp 𝕄 := iprop(StableHlo.held (c : Thread nD τ) (Pipeline.ucRefs τ sig) (W4 m ρ c) ∗ ∃ r, prngReg c r)

/-! ## The calls as segments -/

set_option backward.isDefEq.respectTransparency.types false in
/-- The edge call: entered with every unscoped buffer at `W1`, left with them at `W2`. -/
def reg0 : Pipeline.RegionSeg (pcfgs (F := F)) admNone (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B1 m ρ) c).loose
  hwaits := Pipeline.hwaits_of_owed_zero _ _ _ _ L lv 0 fun _ _ => rfl
  pre c := iprop(StableHlo.held (c : Thread nD τ) (Pipeline.ucRefs τ sig) (W1 m ρ c) ∗ Rst c)
  post c := iprop(StableHlo.held (c : Thread nD τ) (Pipeline.ucRefs τ sig) (W2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (B1 m ρ c)
  hentry c := by
    rw [Pipeline.ownSems0_none]
    have hsplit := Pipeline.arrays_of_unscopedBufs (p := 0) (pcfgs (F := F)) admNone (pdats m ρ) launch0.win launch0.arr_whole c
      ((pdats m ρ 0 c).share_full fun _ => rfl) (B1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admNone (Ix := Unit) (Name := ℕ) (U := UR sig nD τ) (Lvl := ℕ)
      launch0.win launch0.arr_whole c (pdats m ρ) ((pdats m ρ 0 c).share_full fun _ => rfl)
      (B1 m ρ c) (B2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node call: entered with every unscoped buffer at `W3`, left with them at `W4`. -/
def reg1 : Pipeline.RegionSeg (pcfgs (F := F)) admNone (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B3 m ρ) c).loose
  hwaits := Pipeline.hwaits_of_owed_zero _ _ _ _ L lv 1 fun _ _ => rfl
  pre c := iprop(StableHlo.held (c : Thread nD τ) (Pipeline.ucRefs τ sig) (W3 m ρ c) ∗ Rst c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (B3 m ρ c)
  hentry c := by
    rw [Pipeline.ownSems0_none]
    have hsplit := Pipeline.arrays_of_unscopedBufs (p := 1) (pcfgs (F := F)) admNone (pdats m ρ) launch1.win launch1.arr_whole c
      ((pdats m ρ 1 c).share_full fun _ => rfl) (B3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admNone (Ix := Unit) (Name := ℕ) (U := UR sig nD τ) (Lvl := ℕ)
      launch1.win launch1.arr_whole c (pdats m ρ) ((pdats m ρ 1 c).share_full fun _ => rfl)
      (B3 m ρ c) (B4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev mainSegs : List (Pipeline.Seg (pcfgs (F := F)) admNone (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (mainSegs m ρ) := (main_chain c).trans (by chain_rfl)

set_option backward.isDefEq.respectTransparency.types false in
/-- THE RUN. From any memory with zero counters every weakly fair execution of @main terminates, nothing faulting, and
    every final memory holds each unscoped buffer of each core at the last fold `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) admNone (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c)) (Tₙ := Tlast m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME, at any `F`: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c),
     (h c _ (mem_uc main_arg15 (by decide))).trans (W4_main_arg15 m ρ c),
     (h c _ (mem_uc main_arg16 (by decide))).trans (W4_main_arg16 m ρ c)⟩) (run_main m ρ)

end Cert.KernelIdeal.Fr

end
-- ==== Proof.HostGlue.lean ====
/-
  What the host leaves in the buffers the two kernels read, as terms of the argument buffers.

  Before the edge kernel the host cuts the 2 × 400000 edge list into its two rows of node numbers, wraps each
  number the way an array index is wrapped (a negative number counts back from 50000), gathers the 128 features
  of the node at each end of every edge and joins them with the edge's own 64 features into one row of 320; it
  also transposes the five weight matrices so that the input feature comes first. Between the two kernels it adds
  every edge's message into the row of the edge's second node, starting from zeros, and cuts the node layer's
  128 × 256 weight matrix into its two 128 × 128 halves, each transposed.

  Each statement below holds for any contents of the buffers the operations start from.
-/
import proofs.«106394_j49804440764523_1_alg».proof.Proof.Gen.KernelIdeal.Launch
import Idealize.ShloMosaic.Lib.StableHlo.Run
import Idealize.ShloMosaic.Lib.ValueIdx
import Idealize.ShloMosaic.Lib.Pipeline.Value

noncomputable section

namespace Cert.KernelIdeal.HostGlue

open Idealize.ShloMosaic Idealize.ShloMosaic.TcCoe Idealize.SL.Sem Cert.KernelIdeal Cert.KernelIdeal.Gen

variable {F : FTy → Type} [FloatOps F]

/-- The edges' first nodes: row 0 of the edge list, as a vector of 400000 node numbers. -/
def srcVec (x2 : (⟨S2x400000, .i32⟩ : BufTy).Contents (Elt F)) : (⟨S400000, .i32⟩ : BufTy).Contents (Elt F) :=
  shapeCast _ (extractStridedSlice S1x400000 ![0, 0] x2 slices_S2x400000_S1x400000_0_0) shapeCasts_S1x400000_S400000

/-- The edges' second nodes: row 1 of the edge list, as a vector of 400000 node numbers. -/
def dstVec (x2 : (⟨S2x400000, .i32⟩ : BufTy).Contents (Elt F)) : (⟨S400000, .i32⟩ : BufTy).Contents (Elt F) :=
  shapeCast _ (extractStridedSlice S1x400000 ![1, 0] x2 slices_S2x400000_S1x400000_1_0) shapeCasts_S1x400000_S400000

/-- Node numbers wrapped as array indices are: a number below zero has 50000 added. -/
def wrapIdx (v : (⟨S400000, .i32⟩ : BufTy).Contents (Elt F)) : (⟨S400000, .i32⟩ : BufTy).Contents (Elt F) :=
  select (cmpi .slt v (broadcastInDim S400000 ![] bcast_S_S400000 (constantI S_ 32 0#32)))
    (addi v (broadcastInDim S400000 ![] bcast_S_S400000 (constantI S_ 32 50000#32))) v

/-- The 128 features of the node each edge names, one row per edge. -/
def nodeRows (x0 : (⟨S50000x128, .f32⟩ : BufTy).Contents (Elt F)) (v : (⟨S400000, .i32⟩ : BufTy).Contents (Elt F)) :
    (⟨S400000x128, .f32⟩ : BufTy).Contents (Elt F) :=
  Host.gather gather_S50000x128_S400000x1_S400000x128_1_0_n_n_0_1_1128 x0
    (broadcastInDim S400000x1 ![0] bcast_S400000_S400000x1_0 (wrapIdx v))

/-- An edge's 320 input features: its first node's 128, its second node's 128, its own 64. -/
def hFeat (x0 : (⟨S50000x128, .f32⟩ : BufTy).Contents (Elt F)) (x1 : (⟨S400000x64, .f32⟩ : BufTy).Contents (Elt F))
    (x2 : (⟨S2x400000, .i32⟩ : BufTy).Contents (Elt F)) : (⟨S400000x320, .f32⟩ : BufTy).Contents (Elt F) :=
  concatenate S400000x320 1
    [⟨S400000x128, nodeRows x0 (srcVec x2)⟩, ⟨S400000x128, nodeRows x0 (dstVec x2)⟩, ⟨S400000x64, x1⟩]
    concatenates_S400000x128_S400000x128_S400000x64_S400000x320_d1

/-- The messages summed per node: every edge's row of `M` added into the row `idx` names, from zeros. -/
def scat (idx : (⟨S400000, .i32⟩ : BufTy).Contents (Elt F)) (M : (⟨S400000x128, .f32⟩ : BufTy).Contents (Elt F)) :
    (⟨S50000x128, .f32⟩ : BufTy).Contents (Elt F) :=
  Host.scatterAdd scatter_S50000x128_S400000x1_S400000x128_1_0_0_1
    (broadcastInDim S50000x128 ![] bcast_S_S50000x128 (constant (F := F) S_ .f32 0x00000000#32))
    (broadcastInDim S400000x1 ![0] bcast_S400000_S400000x1_0 idx) M

/-- The joined features written out operation by operation. -/
theorem hFeat_eq (x0 : (⟨S50000x128, .f32⟩ : BufTy).Contents (Elt F)) (x1 : (⟨S400000x64, .f32⟩ : BufTy).Contents (Elt F))
    (x2 : (⟨S2x400000, .i32⟩ : BufTy).Contents (Elt F)) :
    hFeat x0 x1 x2
      = concatenate S400000x320 1
          [⟨S400000x128, Host.gather gather_S50000x128_S400000x1_S400000x128_1_0_n_n_0_1_1128 x0
              (broadcastInDim S400000x1 ![0] bcast_S400000_S400000x1_0
                (select
                  (cmpi .slt
                    (shapeCast _ (extractStridedSlice S1x400000 ![0, 0] x2 slices_S2x400000_S1x400000_0_0) shapeCasts_S1x400000_S400000)
                    (broadcastInDim S400000 ![] bcast_S_S400000 (constantI S_ 32 0#32)))
                  (addi
                    (shapeCast _ (extractStridedSlice S1x400000 ![0, 0] x2 slices_S2x400000_S1x400000_0_0) shapeCasts_S1x400000_S400000)
                    (broadcastInDim S400000 ![] bcast_S_S400000 (constantI S_ 32 50000#32)))
                  (shapeCast _ (extractStridedSlice S1x400000 ![0, 0] x2 slices_S2x400000_S1x400000_0_0) shapeCasts_S1x400000_S400000)))⟩,
           ⟨S400000x128, Host.gather gather_S50000x128_S400000x1_S400000x128_1_0_n_n_0_1_1128 x0
              (broadcastInDim S400000x1 ![0] bcast_S400000_S400000x1_0
                (select
                  (cmpi .slt
                    (shapeCast _ (extractStridedSlice S1x400000 ![1, 0] x2 slices_S2x400000_S1x400000_1_0) shapeCasts_S1x400000_S400000)
                    (broadcastInDim S400000 ![] bcast_S_S400000 (constantI S_ 32 0#32)))
                  (addi
                    (shapeCast _ (extractStridedSlice S1x400000 ![1, 0] x2 slices_S2x400000_S1x400000_1_0) shapeCasts_S1x400000_S400000)
                    (broadcastInDim S400000 ![] bcast_S_S400000 (constantI S_ 32 50000#32)))
                  (shapeCast _ (extractStridedSlice S1x400000 ![1, 0] x2 slices_S2x400000_S1x400000_1_0) shapeCasts_S1x400000_S400000)))⟩,
           ⟨S400000x64, x1⟩]
          concatenates_S400000x128_S400000x128_S400000x64_S400000x320_d1 := rfl

/-! ## Before the edge kernel -/

/-- The edge kernel's input rows are the joined features of the argument buffers. -/
theorem after0_v18 (W : Valuation τ sig (Elt F)) :
    StableHlo.after hostOps0 W (Proc.devRef .tc main_v18)
      = hFeat (W (Proc.devRef .tc main_arg0)) (W (Proc.devRef .tc main_arg1)) (W (Proc.devRef .tc main_arg2)) := by
  show StableHlo.after hostOps0 W (Proc.devRef .tc main_v18) = _
  after_results <;> rfl

/-- The second-node vector is row 1 of the edge list. -/
theorem after0_v3 (W : Valuation τ sig (Elt F)) :
    StableHlo.after hostOps0 W (Proc.devRef .tc main_v3)
      = dstVec (W (Proc.devRef .tc main_arg2)) := by
  show StableHlo.after hostOps0 W (Proc.devRef .tc main_v3) = _
  after_results <;> rfl

/-- The message branch's first weights, input feature first. -/
theorem after0_v19 (W : Valuation τ sig (Elt F)) :
    StableHlo.after hostOps0 W (Proc.devRef .tc main_v19)
      = transpose S320x128 [1, 0] (W (Proc.devRef .tc main_arg3)) transposes_S128x320_S320x128_1_0 := by
  show StableHlo.after hostOps0 W (Proc.devRef .tc main_v19) = _
  after_results <;> rfl

/-- The message branch's second weights, input feature first. -/
theorem after0_v20 (W : Valuation τ sig (Elt F)) :
    StableHlo.after hostOps0 W (Proc.devRef .tc main_v20)
      = transpose S128x128 [1, 0] (W (Proc.devRef .tc main_arg5)) transposes_S128x128_S128x128_1_0 := by
  show StableHlo.after hostOps0 W (Proc.devRef .tc main_v20) = _
  after_results <;> rfl

/-- The message branch's third weights, input feature first. -/
theorem after0_v21 (W : Valuation τ sig (Elt F)) :
    StableHlo.after hostOps0 W (Proc.devRef .tc main_v21)
      = transpose S128x128 [1, 0] (W (Proc.devRef .tc main_arg7)) transposes_S128x128_S128x128_1_0 := by
  show StableHlo.after hostOps0 W (Proc.devRef .tc main_v21) = _
  after_results <;> rfl

/-- The edge branch's first weights, input feature first. -/
theorem after0_v22 (W : Valuation τ sig (Elt F)) :
    StableHlo.after hostOps0 W (Proc.devRef .tc main_v22)
      = transpose S320x64 [1, 0] (W (Proc.devRef .tc main_arg9)) transposes_S64x320_S320x64_1_0 := by
  show StableHlo.after hostOps0 W (Proc.devRef .tc main_v22) = _
  after_results <;> rfl

/-- The edge branch's second weights, input feature first. -/
theorem after0_v23 (W : Valuation τ sig (Elt F)) :
    StableHlo.after hostOps0 W (Proc.devRef .tc main_v23)
      = transpose S64x64 [1, 0] (W (Proc.devRef .tc main_arg11)) transposes_S64x64_S64x64_1_0 := by
  show StableHlo.after hostOps0 W (Proc.devRef .tc main_v23) = _
  after_results <;> rfl

/-! ## Between the two kernels -/

/-- The node kernel's summed messages: the edge kernel's messages added into their second nodes' rows. -/
theorem after1_v27 (W : Valuation τ sig (Elt F)) :
    StableHlo.after hostOps1 W (Proc.devRef .tc main_v27)
      = scat (W (Proc.devRef .tc main_v3)) (W (Proc.devRef .tc main_v24_0)) := by
  show StableHlo.after hostOps1 W (Proc.devRef .tc main_v27) = _
  after_results <;> rfl

/-- The node layer's weights against a node's own features: the left half of the 128 × 256 matrix, transposed. -/
theorem after1_v30 (W : Valuation τ sig (Elt F)) :
    StableHlo.after hostOps1 W (Proc.devRef .tc main_v30)
      = transpose S128x128 [1, 0]
          (extractStridedSlice S128x128 ![0, 0] (W (Proc.devRef .tc main_arg13)) slices_S128x256_S128x128_0_0)
          transposes_S128x128_S128x128_1_0 := by
  show StableHlo.after hostOps1 W (Proc.devRef .tc main_v30) = _
  after_results <;> rfl

/-- The node layer's weights against a node's summed messages: the right half of the matrix, transposed. -/
theorem after1_v31 (W : Valuation τ sig (Elt F)) :
    StableHlo.after hostOps1 W (Proc.devRef .tc main_v31)
      = transpose S128x128 [1, 0]
          (extractStridedSlice S128x128 ![0, 128] (W (Proc.devRef .tc main_arg13)) slices_S128x256_S128x128_0_128)
          transposes_S128x128_S128x128_1_0 := by
  show StableHlo.after hostOps1 W (Proc.devRef .tc main_v31) = _
  after_results <;> rfl

/-- A 128 × 128 matrix transposed, read at row `k` and column `j`, is the matrix at row `j` and column `k`. -/
theorem transpose128_apply {α : Type} (x : S128x128.Idx → α) (k j : Fin 128) :
    transpose S128x128 [1, 0] x transposes_S128x128_S128x128_1_0 (ValueIdx.ix2 k j) = x (ValueIdx.ix2 j k) :=
  transpose_apply [1, 0] x transposes_S128x128_S128x128_1_0 (ValueIdx.ix2 k j) (ValueIdx.ix2 j k) (fun b => match b with
    | ⟨0, _⟩ => rfl
    | ⟨1, _⟩ => rfl)

/-- The left half of a 128 × 256 matrix at row `j`, column `k` is the matrix at row `j`, column `k`. -/
theorem leftHalf_apply {α : Type} (x : S128x256.Idx → α) (j k : Fin 128) :
    extractStridedSlice S128x128 ![0, 0] x slices_S128x256_S128x128_0_0 (ValueIdx.ix2 j k)
      = x (ValueIdx.ix2 j (Fin.castAdd 128 k)) :=
  extractStridedSlice_apply ![0, 0] x slices_S128x256_S128x128_0_0 (ValueIdx.ix2 j k) (ValueIdx.ix2 j (Fin.castAdd 128 k))
    (fun a => match a with
      | ⟨0, _⟩ => by show j.val = 0 + j.val; omega
      | ⟨1, _⟩ => by show k.val = 0 + k.val; omega)

/-- The right half of a 128 × 256 matrix at row `j`, column `k` is the matrix at row `j`, column `128 + k`. -/
theorem rightHalf_apply {α : Type} (x : S128x256.Idx → α) (j k : Fin 128) :
    extractStridedSlice S128x128 ![0, 128] x slices_S128x256_S128x128_0_128 (ValueIdx.ix2 j k)
      = x (ValueIdx.ix2 j (Fin.natAdd 128 k)) :=
  extractStridedSlice_apply ![0, 128] x slices_S128x256_S128x128_0_128 (ValueIdx.ix2 j k) (ValueIdx.ix2 j (Fin.natAdd 128 k))
    (fun a => match a with
      | ⟨0, _⟩ => by show j.val = 0 + j.val; omega
      | ⟨1, _⟩ => by show 128 + k.val = 128 + k.val; rfl)

/-- Entry `(k, j)` of the first weight block is the node layer's weight from input feature `k` to output `j`. -/
theorem after1_v30_apply (W : Valuation τ sig (Elt F)) (k j : Fin 128) :
    StableHlo.after hostOps1 W (Proc.devRef .tc main_v30) (ValueIdx.ix2 k j)
      = W (Proc.devRef .tc main_arg13) (ValueIdx.ix2 j (Fin.castAdd 128 k)) := by
  rw [after1_v30]
  exact (transpose128_apply _ k j).trans (leftHalf_apply _ j k)

/-- Entry `(k, j)` of the second weight block is the node layer's weight from input feature `128 + k` to output `j`. -/
theorem after1_v31_apply (W : Valuation τ sig (Elt F)) (k j : Fin 128) :
    StableHlo.after hostOps1 W (Proc.devRef .tc main_v31) (ValueIdx.ix2 k j)
      = W (Proc.devRef .tc main_arg13) (ValueIdx.ix2 j (Fin.natAdd 128 k)) := by
  rw [after1_v31]
  exact (transpose128_apply _ k j).trans (rightHalf_apply _ j k)

end Cert.KernelIdeal.HostGlue

end
-- ==== Proof.KIEntry.lean ====
/-
  What each pallas_call finds in the buffers it reads, in terms of the launch memory.

  The edge call finds the joined 320 edge features and the five transposed weight matrices as the first host stretch
  computed them from the arguments, and the five biases as launched. The node call finds the node features, its bias,
  scale and shift as launched (no host operation writes an argument, and the edge call has none of these as a window),
  the summed messages as the scatter-add of the edge call's message array by the destination row of the edge list, and
  the two transposed halves of the node weights.
-/
import proofs.«106394_j49804440764523_1_alg».proof.Proof.FrameKIRun
import proofs.«106394_j49804440764523_1_alg».proof.Proof.HostGlue

noncomputable section

namespace Cert.KernelIdeal.Fr

open Cert.KernelIdeal Cert.KernelIdeal.Gen Cert.KernelIdeal.HostGlue
open Idealize.ShloMosaic Idealize.ShloMosaic.TcCoe Idealize.SL.Sem

variable {F : FTy → Type} [FloatOps F]
variable (m : (ℓ : Loc nD τ sig) → Buf (Elt F) ℓ) (ρ : Dev nD → PrngReg)

/-! ## The edge call's entry -/

/-- A buffer the first host stretch does not write is as launched. -/
theorem B1_arg (c : Dev nD) (b : Ref sig .tc) (h : b ∉ hostOps0_W) : B1 m ρ c b = m ((c : Thread nD τ).loc b) :=
  (W1_keep m ρ c b h).trans rfl

theorem B1_v18 (c : Dev nD) : B1 m ρ c main_v18
    = hFeat (m ((c : Thread nD τ).loc main_arg0)) (m ((c : Thread nD τ).loc main_arg1)) (m ((c : Thread nD τ).loc main_arg2)) :=
  after0_v18 (W0 m ρ c)
theorem B1_v19 (c : Dev nD) : B1 m ρ c main_v19 = transpose S320x128 [1, 0] (m ((c : Thread nD τ).loc main_arg3)) transposes_S128x320_S320x128_1_0 :=
  after0_v19 (W0 m ρ c)
theorem B1_v20 (c : Dev nD) : B1 m ρ c main_v20 = transpose S128x128 [1, 0] (m ((c : Thread nD τ).loc main_arg5)) transposes_S128x128_S128x128_1_0 :=
  after0_v20 (W0 m ρ c)
theorem B1_v21 (c : Dev nD) : B1 m ρ c main_v21 = transpose S128x128 [1, 0] (m ((c : Thread nD τ).loc main_arg7)) transposes_S128x128_S128x128_1_0 :=
  after0_v21 (W0 m ρ c)
theorem B1_v22 (c : Dev nD) : B1 m ρ c main_v22 = transpose S320x64 [1, 0] (m ((c : Thread nD τ).loc main_arg9)) transposes_S64x320_S320x64_1_0 :=
  after0_v22 (W0 m ρ c)
theorem B1_v23 (c : Dev nD) : B1 m ρ c main_v23 = transpose S64x64 [1, 0] (m ((c : Thread nD τ).loc main_arg11)) transposes_S64x64_S64x64_1_0 :=
  after0_v23 (W0 m ρ c)

/-! ## The node call's entry -/

/-- A buffer neither host stretch writes and the edge call has no window on is as launched. -/
theorem B3_arg (c : Dev nD) (b : Ref sig .tc) (h1 : b ∉ hostOps1_W) (h0 : ∀ w, Pipeline.arrRef spec0 w ≠ b) (h2 : b ∉ hostOps0_W) :
    B3 m ρ c b = m ((c : Thread nD τ).loc b) :=
  (W3_keep m ρ c b h1).trans ((W2_of_ne m ρ c b h0).trans ((W1_keep m ρ c b h2).trans rfl))

/-- The destination row of the edge list reaches the second stretch as the first computed it. -/
theorem W2_v3 (c : Dev nD) : W2 m ρ c (Proc.devRef .tc main_v3) = dstVec (m ((c : Thread nD τ).loc main_arg2)) :=
  (W2_of_ne m ρ c main_v3 (by decide)).trans (after0_v3 (W0 m ρ c))

/-- The summed messages: the edge call's message array scatter-added by destination. -/
theorem B3_v27 (c : Dev nD) : B3 m ρ c main_v27
    = scat (dstVec (m ((c : Thread nD τ).loc main_arg2))) ((dat0 (B1 m ρ) c).arrAt 11 cfg0.N) :=
  (after1_v27 (W2 m ρ c)).trans (congrArg₂ scat (W2_v3 m ρ c) (W2_arr m ρ c 11))

/-- The node weights reach the second stretch as launched. -/
theorem W2_arg13 (c : Dev nD) : W2 m ρ c (Proc.devRef .tc main_arg13) = m ((c : Thread nD τ).loc main_arg13) :=
  (W2_of_ne m ρ c main_arg13 (by decide)).trans ((W1_keep m ρ c main_arg13 (by decide)).trans rfl)

theorem B3_v30_apply (c : Dev nD) (k j : Fin 128) :
    B3 m ρ c main_v30 (ValueIdx.ix2 k j) = m ((c : Thread nD τ).loc main_arg13) (ValueIdx.ix2 j (Fin.castAdd 128 k)) :=
  (after1_v30_apply (W2 m ρ c) k j).trans (congrFun (W2_arg13 m ρ c) _)
theorem B3_v31_apply (c : Dev nD) (k j : Fin 128) :
    B3 m ρ c main_v31 (ValueIdx.ix2 k j) = m ((c : Thread nD τ).loc main_arg13) (ValueIdx.ix2 j (Fin.natAdd 128 k)) :=
  (after1_v31_apply (W2 m ρ c) k j).trans (congrFun (W2_arg13 m ρ c) _)

end Cert.KernelIdeal.Fr

end
-- ==== Proof.Spec.lean ====
/-
  The mathematics both programs compute, one row at a time, over the extended reals.

  An edge carries 320 features (two gathered node rows and its own 64); a dense layer sends a row `x` to
  `(∑ k, x k * w k j) + b j`, the weights given with the input feature first; the rectifier is `max · 0` against
  the zero pattern. The message branch is three dense layers with two rectifiers between them, the edge branch
  two layers with one. A node's update is one dense layer over the node's own 128 features followed by the 128
  summed messages — stated as the two half sums the kernel takes, which the reference's single sum over 256
  equals because addition of extended reals is commutative and associative — then the rectifier and a layer
  normalisation over the 128 outputs: mean and variance by division by the pattern of 128, the reciprocal square
  root of variance plus the pattern of 1e-5, scale and shift.
-/
import Idealize.ShloMosaic.PureOps.Ideal

noncomputable section

namespace Cert.Spec

open Idealize.ShloMosaic

/-- The zero a rectifier compares against: the all-zero f32 pattern. -/
def zero : EReal := Ideal.ofBits .f32 0x00000000#32
/-- The divisor of a mean over 128 outputs: the f32 pattern of 128. -/
def c128 : EReal := Ideal.ofBits .f32 0x43000000#32
/-- The variance's offset: the f32 pattern nearest 1e-5. -/
def eps : EReal := Ideal.ofBits .f32 0x3727C5AC#32

/-- The rectifier. -/
def relu (y : EReal) : EReal := max y zero

/-- One output of a dense layer: the row against one column of weights, plus the bias. -/
def lin {K : ℕ} (x w : Fin K → EReal) (b : EReal) : EReal := (∑ k, x k * w k) + b

/-- An edge's message: dense 320→128, rectifier, dense 128→128, rectifier, dense 128→128. -/
def msgRow (h : Fin 320 → EReal) (w1 : Fin 320 → Fin 128 → EReal) (b1 : Fin 128 → EReal)
    (w2 : Fin 128 → Fin 128 → EReal) (b2 : Fin 128 → EReal) (w3 : Fin 128 → Fin 128 → EReal) (b3 : Fin 128 → EReal)
    (j : Fin 128) : EReal :=
  lin (fun k => relu (lin (fun k' => relu (lin h (fun q => w1 q k') (b1 k'))) (fun k' => w2 k' k) (b2 k)))
    (fun k => w3 k j) (b3 j)

/-- An edge's updated features: dense 320→64, rectifier, dense 64→64. -/
def edgeRow (h : Fin 320 → EReal) (w1 : Fin 320 → Fin 64 → EReal) (b1 : Fin 64 → EReal)
    (w2 : Fin 64 → Fin 64 → EReal) (b2 : Fin 64 → EReal) (j : Fin 64) : EReal :=
  lin (fun k => relu (lin h (fun q => w1 q k) (b1 k))) (fun k => w2 k j) (b2 j)

/-- A node's dense layer before the rectifier, as two half sums: its own features against `wa`, its summed
    messages against `wb`, then the bias. -/
def nodePre (nf msg : Fin 128 → EReal) (wa wb : Fin 128 → Fin 128 → EReal) (bn : Fin 128 → EReal) (j : Fin 128) : EReal :=
  ((∑ k, nf k * wa k j) + (∑ k, msg k * wb k j)) + bn j

/-- Layer normalisation of a row of 128 with scale `g` and shift `b`. -/
def layerNorm (u g b : Fin 128 → EReal) (j : Fin 128) : EReal :=
  (u j - Ideal.div (∑ k, u k) c128)
      * Ideal.rsqrt (Ideal.div (∑ k, (u k - Ideal.div (∑ k', u k') c128) * (u k - Ideal.div (∑ k', u k') c128)) c128 + eps)
    * g j + b j

/-- A node's updated features. -/
def nodeRow (nf msg : Fin 128 → EReal) (wa wb : Fin 128 → Fin 128 → EReal) (bn g b : Fin 128 → EReal) (j : Fin 128) : EReal :=
  layerNorm (fun k => relu (nodePre nf msg wa wb bn k)) g b j

/-- The reference's single sum over the 256 joined features is the two half sums: a sum over `Fin (128 + 128)`
    splits at 128, in any additive commutative monoid. -/
theorem sum_256_split (f : Fin 256 → EReal) :
    (∑ k : Fin 256, f k) = (∑ k : Fin 128, f (Fin.castAdd 128 k)) + (∑ k : Fin 128, f (Fin.natAdd 128 k)) :=
  Fin.sum_univ_add (a := 128) (b := 128) f

end Cert.Spec

end
-- ==== Proof.PayEdge.lean ====
/-
  The edge kernel's two results, read at one edge `r` and one output feature `j`, are the specification's row
  functions of the kernel's loaded blocks read at indices.

  Each result is a chain of dense layers. A layer is a matrix product accumulated into a zero splat, plus a bias
  laid along every row; between layers the rectifier (a maximum against a splat of the zero pattern) and a format
  change that is the identity on the extended reals. Read at (r, j), the product is the sum over the one contracted
  axis of lhs (r, k) * rhs (k, j); the bias is b j; the rectifier is `max · 0`-pattern elementwise.
-/
import proofs.«106394_j49804440764523_1_alg».proof.Proof.Gen.KernelIdeal.Skeleton
import proofs.«106394_j49804440764523_1_alg».proof.Proof.Spec
import Idealize.ShloMosaic.Lib.ValueIdx
import Idealize.ShloMosaic.Lib.ValueLayout
import Idealize.ShloMosaic.PureOps.Ideal.Laws

noncomputable section

namespace Cert.KernelIdeal.PayEdge

open Idealize.ShloMosaic Idealize.ShloMosaic.ValueIdx Cert.KernelIdeal Cert.KernelIdeal.Gen

/-! ## A matrix product into the zero splat, read at (r, j) -/

/-- For dimension numbers that contract the left operand's axis 1 against the right operand's axis 0 (the four
    axis facts `hl0 … hr1`), the product of an `R × K` by a `K × N` matrix accumulated into zero reads, at
    `(r, j)`, the sum over `k` of `l (r, k) * w (k, j)`: the contraction index is its one coordinate. -/
theorem matmul_zero_ix2 {R K N : ℕ} {φ₁ φ₂ : FTy} (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (w : FVec Ideal ⟨2, ![K, N]⟩ φ₂) (r : Fin R) (j : Fin N) :
    matmul D none l w (constant (F := Ideal) ⟨2, ![R, N]⟩ .f32 0x00000000#32) (ix2 r j)
      = ∑ k : Fin K, l (ix2 r k) * w (ix2 k j) := by
  show FloatOps.matmul D none l w (constant (F := Ideal) ⟨2, ![R, N]⟩ .f32 0x00000000#32) (ix2 r j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 r j) ((contrEquiv1 D K hr hs).symm k) = ix2 r k := funext fun a => Fin.ext (by
    match a with
    | ⟨0, _⟩ => exact hl0 _ _
    | ⟨1, _⟩ => exact (hl1 _ _).trans hk)
  have er : D.rhsIdx (ix2 r j) ((contrEquiv1 D K hr hs).symm k) = ix2 k j := funext fun a => Fin.ext (by
    match a with
    | ⟨0, _⟩ => exact (hr0 _ _).trans hk
    | ⟨1, _⟩ => exact hr1 _ _)
  rw [el, er]

/-! ## The four products of the edge kernel -/

/-- 320 → 128: the left operand's row is the result's row. -/
theorem lhs_a_0 (i : S4000x128.Idx) (q : dot_S4000x320_S320x128_S4000x128_1_0_0_1_n_n.contr.Idx) :
    (dot_S4000x320_S320x128_S4000x128_1_0_0_1_n_n.lhsIdx i q 0).val = (i 0).val := by
  unfold DotDims.lhsIdx
  rw [dif_neg (show ¬(0 : Fin S4000x320.rank) ∈ dot_S4000x320_S320x128_S4000x128_1_0_0_1_n_n.lhsBatch by decide), dif_pos (show (0 : Fin S4000x320.rank) ∈ dot_S4000x320_S320x128_S4000x128_1_0_0_1_n_n.lhsNonContracting by decide)]
  rfl
/-- 320 → 128: the left operand's column is the contraction coordinate. -/
theorem lhs_a_1 (i : S4000x128.Idx) (q : dot_S4000x320_S320x128_S4000x128_1_0_0_1_n_n.contr.Idx) :
    (dot_S4000x320_S320x128_S4000x128_1_0_0_1_n_n.lhsIdx i q 1).val = (q ⟨0, by decide⟩).val :=
  dot_S4000x320_S320x128_S4000x128_1_0_0_1_n_n.lhsIdx_val_of_single rfl i q
/-- 320 → 128: the right operand's row is the contraction coordinate. -/
theorem rhs_a_0 (i : S4000x128.Idx) (q : dot_S4000x320_S320x128_S4000x128_1_0_0_1_n_n.contr.Idx) :
    (dot_S4000x320_S320x128_S4000x128_1_0_0_1_n_n.rhsIdx i q 0).val = (q ⟨0, by decide⟩).val :=
  dot_S4000x320_S320x128_S4000x128_1_0_0_1_n_n.rhsIdx_val_of_single rfl i q
/-- 320 → 128: the right operand's column is the result's column. -/
theorem rhs_a_1 (i : S4000x128.Idx) (q : dot_S4000x320_S320x128_S4000x128_1_0_0_1_n_n.contr.Idx) :
    (dot_S4000x320_S320x128_S4000x128_1_0_0_1_n_n.rhsIdx i q 1).val = (i 1).val := by
  unfold DotDims.rhsIdx
  rw [dif_neg (show ¬(1 : Fin S320x128.rank) ∈ dot_S4000x320_S320x128_S4000x128_1_0_0_1_n_n.rhsBatch by decide), dif_pos (show (1 : Fin S320x128.rank) ∈ dot_S4000x320_S320x128_S4000x128_1_0_0_1_n_n.rhsNonContracting by decide)]
  rfl

/-- The 320 → 128 product at (r, j). -/
theorem dot_a_apply {φ₁ φ₂ : FTy} (l : FVec Ideal S4000x320 φ₁) (w : FVec Ideal S320x128 φ₂) (r : Fin 4000) (j : Fin 128) :
    matmul dot_S4000x320_S320x128_S4000x128_1_0_0_1_n_n none l w (constant (F := Ideal) S4000x128 .f32 0x00000000#32) (ix2 r j)
      = ∑ k : Fin 320, l (ix2 r k) * w (ix2 k j) :=
  matmul_zero_ix2 dot_S4000x320_S320x128_S4000x128_1_0_0_1_n_n rfl rfl lhs_a_0 lhs_a_1 rhs_a_0 rhs_a_1 l w r j

/-- 128 → 128: the left operand's row is the result's row. -/
theorem lhs_b_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- 128 → 128: the left operand's column is the contraction coordinate. -/
theorem lhs_b_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- 128 → 128: the right operand's row is the contraction coordinate. -/
theorem rhs_b_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- 128 → 128: the right operand's column is the result's column. -/
theorem rhs_b_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The 128 → 128 product at (r, j). -/
theorem dot_b_apply {φ₁ φ₂ : FTy} (l : FVec Ideal S4000x128 φ₁) (w : FVec Ideal S128x128 φ₂) (r : Fin 4000) (j : Fin 128) :
    matmul dot_S4000x128_S128x128_S4000x128_1_0_0_1_n_n none l w (constant (F := Ideal) S4000x128 .f32 0x00000000#32) (ix2 r j)
      = ∑ k : Fin 128, l (ix2 r k) * w (ix2 k j) :=
  matmul_zero_ix2 dot_S4000x128_S128x128_S4000x128_1_0_0_1_n_n rfl rfl lhs_b_0 lhs_b_1 rhs_b_0 rhs_b_1 l w r j

/-- 320 → 64: the left operand's row is the result's row. -/
theorem lhs_c_0 (i : S4000x64.Idx) (q : dot_S4000x320_S320x64_S4000x64_1_0_0_1_n_n.contr.Idx) :
    (dot_S4000x320_S320x64_S4000x64_1_0_0_1_n_n.lhsIdx i q 0).val = (i 0).val := by
  unfold DotDims.lhsIdx
  rw [dif_neg (show ¬(0 : Fin S4000x320.rank) ∈ dot_S4000x320_S320x64_S4000x64_1_0_0_1_n_n.lhsBatch by decide), dif_pos (show (0 : Fin S4000x320.rank) ∈ dot_S4000x320_S320x64_S4000x64_1_0_0_1_n_n.lhsNonContracting by decide)]
  rfl
/-- 320 → 64: the left operand's column is the contraction coordinate. -/
theorem lhs_c_1 (i : S4000x64.Idx) (q : dot_S4000x320_S320x64_S4000x64_1_0_0_1_n_n.contr.Idx) :
    (dot_S4000x320_S320x64_S4000x64_1_0_0_1_n_n.lhsIdx i q 1).val = (q ⟨0, by decide⟩).val :=
  dot_S4000x320_S320x64_S4000x64_1_0_0_1_n_n.lhsIdx_val_of_single rfl i q
/-- 320 → 64: the right operand's row is the contraction coordinate. -/
theorem rhs_c_0 (i : S4000x64.Idx) (q : dot_S4000x320_S320x64_S4000x64_1_0_0_1_n_n.contr.Idx) :
    (dot_S4000x320_S320x64_S4000x64_1_0_0_1_n_n.rhsIdx i q 0).val = (q ⟨0, by decide⟩).val :=
  dot_S4000x320_S320x64_S4000x64_1_0_0_1_n_n.rhsIdx_val_of_single rfl i q
/-- 320 → 64: the right operand's column is the result's column. -/
theorem rhs_c_1 (i : S4000x64.Idx) (q : dot_S4000x320_S320x64_S4000x64_1_0_0_1_n_n.contr.Idx) :
    (dot_S4000x320_S320x64_S4000x64_1_0_0_1_n_n.rhsIdx i q 1).val = (i 1).val := by
  unfold DotDims.rhsIdx
  rw [dif_neg (show ¬(1 : Fin S320x64.rank) ∈ dot_S4000x320_S320x64_S4000x64_1_0_0_1_n_n.rhsBatch by decide), dif_pos (show (1 : Fin S320x64.rank) ∈ dot_S4000x320_S320x64_S4000x64_1_0_0_1_n_n.rhsNonContracting by decide)]
  rfl

/-- The 320 → 64 product at (r, j). -/
theorem dot_c_apply {φ₁ φ₂ : FTy} (l : FVec Ideal S4000x320 φ₁) (w : FVec Ideal S320x64 φ₂) (r : Fin 4000) (j : Fin 64) :
    matmul dot_S4000x320_S320x64_S4000x64_1_0_0_1_n_n none l w (constant (F := Ideal) S4000x64 .f32 0x00000000#32) (ix2 r j)
      = ∑ k : Fin 320, l (ix2 r k) * w (ix2 k j) :=
  matmul_zero_ix2 dot_S4000x320_S320x64_S4000x64_1_0_0_1_n_n rfl rfl lhs_c_0 lhs_c_1 rhs_c_0 rhs_c_1 l w r j

/-- 64 → 64: the left operand's row is the result's row. -/
theorem lhs_d_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
/-- 64 → 64: the left operand's column is the contraction coordinate. -/
theorem lhs_d_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
/-- 64 → 64: the right operand's row is the contraction coordinate. -/
theorem rhs_d_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
/-- 64 → 64: the right operand's column is the result's column. -/
theorem rhs_d_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- The 64 → 64 product at (r, j). -/
theorem dot_d_apply {φ₁ φ₂ : FTy} (l : FVec Ideal S4000x64 φ₁) (w : FVec Ideal S64x64 φ₂) (r : Fin 4000) (j : Fin 64) :
    matmul dot_S4000x64_S64x64_S4000x64_1_0_0_1_n_n none l w (constant (F := Ideal) S4000x64 .f32 0x00000000#32) (ix2 r j)
      = ∑ k : Fin 64, l (ix2 r k) * w (ix2 k j) :=
  matmul_zero_ix2 dot_S4000x64_S64x64_S4000x64_1_0_0_1_n_n rfl rfl lhs_d_0 lhs_d_1 rhs_d_0 rhs_d_1 l w r j

/-! ## Bias, rectifier, weights, and a dense layer at (r, j) -/

/-- A bias of `N` entries cast to one row and laid along `R` rows reads, at `(r, j)`, its `j`-th entry. -/
theorem bias_ix2 {α : Type} {R N : ℕ} (b : (⟨1, ![N]⟩ : Shape).Idx → α) (h1 : (⟨1, ![N]⟩ : Shape).ShapeCasts ⟨2, ![1, N]⟩)
    (h2 : (⟨2, ![1, N]⟩ : Shape).Broadcasts ⟨2, ![R, N]⟩) (r : Fin R) (j : Fin N) :
    broadcastTo ⟨2, ![R, N]⟩ (shapeCast ⟨2, ![1, N]⟩ b h1) h2 (ix2 r j) = b (ix1 j) := by
  rw [broadcastTo_1b_ab_apply, shapeCast_a_1a_apply]

/-- The rectifier against a splat of the zero pattern, then the narrowing format change (the identity on the
    extended reals), at an index. -/
theorem relu_ix {s : Shape} (x : FVec Ideal s .f32) (h : FTy.bits .bf16 < FTy.bits .f32) (i : s.Idx) :
    (truncf .bf16 (maximumf x (broadcast s (FloatOps.ofBits (F := Ideal) .f32 0x00000000#32))) h : FVec Ideal s .bf16) i
      = Cert.Spec.relu (x i) := rfl

/-- A weight block under the same-shape cast and the narrowing format change is itself. -/
theorem weight_ix {s : Shape} (w : Vec Ideal s .f32) (hc : s.ShapeCasts s) (h : FTy.bits .bf16 < FTy.bits .f32) (i : s.Idx) :
    (truncf .bf16 (shapeCast s w hc) h : FVec Ideal s .bf16) i = w i := by
  rw [truncf_apply, shapeCast_self]

/-! ## The four dense layers -/

/-- The 320 → 128 dense layer at (r, j). -/
theorem dense_a {φ₁ φ₂ : FTy} (l : FVec Ideal S4000x320 φ₁) (w : FVec Ideal S320x128 φ₂) (b : Vec Ideal S128 .f32)
    (h1 : S128.ShapeCasts S1x128) (h2 : S1x128.Broadcasts S4000x128) (r : Fin 4000) (j : Fin 128) :
    addf (matmul dot_S4000x320_S320x128_S4000x128_1_0_0_1_n_n none l w (constant (F := Ideal) S4000x128 .f32 0x00000000#32))
        (broadcastTo S4000x128 (shapeCast S1x128 b h1) h2) (ix2 r j)
      = Cert.Spec.lin (fun k => l (ix2 r k)) (fun k => w (ix2 k j)) (b (ix1 j)) := by
  rw [addf_apply, dot_a_apply, bias_ix2]
  rfl

/-- The 128 → 128 dense layer at (r, j). -/
theorem dense_b {φ₁ φ₂ : FTy} (l : FVec Ideal S4000x128 φ₁) (w : FVec Ideal S128x128 φ₂) (b : Vec Ideal S128 .f32)
    (h1 : S128.ShapeCasts S1x128) (h2 : S1x128.Broadcasts S4000x128) (r : Fin 4000) (j : Fin 128) :
    addf (matmul dot_S4000x128_S128x128_S4000x128_1_0_0_1_n_n none l w (constant (F := Ideal) S4000x128 .f32 0x00000000#32))
        (broadcastTo S4000x128 (shapeCast S1x128 b h1) h2) (ix2 r j)
      = Cert.Spec.lin (fun k => l (ix2 r k)) (fun k => w (ix2 k j)) (b (ix1 j)) := by
  rw [addf_apply, dot_b_apply, bias_ix2]
  rfl

/-- The 320 → 64 dense layer at (r, j). -/
theorem dense_c {φ₁ φ₂ : FTy} (l : FVec Ideal S4000x320 φ₁) (w : FVec Ideal S320x64 φ₂) (b : Vec Ideal S64 .f32)
    (h1 : S64.ShapeCasts S1x64) (h2 : S1x64.Broadcasts S4000x64) (r : Fin 4000) (j : Fin 64) :
    addf (matmul dot_S4000x320_S320x64_S4000x64_1_0_0_1_n_n none l w (constant (F := Ideal) S4000x64 .f32 0x00000000#32))
        (broadcastTo S4000x64 (shapeCast S1x64 b h1) h2) (ix2 r j)
      = Cert.Spec.lin (fun k => l (ix2 r k)) (fun k => w (ix2 k j)) (b (ix1 j)) := by
  rw [addf_apply, dot_c_apply, bias_ix2]
  rfl

/-- The 64 → 64 dense layer at (r, j). -/
theorem dense_d {φ₁ φ₂ : FTy} (l : FVec Ideal S4000x64 φ₁) (w : FVec Ideal S64x64 φ₂) (b : Vec Ideal S64 .f32)
    (h1 : S64.ShapeCasts S1x64) (h2 : S1x64.Broadcasts S4000x64) (r : Fin 4000) (j : Fin 64) :
    addf (matmul dot_S4000x64_S64x64_S4000x64_1_0_0_1_n_n none l w (constant (F := Ideal) S4000x64 .f32 0x00000000#32))
        (broadcastTo S4000x64 (shapeCast S1x64 b h1) h2) (ix2 r j)
      = Cert.Spec.lin (fun k => l (ix2 r k)) (fun k => w (ix2 k j)) (b (ix1 j)) := by
  rw [addf_apply, dot_d_apply, bias_ix2]
  rfl

/-! ## The two results -/

/-- The edge's 320 joined features under the same-shape cast and the format change are themselves. -/
theorem pay2_apply (v0 : Vec Ideal S4000x320 .f32) (i : S4000x320.Idx) : k0_pay2 (F := Ideal) v0 i = v0 i := by
  unfold k0_pay2
  exact weight_ix v0 _ _ i

/-- The edge branch's first weights under the same-shape cast and the format change are themselves. -/
theorem pay4_apply (v34 : Vec Ideal S320x64 .f32) (i : S320x64.Idx) : k0_pay4 (F := Ideal) v34 i = v34 i := by
  unfold k0_pay4
  exact weight_ix v34 _ _ i

/-- The message result at edge `r`, feature `j`: three dense layers with two rectifiers between them. -/
theorem pay3_apply (v0 : Vec Ideal S4000x320 .f32) (v3 : Vec Ideal S320x128 .f32) (v7 : Vec Ideal S128 .f32)
    (v14 : Vec Ideal S128x128 .f32) (v18 : Vec Ideal S128 .f32) (v25 : Vec Ideal S128x128 .f32) (v29 : Vec Ideal S128 .f32)
    (r : Fin 4000) (j : Fin 128) :
    k0_pay3 (F := Ideal) v0 v3 v7 v14 v18 v25 v29 (ValueIdx.ix2 r j)
      = Cert.Spec.msgRow (fun k => v0 (ValueIdx.ix2 r k)) (fun k j' => v3 (ValueIdx.ix2 k j')) (fun j' => v7 (ValueIdx.ix1 j'))
          (fun k j' => v14 (ValueIdx.ix2 k j')) (fun j' => v18 (ValueIdx.ix1 j')) (fun k j' => v25 (ValueIdx.ix2 k j'))
          (fun j' => v29 (ValueIdx.ix1 j')) j := by
  unfold k0_pay3 Cert.Spec.msgRow
  rw [dense_b]
  simp only [relu_ix, weight_ix, dense_b, dense_a, pay2_apply]

/-- The edge result at edge `r`, feature `j`: two dense layers with one rectifier between them. -/
theorem pay1_apply (v0 : Vec Ideal S4000x320 .f32) (v34 : Vec Ideal S320x64 .f32) (v38 : Vec Ideal S64 .f32)
    (v45 : Vec Ideal S64x64 .f32) (v49 : Vec Ideal S64 .f32) (r : Fin 4000) (j : Fin 64) :
    k0_pay1 (F := Ideal) (k0_pay2 v0) (k0_pay4 v34) (constant S4000x64 .f32 0x00000000#32) v38 v45 v49 (ValueIdx.ix2 r j)
      = Cert.Spec.edgeRow (fun k => v0 (ValueIdx.ix2 r k)) (fun k j' => v34 (ValueIdx.ix2 k j')) (fun j' => v38 (ValueIdx.ix1 j'))
          (fun k j' => v45 (ValueIdx.ix2 k j')) (fun j' => v49 (ValueIdx.ix1 j')) j := by
  unfold k0_pay1 Cert.Spec.edgeRow
  rw [dense_d]
  simp only [relu_ix, weight_ix, dense_c, pay2_apply, pay4_apply]

end Cert.KernelIdeal.PayEdge

end
-- ==== Proof.KIValue0.lean ====
/-
  From blocks to arrays for the edge call, over the extended reals.

  The call's grid has 100 points; point `t` reads rows `4000 t … 4000 t + 3999` of the 400000 × 320 edge features,
  every weight matrix and bias whole, and writes rows `4000 t …` of the two results. What the body leaves in an
  output block at row `r` is the specification's row function of the edge block's row `r`, which is the array's row
  `4000 t + r`; so every point writes its block of ONE function of the arrays, the blocks cover the array (row `e`
  lies in the block of point `e / 4000`), and the array ends holding that function.
-/
import proofs.«106394_j49804440764523_1_alg».proof.Proof.FrameKI0
import proofs.«106394_j49804440764523_1_alg».proof.Proof.PayEdge
import proofs.«106394_j49804440764523_1_alg».proof.Proof.Spec
import Idealize.ShloMosaic.Lib.Pipeline.Value
import Idealize.ShloMosaic.Lib.ValueIdx

noncomputable section

namespace Cert.KernelIdeal.Val0

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## What the body leaves in an output block, at a row and a feature -/

theorem hz2 : (![0, 0] : Fin 2 → Nat) = fun _ => 0 := funext fun a => by fin_cases a <;> rfl
theorem hz1 : (![0] : Fin 1 → Nat) = fun _ => 0 := funext fun a => by fin_cases a; rfl

/-- The message block at row `r`, feature `j`: the message row function of the edge block's row `r`. -/
theorem out0_11_apply (x0 : Vec Ideal S4000x320 .f32) (x1 : Vec Ideal S320x128 .f32) (x2 : Vec Ideal S128 .f32)
    (x3 : Vec Ideal S128x128 .f32) (x4 : Vec Ideal S128 .f32) (x5 : Vec Ideal S128x128 .f32) (x6 : Vec Ideal S128 .f32)
    (r : Fin 4000) (j : Fin 128) :
    out0_11 (F := Ideal) x0 x1 x2 x3 x4 x5 x6 (ix2 r j)
      = Cert.Spec.msgRow (fun k => x0 (ix2 r k)) (fun k j' => x1 (ix2 k j')) (fun j' => x2 (ix1 j'))
          (fun k j' => x3 (ix2 k j')) (fun j' => x4 (ix1 j')) (fun k j' => x5 (ix2 k j')) (fun j' => x6 (ix1 j')) j := by
  unfold out0_11
  rw [View.canon_unit_zero hz2]
  simp only [View.ld_unit_zero (S := S4000x320) hz2, View.ld_unit_zero (S := S320x128) hz2,
    View.ld_unit_zero (S := S128x128) hz2, View.ld_unit_zero (S := S128) hz1]
  exact PayEdge.pay3_apply x0 x1 x2 x3 x4 x5 x6 r j

/-- The updated-edge block at row `r`, feature `j`: the edge row function of the edge block's row `r`. -/
theorem out0_12_apply (x0 : Vec Ideal S4000x320 .f32) (x7 : Vec Ideal S320x64 .f32) (x8 : Vec Ideal S64 .f32)
    (x9 : Vec Ideal S64x64 .f32) (x10 : Vec Ideal S64 .f32) (r : Fin 4000) (j : Fin 64) :
    out0_12 (F := Ideal) x0 x7 x8 x9 x10 (ix2 r j)
      = Cert.Spec.edgeRow (fun k => x0 (ix2 r k)) (fun k j' => x7 (ix2 k j')) (fun j' => x8 (ix1 j'))
          (fun k j' => x9 (ix2 k j')) (fun j' => x10 (ix1 j')) j := by
  unfold out0_12
  rw [View.canon_unit_zero hz2]
  simp only [View.ld_unit_zero (S := S4000x320) hz2, View.ld_unit_zero (S := S320x64) hz2,
    View.ld_unit_zero (S := S64x64) hz2, View.ld_unit_zero (S := S64) hz1]
  exact PayEdge.pay1_apply x0 x7 x8 x9 x10 r j

/-! ## The index maps over the grid, and each window's block read off its array -/

/-- The windows' index maps over the 100 points: the edge features' window and the two results' windows
    sit at block row `t`, block column 0; every weight and bias window sits at block 0 on every axis. -/
theorem idx_facts : ∀ t : Fin cfg0.N,
    win0_0.index t (0 : Fin 2) = t.val ∧ win0_0.index t (1 : Fin 2) = 0
    ∧ win0_11.index t (0 : Fin 2) = t.val ∧ win0_11.index t (1 : Fin 2) = 0
    ∧ win0_12.index t (0 : Fin 2) = t.val ∧ win0_12.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0 :=
  (by decide +kernel : ∀ t : Fin grid0.N, _)

/-- A grid point is below 100. -/
theorem t_lt (t : Fin cfg0.N) : t.val < 100 := by
  have h := t.isLt
  have hN : cfg0.N = 100 := N_0
  omega

/-- The edge features' block at point `t`, row `r`, is the array's row `4000 t + r`. -/
theorem blk0_0 (c : Dev nD) (t : Fin cfg0.N) (r : Fin 4000) (k : Fin 320) (h : 4000 * t.val + r.val < 400000) :
    (iblk0 V c 0 t : Vec Ideal S4000x320 .f32) (ix2 r k)
      = (V c main_v18 : S400000x320.Idx → EReal) (ix2 ⟨4000 * t.val + r.val, h⟩ k) := by
  obtain ⟨h0, h1, -⟩ := idx_facts t
  show V c main_v18 (((cfg0.win 0).blk t).view.emb (ix2 r k)) = _
  congr 1; funext a; apply Fin.ext
  match a with
  | ⟨0, _⟩ => show win0_0.index t (0 : Fin 2) * 4000 + 1 * r.val = 4000 * t.val + r.val; omega
  | ⟨1, _⟩ => show win0_0.index t (1 : Fin 2) * 320 + 1 * k.val = k.val; omega

/-- The message branch's first weights: its block at any point is the whole array. -/
theorem blk0_1 (c : Dev nD) (t : Fin cfg0.N) (k : Fin 320) (j : Fin 128) :
    (iblk0 V c 1 t : Vec Ideal S320x128 .f32) (ix2 k j) = (V c main_v19 : S320x128.Idx → EReal) (ix2 k j) := by
  obtain ⟨-, -, -, -, -, -, e1a, e1b, e2, e3a, e3b, e4, e5a, e5b, e6, e7a, e7b, e8, e9a, e9b, e10⟩ := idx_facts t
  show V c main_v19 (((cfg0.win 1).blk t).view.emb (ix2 k j)) = _
  congr 1; funext a; apply Fin.ext
  match a with
  | ⟨0, _⟩ => show win0_1.index t (0 : Fin 2) * 320 + 1 * k.val = k.val; omega
  | ⟨1, _⟩ => show win0_1.index t (1 : Fin 2) * 128 + 1 * j.val = j.val; omega

/-- The message branch's first bias: its block at any point is the whole array. -/
theorem blk0_2 (c : Dev nD) (t : Fin cfg0.N) (j : Fin 128) :
    (iblk0 V c 2 t : Vec Ideal S128 .f32) (ix1 j) = (V c main_arg4 : S128.Idx → EReal) (ix1 j) := by
  obtain ⟨-, -, -, -, -, -, e1a, e1b, e2, e3a, e3b, e4, e5a, e5b, e6, e7a, e7b, e8, e9a, e9b, e10⟩ := idx_facts t
  show V c main_arg4 (((cfg0.win 2).blk t).view.emb (ix1 j)) = _
  congr 1; funext a; apply Fin.ext
  match a with
  | ⟨0, _⟩ => show win0_2.index t (0 : Fin 1) * 128 + 1 * j.val = j.val; omega

/-- The message branch's second weights: its block at any point is the whole array. -/
theorem blk0_3 (c : Dev nD) (t : Fin cfg0.N) (k : Fin 128) (j : Fin 128) :
    (iblk0 V c 3 t : Vec Ideal S128x128 .f32) (ix2 k j) = (V c main_v20 : S128x128.Idx → EReal) (ix2 k j) := by
  obtain ⟨-, -, -, -, -, -, e1a, e1b, e2, e3a, e3b, e4, e5a, e5b, e6, e7a, e7b, e8, e9a, e9b, e10⟩ := idx_facts t
  show V c main_v20 (((cfg0.win 3).blk t).view.emb (ix2 k j)) = _
  congr 1; funext a; apply Fin.ext
  match a with
  | ⟨0, _⟩ => show win0_3.index t (0 : Fin 2) * 128 + 1 * k.val = k.val; omega
  | ⟨1, _⟩ => show win0_3.index t (1 : Fin 2) * 128 + 1 * j.val = j.val; omega

/-- The message branch's second bias: its block at any point is the whole array. -/
theorem blk0_4 (c : Dev nD) (t : Fin cfg0.N) (j : Fin 128) :
    (iblk0 V c 4 t : Vec Ideal S128 .f32) (ix1 j) = (V c main_arg6 : S128.Idx → EReal) (ix1 j) := by
  obtain ⟨-, -, -, -, -, -, e1a, e1b, e2, e3a, e3b, e4, e5a, e5b, e6, e7a, e7b, e8, e9a, e9b, e10⟩ := idx_facts t
  show V c main_arg6 (((cfg0.win 4).blk t).view.emb (ix1 j)) = _
  congr 1; funext a; apply Fin.ext
  match a with
  | ⟨0, _⟩ => show win0_4.index t (0 : Fin 1) * 128 + 1 * j.val = j.val; omega

/-- The message branch's third weights: its block at any point is the whole array. -/
theorem blk0_5 (c : Dev nD) (t : Fin cfg0.N) (k : Fin 128) (j : Fin 128) :
    (iblk0 V c 5 t : Vec Ideal S128x128 .f32) (ix2 k j) = (V c main_v21 : S128x128.Idx → EReal) (ix2 k j) := by
  obtain ⟨-, -, -, -, -, -, e1a, e1b, e2, e3a, e3b, e4, e5a, e5b, e6, e7a, e7b, e8, e9a, e9b, e10⟩ := idx_facts t
  show V c main_v21 (((cfg0.win 5).blk t).view.emb (ix2 k j)) = _
  congr 1; funext a; apply Fin.ext
  match a with
  | ⟨0, _⟩ => show win0_5.index t (0 : Fin 2) * 128 + 1 * k.val = k.val; omega
  | ⟨1, _⟩ => show win0_5.index t (1 : Fin 2) * 128 + 1 * j.val = j.val; omega

/-- The message branch's third bias: its block at any point is the whole array. -/
theorem blk0_6 (c : Dev nD) (t : Fin cfg0.N) (j : Fin 128) :
    (iblk0 V c 6 t : Vec Ideal S128 .f32) (ix1 j) = (V c main_arg8 : S128.Idx → EReal) (ix1 j) := by
  obtain ⟨-, -, -, -, -, -, e1a, e1b, e2, e3a, e3b, e4, e5a, e5b, e6, e7a, e7b, e8, e9a, e9b, e10⟩ := idx_facts t
  show V c main_arg8 (((cfg0.win 6).blk t).view.emb (ix1 j)) = _
  congr 1; funext a; apply Fin.ext
  match a with
  | ⟨0, _⟩ => show win0_6.index t (0 : Fin 1) * 128 + 1 * j.val = j.val; omega

/-- The edge branch's first weights: its block at any point is the whole array. -/
theorem blk0_7 (c : Dev nD) (t : Fin cfg0.N) (k : Fin 320) (j : Fin 64) :
    (iblk0 V c 7 t : Vec Ideal S320x64 .f32) (ix2 k j) = (V c main_v22 : S320x64.Idx → EReal) (ix2 k j) := by
  obtain ⟨-, -, -, -, -, -, e1a, e1b, e2, e3a, e3b, e4, e5a, e5b, e6, e7a, e7b, e8, e9a, e9b, e10⟩ := idx_facts t
  show V c main_v22 (((cfg0.win 7).blk t).view.emb (ix2 k j)) = _
  congr 1; funext a; apply Fin.ext
  match a with
  | ⟨0, _⟩ => show win0_7.index t (0 : Fin 2) * 320 + 1 * k.val = k.val; omega
  | ⟨1, _⟩ => show win0_7.index t (1 : Fin 2) * 64 + 1 * j.val = j.val; omega

/-- The edge branch's first bias: its block at any point is the whole array. -/
theorem blk0_8 (c : Dev nD) (t : Fin cfg0.N) (j : Fin 64) :
    (iblk0 V c 8 t : Vec Ideal S64 .f32) (ix1 j) = (V c main_arg10 : S64.Idx → EReal) (ix1 j) := by
  obtain ⟨-, -, -, -, -, -, e1a, e1b, e2, e3a, e3b, e4, e5a, e5b, e6, e7a, e7b, e8, e9a, e9b, e10⟩ := idx_facts t
  show V c main_arg10 (((cfg0.win 8).blk t).view.emb (ix1 j)) = _
  congr 1; funext a; apply Fin.ext
  match a with
  | ⟨0, _⟩ => show win0_8.index t (0 : Fin 1) * 64 + 1 * j.val = j.val; omega

/-- The edge branch's second weights: its block at any point is the whole array. -/
theorem blk0_9 (c : Dev nD) (t : Fin cfg0.N) (k : Fin 64) (j : Fin 64) :
    (iblk0 V c 9 t : Vec Ideal S64x64 .f32) (ix2 k j) = (V c main_v23 : S64x64.Idx → EReal) (ix2 k j) := by
  obtain ⟨-, -, -, -, -, -, e1a, e1b, e2, e3a, e3b, e4, e5a, e5b, e6, e7a, e7b, e8, e9a, e9b, e10⟩ := idx_facts t
  show V c main_v23 (((cfg0.win 9).blk t).view.emb (ix2 k j)) = _
  congr 1; funext a; apply Fin.ext
  match a with
  | ⟨0, _⟩ => show win0_9.index t (0 : Fin 2) * 64 + 1 * k.val = k.val; omega
  | ⟨1, _⟩ => show win0_9.index t (1 : Fin 2) * 64 + 1 * j.val = j.val; omega

/-- The edge branch's second bias: its block at any point is the whole array. -/
theorem blk0_10 (c : Dev nD) (t : Fin cfg0.N) (j : Fin 64) :
    (iblk0 V c 10 t : Vec Ideal S64 .f32) (ix1 j) = (V c main_arg12 : S64.Idx → EReal) (ix1 j) := by
  obtain ⟨-, -, -, -, -, -, e1a, e1b, e2, e3a, e3b, e4, e5a, e5b, e6, e7a, e7b, e8, e9a, e9b, e10⟩ := idx_facts t
  show V c main_arg12 (((cfg0.win 10).blk t).view.emb (ix1 j)) = _
  congr 1; funext a; apply Fin.ext
  match a with
  | ⟨0, _⟩ => show win0_10.index t (0 : Fin 1) * 64 + 1 * j.val = j.val; omega

/-! ## The two results as functions of the arrays -/

/-- The messages: row `e`, feature `j`, is the message row function of the edge features' row `e`. -/
def msgArr (c : Dev nD) : S400000x128.Idx → EReal := fun i =>
  Cert.Spec.msgRow (fun k => V c main_v18 (ix2 (i 0) k)) (fun k j' => V c main_v19 (ix2 k j')) (fun j' => V c main_arg4 (ix1 j'))
    (fun k j' => V c main_v20 (ix2 k j')) (fun j' => V c main_arg6 (ix1 j')) (fun k j' => V c main_v21 (ix2 k j'))
    (fun j' => V c main_arg8 (ix1 j')) (i 1)

/-- The updated edge features: row `e`, feature `j`, is the edge row function of the edge features' row `e`. -/
def edgeArr (c : Dev nD) : S400000x64.Idx → EReal := fun i =>
  Cert.Spec.edgeRow (fun k => V c main_v18 (ix2 (i 0) k)) (fun k j' => V c main_v22 (ix2 k j')) (fun j' => V c main_arg10 (ix1 j'))
    (fun k j' => V c main_v23 (ix2 k j')) (fun j' => V c main_arg12 (ix1 j')) (i 1)

/-! ## What each point writes back -/

/-- The messages' block at point `t`: row `r` of the block is row `4000 t + r` of the array. -/
theorem emb11 (t : Fin cfg0.N) (r : Fin 4000) (j : Fin 128) (h : 4000 * t.val + r.val < 400000) :
    (((cfg0.win 11).blk t).view.emb (ix2 r j) : S400000x128.Idx) = ix2 ⟨4000 * t.val + r.val, h⟩ j := by
  obtain ⟨-, -, h0, h1, -⟩ := idx_facts t
  funext a; apply Fin.ext
  match a with
  | ⟨0, _⟩ => show win0_11.index t (0 : Fin 2) * 4000 + 1 * r.val = 4000 * t.val + r.val; omega
  | ⟨1, _⟩ => show win0_11.index t (1 : Fin 2) * 128 + 1 * j.val = j.val; omega

/-- The updated edge features' block at point `t` likewise. -/
theorem emb12 (t : Fin cfg0.N) (r : Fin 4000) (j : Fin 64) (h : 4000 * t.val + r.val < 400000) :
    (((cfg0.win 12).blk t).view.emb (ix2 r j) : S400000x64.Idx) = ix2 ⟨4000 * t.val + r.val, h⟩ j := by
  obtain ⟨-, -, -, -, h0, h1, -⟩ := idx_facts t
  funext a; apply Fin.ext
  match a with
  | ⟨0, _⟩ => show win0_12.index t (0 : Fin 2) * 4000 + 1 * r.val = 4000 * t.val + r.val; omega
  | ⟨1, _⟩ => show win0_12.index t (1 : Fin 2) * 64 + 1 * j.val = j.val; omega

/-- Point `t` writes back block `t` of the messages. -/
theorem flushed11_eq (c : Dev nD) (t : Fin cfg0.N) :
    (dat0 (F := Ideal) V c).flushed 11 t = ((cfg0.win 11).blk t).view.read (Elt Ideal) (msgArr V c) := by
  show (cfg0.win 11).cut (grid0.coords t) ((dat0 V c).after 11 t) = _
  rw [after0_11]
  funext y
  obtain ⟨r, j, rfl⟩ : ∃ (r : Fin 4000) (j : Fin 128), y = ix2 r j := ⟨y 0, y 1, eq_ix2 y⟩
  have h : 4000 * t.val + r.val < 400000 := by have := t_lt t; have := r.isLt; omega
  show out0_11 (F := Ideal) (iblk0 V c 0 t) (iblk0 V c 1 t) (iblk0 V c 2 t) (iblk0 V c 3 t) (iblk0 V c 4 t) (iblk0 V c 5 t)
      (iblk0 V c 6 t) (ix2 r j) = msgArr V c (((cfg0.win 11).blk t).view.emb (ix2 r j))
  rw [out0_11_apply, emb11 t r j h]
  unfold msgArr
  simp only [blk0_0 V c t r _ h, blk0_1, blk0_2, blk0_3, blk0_4, blk0_5, blk0_6]

/-- Point `t` writes back block `t` of the updated edge features. -/
theorem flushed12_eq (c : Dev nD) (t : Fin cfg0.N) :
    (dat0 (F := Ideal) V c).flushed 12 t = ((cfg0.win 12).blk t).view.read (Elt Ideal) (edgeArr V c) := by
  show (cfg0.win 12).cut (grid0.coords t) ((dat0 V c).after 12 t) = _
  rw [after0_12]
  funext y
  obtain ⟨r, j, rfl⟩ : ∃ (r : Fin 4000) (j : Fin 64), y = ix2 r j := ⟨y 0, y 1, eq_ix2 y⟩
  have h : 4000 * t.val + r.val < 400000 := by have := t_lt t; have := r.isLt; omega
  show out0_12 (F := Ideal) (iblk0 V c 0 t) (iblk0 V c 7 t) (iblk0 V c 8 t) (iblk0 V c 9 t) (iblk0 V c 10 t) (ix2 r j)
      = edgeArr V c (((cfg0.win 12).blk t).view.emb (ix2 r j))
  rw [out0_12_apply, emb12 t r j h]
  unfold edgeArr
  simp only [blk0_0 V c t r _ h, blk0_7, blk0_8, blk0_9, blk0_10]

/-! ## The blocks cover the arrays -/

/-- A row-feature index of the messages is in point `t`'s block iff each coordinate is in the block's range. -/
theorem mem_blk11 (t : Fin cfg0.N) (i : S400000x128.Idx) :
    i ∈ ((cfg0.win 11).blk t).view.set ↔ ∀ a : Fin 2, win0_11.index t a * S4000x128.size a ≤ (i a).val
      ∧ (i a).val < win0_11.index t a * S4000x128.size a + S4000x128.size a := by
  show i ∈ ((View.whole main_v24_0).slice (win0_11.rect t)).set ↔ _
  rw [View.set_slice_whole, Rect.mem_set_unit]
  exact Iff.rfl

/-- The same for the updated edge features. -/
theorem mem_blk12 (t : Fin cfg0.N) (i : S400000x64.Idx) :
    i ∈ ((cfg0.win 12).blk t).view.set ↔ ∀ a : Fin 2, win0_12.index t a * S4000x64.size a ≤ (i a).val
      ∧ (i a).val < win0_12.index t a * S4000x64.size a + S4000x64.size a := by
  show i ∈ ((View.whole main_v24_1).slice (win0_12.rect t)).set ↔ _
  rw [View.set_slice_whole, Rect.mem_set_unit]
  exact Iff.rfl

/-- Row `e` of the messages lies in the block of point `e / 4000`. -/
theorem cover11 (i : S400000x128.Idx) :
    ∃ t : Fin cfg0.N, (cfg0.win 11).flush t = true ∧ i ∈ ((cfg0.win 11).blk t).view.set := by
  have hi0 : (i 0).val < 400000 := (i 0).isLt
  have hi1 : (i 1).val < 128 := (i 1).isLt
  have hN : cfg0.N = 100 := N_0
  let t : Fin cfg0.N := ⟨(i 0).val / 4000, by omega⟩
  have ht : t.val = (i 0).val / 4000 := rfl
  obtain ⟨-, -, h0, h1, -⟩ := idx_facts t
  refine ⟨t, flush0_11 t, ?_⟩
  rw [mem_blk11]
  intro a
  match a with
  | ⟨0, _⟩ => show win0_11.index t (0 : Fin 2) * 4000 ≤ (i 0).val ∧ (i 0).val < win0_11.index t (0 : Fin 2) * 4000 + 4000; omega
  | ⟨1, _⟩ => show win0_11.index t (1 : Fin 2) * 128 ≤ (i 1).val ∧ (i 1).val < win0_11.index t (1 : Fin 2) * 128 + 128; omega

/-- Row `e` of the updated edge features lies in the block of point `e / 4000`. -/
theorem cover12 (i : S400000x64.Idx) :
    ∃ t : Fin cfg0.N, (cfg0.win 12).flush t = true ∧ i ∈ ((cfg0.win 12).blk t).view.set := by
  have hi0 : (i 0).val < 400000 := (i 0).isLt
  have hi1 : (i 1).val < 64 := (i 1).isLt
  have hN : cfg0.N = 100 := N_0
  let t : Fin cfg0.N := ⟨(i 0).val / 4000, by omega⟩
  have ht : t.val = (i 0).val / 4000 := rfl
  obtain ⟨-, -, -, -, h0, h1, -⟩ := idx_facts t
  refine ⟨t, flush0_12 t, ?_⟩
  rw [mem_blk12]
  intro a
  match a with
  | ⟨0, _⟩ => show win0_12.index t (0 : Fin 2) * 4000 ≤ (i 0).val ∧ (i 0).val < win0_12.index t (0 : Fin 2) * 4000 + 4000; omega
  | ⟨1, _⟩ => show win0_12.index t (1 : Fin 2) * 64 ≤ (i 1).val ∧ (i 1).val < win0_12.index t (1 : Fin 2) * 64 + 64; omega

/-! ## The arrays after the call -/

/-- After the call the messages' array holds the message row function of the edge features, row by row. -/
theorem final0_11 (c : Dev nD) (e : Fin 400000) (j : Fin 128) :
    (dat0 (F := Ideal) V c).arrAt 11 cfg0.N (ValueIdx.ix2 e j)
      = Cert.Spec.msgRow (fun k => V c main_v18 (ValueIdx.ix2 e k)) (fun k j' => V c main_v19 (ValueIdx.ix2 k j')) (fun j' => V c main_arg4 (ValueIdx.ix1 j'))
          (fun k j' => V c main_v20 (ValueIdx.ix2 k j')) (fun j' => V c main_arg6 (ValueIdx.ix1 j')) (fun k j' => V c main_v21 (ValueIdx.ix2 k j'))
          (fun j' => V c main_arg8 (ValueIdx.ix1 j')) j := by
  rw [(dat0 (F := Ideal) V c).arrAt_eq_of_cover 11 (msgArr V c) (fun t _ => flushed11_eq V c t) cover11]
  rfl

/-- After the call the updated edge features' array holds the edge row function of the edge features, row by row. -/
theorem final0_12 (c : Dev nD) (e : Fin 400000) (j : Fin 64) :
    (dat0 (F := Ideal) V c).arrAt 12 cfg0.N (ValueIdx.ix2 e j)
      = Cert.Spec.edgeRow (fun k => V c main_v18 (ValueIdx.ix2 e k)) (fun k j' => V c main_v22 (ValueIdx.ix2 k j')) (fun j' => V c main_arg10 (ValueIdx.ix1 j'))
          (fun k j' => V c main_v23 (ValueIdx.ix2 k j')) (fun j' => V c main_arg12 (ValueIdx.ix1 j')) j := by
  rw [(dat0 (F := Ideal) V c).arrAt_eq_of_cover 12 (edgeArr V c) (fun t _ => flushed12_eq V c t) cover12]
  rfl

end Cert.KernelIdeal.Val0

end
-- ==== Proof.PayNode.lean ====
/-
  The node update read at one element. A block of 2000 nodes carries each node's own 128 features and its 128 summed
  messages; the update is a dense layer over both (two products into zero accumulators, added, plus the bias row), the
  rectifier, and a layer normalisation along the 128 lanes: the row mean is the lane sum divided by the pattern of 128,
  the variance the lane sum of the squared centred row divided the same way, and the result the centred row times the
  reciprocal square root of variance plus the pattern of 1e-5, times the scale row, plus the shift row. Every step is
  pointwise, a re-indexing (a vector seen as a row or as a column, a row or a column repeated), a lane sum or a product of
  matrices, so at row `r`, lane `j` the whole is the specification's `nodeRow` of row `r` of the two blocks.
-/
import proofs.«106394_j49804440764523_1_alg».proof.Proof.Gen.KernelIdeal.Skeleton
import proofs.«106394_j49804440764523_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayNode

open Idealize.ShloMosaic Idealize.ShloMosaic.ValueIdx Cert.KernelIdeal Cert.KernelIdeal.Gen

variable {α : Type}

/-! ## A vector as a column, a column repeated along the lanes -/

/-- A vector `[a]` viewed as a column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of a block with a square matrix, read at an element

The left operand's index at output `(r, j)` and shared coordinate `k` is `(r, k)`, the right operand's `(k, j)`: one
lemma per operand and axis, then the sum over the shared index re-indexed by its one coordinate. -/

/-- The left operand's row is the output's row. -/
theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the shared coordinate. -/
theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row is the shared coordinate. -/
theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column is the output's column. -/
theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A product of a `[2000, 128]` block with a `[128, 128]` matrix into the zero accumulator reads, at `(r, j)`, the sum
    over the 128 shared coordinates of row `r` against column `j`. -/
theorem matmul_zero_apply {φ₁ φ₂ : FTy} (x : FVec Ideal S2000x128 φ₁) (w : FVec Ideal S128x128 φ₂) (r : Fin 2000) (j : Fin 128) :
    matmul (F := Ideal) dot_S2000x128_S128x128_S2000x128_1_0_0_1_n_n none x w (constant (F := Ideal) S2000x128 .f32 0x00000000#32) (ix2 r j)
      = ∑ k : Fin 128, x (ix2 r k) * w (ix2 k j) := by
  refine (Ideal.matmul_constant_zero_apply dot_S2000x128_S128x128_S2000x128_1_0_0_1_n_n none x w (ix2 r j)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r j) ((ValueIdx.contrEquiv1 dot_S2000x128_S128x128_S2000x128_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 r j) ((ValueIdx.contrEquiv1 dot_S2000x128_S128x128_S2000x128_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]

/-! ## A lane sum read at a row -/

/-- A lane sum of a `[2000, 128]` block read at row `r` is the sum of that row's 128 entries. -/
theorem laneSum_apply (src : FVec Ideal S2000x128 .f32) (h : S2000x128.Reduces [1] S2000) (hφ : FKind.Formats .f32)
    (hacc : (0x00000000#32 : BitVec FTy.f32.bits) = FKind.add.neutral .f32 hφ) (r : Fin 2000) :
    multiReduction (F := Ideal) .add [1] S2000 src 0x00000000#32 h hφ hacc (ix1 r) = ∑ k : Fin 128, src (ix2 r k) := by
  refine (Ideal.multiReduction_add_single src _ h hφ hacc (ix1 r)).trans ?_
  refine Finset.sum_congr rfl fun k _ => congrArg src ?_
  funext a
  refine Fin.ext ?_
  match a with
  | ⟨0, _⟩ => rfl
  | ⟨1, _⟩ => rfl

/-! ## The node kernel's arithmetic, cut where the mathematics cuts it -/

/-- The rectified dense layer as the kernel writes it: two products into zero accumulators, their sum, the bias row,
    the maximum against the zero splat. -/
def rect (v0 v2 : Vec Ideal S2000x128 .f32) (v5 v8 : Vec Ideal S128x128 .f32) (v14 : Vec Ideal S128 .f32) : FVec Ideal S2000x128 .f32 :=
  maximumf
    (addf
      (addf
        (matmul dot_S2000x128_S128x128_S2000x128_1_0_0_1_n_n none (truncf .bf16 v0 bitsLt_bf16_f32)
          (truncf .bf16 (shapeCast S128x128 v5 shapeCasts_S128x128_S128x128) bitsLt_bf16_f32) (constant S2000x128 .f32 0x00000000#32))
        (matmul dot_S2000x128_S128x128_S2000x128_1_0_0_1_n_n none (truncf .bf16 (shapeCast S2000x128 v2 shapeCasts_S2000x128_S2000x128) bitsLt_bf16_f32)
          (truncf .bf16 (shapeCast S128x128 v8 shapeCasts_S128x128_S128x128) bitsLt_bf16_f32) (constant S2000x128 .f32 0x00000000#32)))
      (broadcastTo S2000x128 (shapeCast S1x128 v14 shapeCasts_S128_S1x128) broadcasts_S1x128_S2000x128))
    (broadcast S2000x128 (Scalar.ofBits .f32 0x00000000#32))

/-- The column of row means: the lane sum as a column, divided by the splat of the pattern of 128. -/
def meanCol (u : FVec Ideal S2000x128 .f32) : FVec Ideal S2000x1 .f32 :=
  divf (shapeCast S2000x1 (multiReduction .add [1] S2000 u 0x00000000#32 reduces_S2000x128_S2000 (.inl rfl) rfl) shapeCasts_S2000_S2000x1)
    (broadcast S2000x1 (Scalar.ofBits .f32 0x43000000#32))

/-- The block with each row's mean taken off. -/
def centred (u : FVec Ideal S2000x128 .f32) : FVec Ideal S2000x128 .f32 :=
  subf u (broadcastTo S2000x128 (meanCol u) broadcasts_S2000x1_S2000x128)

/-- The column of row variances. -/
def varCol (u : FVec Ideal S2000x128 .f32) : FVec Ideal S2000x1 .f32 :=
  divf (shapeCast S2000x1 (multiReduction .add [1] S2000 (mulf (centred u) (centred u)) 0x00000000#32 reduces_S2000x128_S2000 (.inl rfl) rfl) shapeCasts_S2000_S2000x1)
    (broadcast S2000x1 (Scalar.ofBits .f32 0x43000000#32))

/-- The normalised block, before scale and shift. -/
def normed (u : FVec Ideal S2000x128 .f32) : FVec Ideal S2000x128 .f32 :=
  mulf (centred u)
    (broadcastTo S2000x128 (rsqrt (addf (varCol u) (broadcast S2000x1 (Scalar.ofBits .f32 0x3727C5AC#32)))) broadcasts_S2000x1_S2000x128)

/-- The node kernel's normalised block is `normed` of `rect`: the same operations in the same order, grouped by what they compute. -/
theorem pay2_eq (v0 v2 : Vec Ideal S2000x128 .f32) (v5 v8 : Vec Ideal S128x128 .f32) (v14 : Vec Ideal S128 .f32) :
    k1_pay2 (F := Ideal) v0 v2 v5 v8 v14 = normed (rect v0 v2 v5 v8 v14) := rfl

/-- The rectified dense layer at `(r, j)`: the two half sums, the bias, the maximum against the zero pattern. -/
theorem rect_apply (v0 v2 : Vec Ideal S2000x128 .f32) (v5 v8 : Vec Ideal S128x128 .f32) (v14 : Vec Ideal S128 .f32)
    (r : Fin 2000) (j : Fin 128) :
    rect v0 v2 v5 v8 v14 (ix2 r j)
      = max (((∑ k : Fin 128, v0 (ix2 r k) * v5 (ix2 k j)) + (∑ k : Fin 128, v2 (ix2 r k) * v8 (ix2 k j))) + v14 (ix1 j))
          (Ideal.ofBits .f32 0x00000000#32) := by
  unfold rect
  rw [maximumf_apply, addf_apply, addf_apply, matmul_zero_apply, matmul_zero_apply, broadcastTo_1b_ab_apply,
    shapeCast_a_1a_apply, broadcast_apply, shapeCast_self, shapeCast_self, shapeCast_self]
  rfl

/-- A row's mean: the row's sum divided by the pattern of 128. -/
theorem meanCol_apply (u : FVec Ideal S2000x128 .f32) (r : Fin 2000) (c : Fin 1) :
    meanCol u (ix2 r c) = Ideal.div (∑ k : Fin 128, u (ix2 r k)) (Ideal.ofBits .f32 0x43000000#32) := by
  unfold meanCol
  rw [divf_apply, shapeCast_a_a1_apply, broadcast_apply]
  exact congrArg (fun s => Ideal.div s (Ideal.ofBits .f32 0x43000000#32)) (laneSum_apply u _ _ _ r)

/-- A centred entry: the entry less its row's mean. -/
theorem centred_apply (u : FVec Ideal S2000x128 .f32) (r : Fin 2000) (j : Fin 128) :
    centred u (ix2 r j) = u (ix2 r j) - Ideal.div (∑ k : Fin 128, u (ix2 r k)) (Ideal.ofBits .f32 0x43000000#32) := by
  unfold centred
  rw [subf_apply, broadcastTo_a1_ab_apply, meanCol_apply]

/-- A row's variance: the sum of the squared centred entries divided by the pattern of 128. -/
theorem varCol_apply (u : FVec Ideal S2000x128 .f32) (r : Fin 2000) (c : Fin 1) :
    varCol u (ix2 r c)
      = Ideal.div (∑ k : Fin 128, (u (ix2 r k) - Ideal.div (∑ k' : Fin 128, u (ix2 r k')) (Ideal.ofBits .f32 0x43000000#32))
            * (u (ix2 r k) - Ideal.div (∑ k' : Fin 128, u (ix2 r k')) (Ideal.ofBits .f32 0x43000000#32)))
          (Ideal.ofBits .f32 0x43000000#32) := by
  unfold varCol
  rw [divf_apply, shapeCast_a_a1_apply, broadcast_apply]
  refine congrArg (fun s => Ideal.div s (Ideal.ofBits .f32 0x43000000#32)) ((laneSum_apply _ _ _ _ r).trans ?_)
  refine Finset.sum_congr rfl fun k _ => ?_
  rw [mulf_apply, centred_apply]

/-- A normalised entry: the centred entry times the reciprocal square root of variance plus the pattern of 1e-5. -/
theorem normed_apply (u : FVec Ideal S2000x128 .f32) (r : Fin 2000) (j : Fin 128) :
    normed u (ix2 r j)
      = (u (ix2 r j) - Ideal.div (∑ k : Fin 128, u (ix2 r k)) (Ideal.ofBits .f32 0x43000000#32))
        * Ideal.rsqrt (Ideal.div (∑ k : Fin 128, (u (ix2 r k) - Ideal.div (∑ k' : Fin 128, u (ix2 r k')) (Ideal.ofBits .f32 0x43000000#32))
            * (u (ix2 r k) - Ideal.div (∑ k' : Fin 128, u (ix2 r k')) (Ideal.ofBits .f32 0x43000000#32)))
          (Ideal.ofBits .f32 0x43000000#32) + Ideal.ofBits .f32 0x3727C5AC#32) := by
  unfold normed
  rw [mulf_apply, centred_apply, broadcastTo_a1_ab_apply]
  show _ * Ideal.rsqrt (varCol u (ix2 r (0 : Fin 1)) + Ideal.ofBits .f32 0x3727C5AC#32) = _
  rw [varCol_apply]

/-- Scale and shift at `(r, j)`: the product of the two blocks' entries plus the shift row's entry `j`. -/
theorem pay1_apply (p q : FVec Ideal S2000x128 .f32) (v42 : Vec Ideal S128 .f32) (r : Fin 2000) (j : Fin 128) :
    k1_pay1 (F := Ideal) p q v42 (ix2 r j) = p (ix2 r j) * q (ix2 r j) + v42 (ix1 j) := by
  unfold k1_pay1
  rw [addf_apply, mulf_apply, broadcastTo_1b_ab_apply, shapeCast_a_1a_apply]

/-- The scale row repeated over the 2000 rows reads its entry `j` at `(r, j)`. -/
theorem pay3_apply (v38 : Vec Ideal S128 .f32) (r : Fin 2000) (j : Fin 128) :
    k1_pay3 (F := Ideal) v38 (ix2 r j) = v38 (ix1 j) := by
  unfold k1_pay3
  rw [broadcastTo_1b_ab_apply, shapeCast_a_1a_apply]

/-- The node kernel's stored value at row `r`, lane `j`, is the node update of row `r` of its two input blocks. -/
theorem pay_node_apply (v0 v2 : Vec Ideal S2000x128 .f32) (v5 v8 : Vec Ideal S128x128 .f32) (v14 v38 v42 : Vec Ideal S128 .f32)
    (r : Fin 2000) (j : Fin 128) :
    k1_pay1 (F := Ideal) (k1_pay2 v0 v2 v5 v8 v14) (k1_pay3 v38) v42 (ValueIdx.ix2 r j)
      = Cert.Spec.nodeRow (fun k => v0 (ValueIdx.ix2 r k)) (fun k => v2 (ValueIdx.ix2 r k)) (fun k j' => v5 (ValueIdx.ix2 k j'))
          (fun k j' => v8 (ValueIdx.ix2 k j')) (fun j' => v14 (ValueIdx.ix1 j')) (fun j' => v38 (ValueIdx.ix1 j'))
          (fun j' => v42 (ValueIdx.ix1 j')) j := by
  rw [pay1_apply, pay3_apply, pay2_eq, normed_apply]
  simp only [rect_apply]
  rfl

end Cert.KernelIdeal.PayNode

end
-- ==== Proof.KIValue1.lean ====
/-
  From blocks to the array, for the node call. The call runs over 25 grid points; point `t` reads rows
  `2000 t … 2000 t + 1999` of the node features and of the summed messages, the two weight halves, the bias, the scale
  and the shift whole, and writes rows `2000 t … 2000 t + 1999` of the updated node features. What a point writes is,
  row by row, the node update of that row of the two arrays; the 25 row blocks tile the 50000 rows (row `n` lies in
  block `n / 2000`), so after the call the output array holds, at `(n, j)`, the node update of row `n`.
-/
import proofs.«106394_j49804440764523_1_alg».proof.Proof.FrameKI1
import proofs.«106394_j49804440764523_1_alg».proof.Proof.PayNode
import proofs.«106394_j49804440764523_1_alg».proof.Proof.Spec
import Idealize.ShloMosaic.Lib.Pipeline.Value
import Idealize.ShloMosaic.Lib.ValueIdx

noncomputable section

namespace Cert.KernelIdeal.Val1

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## What a point leaves in the output buffer, read at an element -/

/-- On whole buffers `x0 … x6` the body's one store leaves, at row `r`, lane `j`, the node update of row `r` of `x0` and `x1`. -/
theorem out_apply (x0 x1 : Vec Ideal S2000x128 .f32) (x2 x3 : Vec Ideal S128x128 .f32) (x4 x5 x6 : Vec Ideal S128 .f32)
    (r : Fin 2000) (j : Fin 128) :
    out1_7 x0 x1 x2 x3 x4 x5 x6 (ix2 r j)
      = Cert.Spec.nodeRow (fun k => x0 (ix2 r k)) (fun k => x1 (ix2 r k)) (fun k j' => x2 (ix2 k j')) (fun k j' => x3 (ix2 k j'))
          (fun j' => x4 (ix1 j')) (fun j' => x5 (ix1 j')) (fun j' => x6 (ix1 j')) j := by
  unfold out1_7
  rw [View.canon_unit_zero hz2]
  simp only [View.ld_unit_zero (S := S2000x128) hz2, View.ld_unit_zero (S := S128x128) hz2, View.ld_unit_zero (S := S128) hz1]
  exact PayNode.pay_node_apply x0 x1 x2 x3 x4 x5 x6 r j

/-! ## The index maps over the grid -/

/-- The row-blocked windows (0, 1 and the output 7) sit at block `(t, 0)` at point `t`; the others at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0 ∧ win1_5.index t (0 : Fin 1) = 0 ∧ win1_6.index t (0 : Fin 1) = 0
    ∧ win1_7.index t (0 : Fin 2) = t.val ∧ win1_7.index t (1 : Fin 2) = 0 :=
  (by decide +kernel : ∀ t : Fin grid1.N, _)

/-- Row `r` of block `t` is a row of the array. -/
theorem row_lt (t : Fin cfg1.N) (r : Fin 2000) : 2000 * t.val + r.val < 50000 := by
  have ht : t.val < grid1.N := t.isLt
  rw [N_1] at ht
  have hr := r.isLt
  omega

/-! ## Each window's block, read where the arrays hold it -/

theorem blk0_apply (c : Dev nD) (t : Fin cfg1.N) (r : Fin 2000) (k : Fin 128) :
    (iblk1 V c 0 t : Vec Ideal S2000x128 .f32) (ix2 r k) = V c main_arg0 (ix2 (⟨2000 * t.val + r.val, row_lt t r⟩ : Fin 50000) k) := by
  obtain ⟨e0, e1, -⟩ := idx_facts t
  unfold iblk1
  rw [View.read_apply]
  show V c main_arg0 _ = V c main_arg0 _
  congr 1
  funext a; apply Fin.ext
  match a with
  | ⟨0, _⟩ => show win1_0.index t (0 : Fin 2) * 2000 + 1 * r.val = 2000 * t.val + r.val; omega
  | ⟨1, _⟩ => show win1_0.index t (1 : Fin 2) * 128 + 1 * k.val = k.val; omega

theorem blk1_apply (c : Dev nD) (t : Fin cfg1.N) (r : Fin 2000) (k : Fin 128) :
    (iblk1 V c 1 t : Vec Ideal S2000x128 .f32) (ix2 r k) = V c main_v27 (ix2 (⟨2000 * t.val + r.val, row_lt t r⟩ : Fin 50000) k) := by
  obtain ⟨-, -, e0, e1, -⟩ := idx_facts t
  unfold iblk1
  rw [View.read_apply]
  show V c main_v27 _ = V c main_v27 _
  congr 1
  funext a; apply Fin.ext
  match a with
  | ⟨0, _⟩ => show win1_1.index t (0 : Fin 2) * 2000 + 1 * r.val = 2000 * t.val + r.val; omega
  | ⟨1, _⟩ => show win1_1.index t (1 : Fin 2) * 128 + 1 * k.val = k.val; omega

theorem blk2_apply (c : Dev nD) (t : Fin cfg1.N) (k j : Fin 128) :
    (iblk1 V c 2 t : Vec Ideal S128x128 .f32) (ix2 k j) = V c main_v30 (ix2 k j) := by
  obtain ⟨-, -, -, -, e0, e1, -⟩ := idx_facts t
  unfold iblk1
  rw [View.read_apply]
  show V c main_v30 _ = V c main_v30 _
  congr 1
  funext a; apply Fin.ext
  match a with
  | ⟨0, _⟩ => show win1_2.index t (0 : Fin 2) * 128 + 1 * k.val = k.val; omega
  | ⟨1, _⟩ => show win1_2.index t (1 : Fin 2) * 128 + 1 * j.val = j.val; omega

theorem blk3_apply (c : Dev nD) (t : Fin cfg1.N) (k j : Fin 128) :
    (iblk1 V c 3 t : Vec Ideal S128x128 .f32) (ix2 k j) = V c main_v31 (ix2 k j) := by
  obtain ⟨-, -, -, -, -, -, e0, e1, -⟩ := idx_facts t
  unfold iblk1
  rw [View.read_apply]
  show V c main_v31 _ = V c main_v31 _
  congr 1
  funext a; apply Fin.ext
  match a with
  | ⟨0, _⟩ => show win1_3.index t (0 : Fin 2) * 128 + 1 * k.val = k.val; omega
  | ⟨1, _⟩ => show win1_3.index t (1 : Fin 2) * 128 + 1 * j.val = j.val; omega

theorem blk4_apply (c : Dev nD) (t : Fin cfg1.N) (j : Fin 128) :
    (iblk1 V c 4 t : Vec Ideal S128 .f32) (ix1 j) = V c main_arg14 (ix1 j) := by
  obtain ⟨-, -, -, -, -, -, -, -, e0, -⟩ := idx_facts t
  unfold iblk1
  rw [View.read_apply]
  show V c main_arg14 _ = V c main_arg14 _
  congr 1
  funext a; apply Fin.ext
  match a with
  | ⟨0, _⟩ => show win1_4.index t (0 : Fin 1) * 128 + 1 * j.val = j.val; omega

theorem blk5_apply (c : Dev nD) (t : Fin cfg1.N) (j : Fin 128) :
    (iblk1 V c 5 t : Vec Ideal S128 .f32) (ix1 j) = V c main_arg15 (ix1 j) := by
  obtain ⟨-, -, -, -, -, -, -, -, -, e0, -⟩ := idx_facts t
  unfold iblk1
  rw [View.read_apply]
  show V c main_arg15 _ = V c main_arg15 _
  congr 1
  funext a; apply Fin.ext
  match a with
  | ⟨0, _⟩ => show win1_5.index t (0 : Fin 1) * 128 + 1 * j.val = j.val; omega

theorem blk6_apply (c : Dev nD) (t : Fin cfg1.N) (j : Fin 128) :
    (iblk1 V c 6 t : Vec Ideal S128 .f32) (ix1 j) = V c main_arg16 (ix1 j) := by
  obtain ⟨-, -, -, -, -, -, -, -, -, -, e0, -⟩ := idx_facts t
  unfold iblk1
  rw [View.read_apply]
  show V c main_arg16 _ = V c main_arg16 _
  congr 1
  funext a; apply Fin.ext
  match a with
  | ⟨0, _⟩ => show win1_6.index t (0 : Fin 1) * 128 + 1 * j.val = j.val; omega

/-- Element `(r, j)` of the output's block at point `t` is element `(2000 t + r, j)` of the array. -/
theorem emb7 (t : Fin cfg1.N) (r : Fin 2000) (j : Fin 128) :
    ((cfg1.win 7).blk t).view.emb (ix2 r j) = ix2 (⟨2000 * t.val + r.val, row_lt t r⟩ : Fin 50000) j := by
  obtain ⟨-, -, -, -, -, -, -, -, -, -, -, e0, e1⟩ := idx_facts t
  funext a; apply Fin.ext
  match a with
  | ⟨0, _⟩ => show win1_7.index t (0 : Fin 2) * 2000 + 1 * r.val = 2000 * t.val + r.val; omega
  | ⟨1, _⟩ => show win1_7.index t (1 : Fin 2) * 128 + 1 * j.val = j.val; omega

/-! ## The array the call leaves -/

/-- The updated node features as one function of the arrays the call finds: at `(n, j)` the node update of row `n`. -/
def nodeArr (c : Dev nD) : S50000x128.Idx → Elt Ideal .f32 := fun i =>
  Cert.Spec.nodeRow (fun k => V c main_arg0 (ix2 (⟨(i 0).val, idx2_lt0 i⟩ : Fin 50000) k))
    (fun k => V c main_v27 (ix2 (⟨(i 0).val, idx2_lt0 i⟩ : Fin 50000) k))
    (fun k j' => V c main_v30 (ix2 k j')) (fun k j' => V c main_v31 (ix2 k j'))
    (fun j' => V c main_arg14 (ix1 j')) (fun j' => V c main_arg15 (ix1 j')) (fun j' => V c main_arg16 (ix1 j'))
    (⟨(i 1).val, idx2_lt1 i⟩ : Fin 128)

/-- What point `t` leaves at element `y` of its block is `nodeArr` at that element's place in the array. -/
theorem point_eq (c : Dev nD) (t : Fin cfg1.N) (y : S2000x128.Idx) :
    out1_7 (iblk1 V c 0 t) (iblk1 V c 1 t) (iblk1 V c 2 t) (iblk1 V c 3 t) (iblk1 V c 4 t) (iblk1 V c 5 t) (iblk1 V c 6 t) y
      = nodeArr V c (((cfg1.win 7).blk t).view.emb y) := by
  obtain ⟨r, j, rfl⟩ : ∃ (r : Fin 2000) (j : Fin 128), y = ix2 r j := ⟨y 0, y 1, eq_ix2 y⟩
  rw [emb7, out_apply]
  unfold nodeArr
  simp only [blk0_apply V c t r, blk1_apply V c t r, blk2_apply V c t, blk3_apply V c t, blk4_apply V c t, blk5_apply V c t,
    blk6_apply V c t]

/-- What point `t` writes back is block `t` of `nodeArr`. -/
theorem flushed_eq (c : Dev nD) (t : Fin cfg1.N) :
    (dat1 V c).flushed 7 t = ((cfg1.win 7).blk t).view.read (Elt Ideal) (nodeArr V c) := by
  show (cfg1.win 7).cut (grid1.coords t) ((dat1 V c).after 7 t) = _
  rw [after1_7]
  funext y
  exact point_eq V c t y

/-- An index of the array is in point `t`'s block iff each coordinate is in the block's range on its axis. -/
theorem mem_blk (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v32).slice (win1_7.rect t)).set ↔ _
  rw [View.set_slice_whole, Rect.mem_set_unit]
  exact Iff.rfl

/-- The 25 row blocks cover the array: row `n` lies in block `n / 2000`. -/
theorem cover (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have hq : (i 0).val / 2000 < grid1.N := by rw [N_1]; omega
  obtain ⟨-, -, -, -, -, -, -, -, -, -, -, e0, e1⟩ := idx_facts ⟨(i 0).val / 2000, hq⟩
  refine ⟨⟨(i 0).val / 2000, hq⟩, flush1_7 _, ?_⟩
  rw [mem_blk]
  intro a
  match a with
  | ⟨0, _⟩ =>
    show win1_7.index ⟨(i 0).val / 2000, hq⟩ (0 : Fin 2) * 2000 ≤ (i 0).val ∧ (i 0).val < win1_7.index ⟨(i 0).val / 2000, hq⟩ (0 : Fin 2) * 2000 + 2000
    rw [e0]
    show (i 0).val / 2000 * 2000 ≤ (i 0).val ∧ (i 0).val < (i 0).val / 2000 * 2000 + 2000
    omega
  | ⟨1, _⟩ =>
    show win1_7.index ⟨(i 0).val / 2000, hq⟩ (1 : Fin 2) * 128 ≤ (i 1).val ∧ (i 1).val < win1_7.index ⟨(i 0).val / 2000, hq⟩ (1 : Fin 2) * 128 + 128
    rw [e1]
    omega

/-- After the node call the updated node features hold, at `(n, j)`, the node update of row `n` of the arrays the call found. -/
theorem final1_7 (c : Dev nD) (n : Fin 50000) (j : Fin 128) :
    (dat1 (F := Ideal) V c).arrAt 7 cfg1.N (ValueIdx.ix2 n j)
      = Cert.Spec.nodeRow (fun k => V c main_arg0 (ValueIdx.ix2 n k)) (fun k => V c main_v27 (ValueIdx.ix2 n k))
          (fun k j' => V c main_v30 (ValueIdx.ix2 k j')) (fun k j' => V c main_v31 (ValueIdx.ix2 k j'))
          (fun j' => V c main_arg14 (ValueIdx.ix1 j')) (fun j' => V c main_arg15 (ValueIdx.ix1 j')) (fun j' => V c main_arg16 (ValueIdx.ix1 j')) j := by
  rw [(dat1 V c).arrAt_eq_of_cover 7 (nodeArr V c) (fun t _ => flushed_eq V c t) cover]
  rfl

end Cert.KernelIdeal.Val1

end
-- ==== Proof.RefEdge.lean ====
/-
  The reference's two edge branches, one element at a time.

  Row `e` of the 320 joined edge features passes through dense layers. An element of a contraction is the sum over
  the contracted feature of the left operand's row entry times the transposed weight's column entry; a bias is a
  vector broadcast along the edge axis, so at `(e, j)` it is the bias at `j`; a rectifier is the maximum with a
  splat of the zero pattern. Chained, the message array at `(e, j)` is `Cert.Spec.msgRow` and the updated edge
  array at `(e, j)` is `Cert.Spec.edgeRow`, of row `e` of the joined features, the transposed weights and the
  biases. The joined features and the transposed weights are never opened.
-/
import proofs.«106394_j49804440764523_1_alg».proof.Proof.Gen.ReferenceIdeal.Read
import proofs.«106394_j49804440764523_1_alg».proof.Proof.Spec

noncomputable section

namespace Cert.ReferenceIdeal.RefEdge

open Idealize.ShloMosaic Cert.ReferenceIdeal Cert.ReferenceIdeal.Read

/-! ## Which elements each contraction and each bias reads -/

/-- The contraction of operation 20 reads row `e` of its left operand at the contracted feature … -/
theorem lhs_at_v20 (e : Fin 400000) (j : Fin 128) (k : Fin 320) :
    lidx_main_v20 (ValueIdx.ix2 e j) k = ValueIdx.ix2 e k :=
  funext fun a => Fin.ext (by match a with | ⟨0, _⟩ => rfl | ⟨1, _⟩ => rfl)
/-- … and column `j` of its right operand at the same feature. -/
theorem rhs_at_v20 (e : Fin 400000) (j : Fin 128) (k : Fin 320) :
    ridx_main_v20 (ValueIdx.ix2 e j) k = ValueIdx.ix2 k j :=
  funext fun a => Fin.ext (by match a with | ⟨0, _⟩ => rfl | ⟨1, _⟩ => rfl)
/-- The bias added after it, a row broadcast over all edges, is read at the output column alone. -/
theorem bias_at_v22 (e : Fin 400000) (j : Fin 128) :
    idx_main_v21 (idx_main_v22 (ValueIdx.ix2 e j)) = ValueIdx.ix1 j :=
  funext fun a => Fin.ext (by match a with | ⟨0, _⟩ => rfl)

/-- The contraction of operation 26 reads row `e` of its left operand at the contracted feature … -/
theorem lhs_at_v26 (e : Fin 400000) (j : Fin 128) (k : Fin 128) :
    lidx_main_v26 (ValueIdx.ix2 e j) k = ValueIdx.ix2 e k :=
  funext fun a => Fin.ext (by match a with | ⟨0, _⟩ => rfl | ⟨1, _⟩ => rfl)
/-- … and column `j` of its right operand at the same feature. -/
theorem rhs_at_v26 (e : Fin 400000) (j : Fin 128) (k : Fin 128) :
    ridx_main_v26 (ValueIdx.ix2 e j) k = ValueIdx.ix2 k j :=
  funext fun a => Fin.ext (by match a with | ⟨0, _⟩ => rfl | ⟨1, _⟩ => rfl)
/-- The bias added after it, a row broadcast over all edges, is read at the output column alone. -/
theorem bias_at_v28 (e : Fin 400000) (j : Fin 128) :
    idx_main_v27 (idx_main_v28 (ValueIdx.ix2 e j)) = ValueIdx.ix1 j :=
  funext fun a => Fin.ext (by match a with | ⟨0, _⟩ => rfl)

/-- The contraction of operation 32 reads row `e` of its left operand at the contracted feature … -/
theorem lhs_at_v32 (e : Fin 400000) (j : Fin 128) (k : Fin 128) :
    lidx_main_v32 (ValueIdx.ix2 e j) k = ValueIdx.ix2 e k :=
  funext fun a => Fin.ext (by match a with | ⟨0, _⟩ => rfl | ⟨1, _⟩ => rfl)
/-- … and column `j` of its right operand at the same feature. -/
theorem rhs_at_v32 (e : Fin 400000) (j : Fin 128) (k : Fin 128) :
    ridx_main_v32 (ValueIdx.ix2 e j) k = ValueIdx.ix2 k j :=
  funext fun a => Fin.ext (by match a with | ⟨0, _⟩ => rfl | ⟨1, _⟩ => rfl)
/-- The bias added after it, a row broadcast over all edges, is read at the output column alone. -/
theorem bias_at_v34 (e : Fin 400000) (j : Fin 128) :
    idx_main_v33 (idx_main_v34 (ValueIdx.ix2 e j)) = ValueIdx.ix1 j :=
  funext fun a => Fin.ext (by match a with | ⟨0, _⟩ => rfl)

/-- The contraction of operation 40 reads row `e` of its left operand at the contracted feature … -/
theorem lhs_at_v40 (e : Fin 400000) (j : Fin 64) (k : Fin 320) :
    lidx_main_v40 (ValueIdx.ix2 e j) k = ValueIdx.ix2 e k :=
  funext fun a => Fin.ext (by match a with | ⟨0, _⟩ => rfl | ⟨1, _⟩ => rfl)
/-- … and column `j` of its right operand at the same feature. -/
theorem rhs_at_v40 (e : Fin 400000) (j : Fin 64) (k : Fin 320) :
    ridx_main_v40 (ValueIdx.ix2 e j) k = ValueIdx.ix2 k j :=
  funext fun a => Fin.ext (by match a with | ⟨0, _⟩ => rfl | ⟨1, _⟩ => rfl)
/-- The bias added after it, a row broadcast over all edges, is read at the output column alone. -/
theorem bias_at_v42 (e : Fin 400000) (j : Fin 64) :
    idx_main_v41 (idx_main_v42 (ValueIdx.ix2 e j)) = ValueIdx.ix1 j :=
  funext fun a => Fin.ext (by match a with | ⟨0, _⟩ => rfl)

/-- The contraction of operation 46 reads row `e` of its left operand at the contracted feature … -/
theorem lhs_at_v46 (e : Fin 400000) (j : Fin 64) (k : Fin 64) :
    lidx_main_v46 (ValueIdx.ix2 e j) k = ValueIdx.ix2 e k :=
  funext fun a => Fin.ext (by match a with | ⟨0, _⟩ => rfl | ⟨1, _⟩ => rfl)
/-- … and column `j` of its right operand at the same feature. -/
theorem rhs_at_v46 (e : Fin 400000) (j : Fin 64) (k : Fin 64) :
    ridx_main_v46 (ValueIdx.ix2 e j) k = ValueIdx.ix2 k j :=
  funext fun a => Fin.ext (by match a with | ⟨0, _⟩ => rfl | ⟨1, _⟩ => rfl)
/-- The bias added after it, a row broadcast over all edges, is read at the output column alone. -/
theorem bias_at_v48 (e : Fin 400000) (j : Fin 64) :
    idx_main_v47 (idx_main_v48 (ValueIdx.ix2 e j)) = ValueIdx.ix1 j :=
  funext fun a => Fin.ext (by match a with | ⟨0, _⟩ => rfl)

/-! ## The rectifiers' zero splats -/

/-- The splat the first message rectifier compares against is the zero pattern everywhere. -/
theorem zero_call0 (i : S400000x128.Idx) : val_main_call0_v0 (F := Ideal) i = Cert.Spec.zero := by
  rw [val_main_call0_v0_apply, val_main_call0_cst_apply, Ideal.ofBits_def, Cert.Spec.zero]
/-- So is the second message rectifier's. -/
theorem zero_call1 (i : S400000x128.Idx) : val_main_call1_v0 (F := Ideal) i = Cert.Spec.zero := by
  rw [val_main_call1_v0_apply, val_main_call1_cst_apply, Ideal.ofBits_def, Cert.Spec.zero]
/-- So is the edge branch's rectifier's. -/
theorem zero_call2 (i : S400000x64.Idx) : val_main_call2_v0 (F := Ideal) i = Cert.Spec.zero := by
  rw [val_main_call2_v0_apply, val_main_call2_cst_apply, Ideal.ofBits_def, Cert.Spec.zero]

/-! ## The message branch, layer by layer -/

/-- First message layer before its rectifier: the joined row against a column of the first weights, plus the bias. -/
theorem msg_pre1 (x0 : (⟨S50000x128, .f32⟩ : BufTy).Contents (Elt Ideal)) (x1 : (⟨S400000x64, .f32⟩ : BufTy).Contents (Elt Ideal)) (x2 : (⟨S2x400000, .i32⟩ : BufTy).Contents (Elt Ideal)) (x3 : (⟨S128x320, .f32⟩ : BufTy).Contents (Elt Ideal)) (x4 : (⟨S128, .f32⟩ : BufTy).Contents (Elt Ideal)) (e : Fin 400000) (j : Fin 128) :
    val_main_v23 (F := Ideal) x0 x1 x2 x3 x4 (ValueIdx.ix2 e j)
      = Cert.Spec.lin (fun k => val_main_v18 (F := Ideal) x0 x1 x2 (ValueIdx.ix2 e k))
          (fun k => val_main_v19 (F := Ideal) x3 (ValueIdx.ix2 k j)) (x4 (ValueIdx.ix1 j)) := by
  rw [val_main_v23_apply, val_main_v20_apply, val_main_v22_apply, val_main_v21_apply]
  simp only [lhs_at_v20, rhs_at_v20, bias_at_v22, Ideal.addf_def, Cert.Spec.lin]

/-- The first rectifier. -/
theorem msg_act1 (x0 : (⟨S50000x128, .f32⟩ : BufTy).Contents (Elt Ideal)) (x1 : (⟨S400000x64, .f32⟩ : BufTy).Contents (Elt Ideal)) (x2 : (⟨S2x400000, .i32⟩ : BufTy).Contents (Elt Ideal)) (x3 : (⟨S128x320, .f32⟩ : BufTy).Contents (Elt Ideal)) (x4 : (⟨S128, .f32⟩ : BufTy).Contents (Elt Ideal)) (e : Fin 400000) (j : Fin 128) :
    val_main_v24 (F := Ideal) x0 x1 x2 x3 x4 (ValueIdx.ix2 e j)
      = Cert.Spec.relu (val_main_v23 (F := Ideal) x0 x1 x2 x3 x4 (ValueIdx.ix2 e j)) := by
  rw [val_main_v24_apply, zero_call0, Ideal.maximumf_def, Cert.Spec.relu]

/-- Second message layer before its rectifier: the rectified first layer's row against the second weights. -/
theorem msg_pre2 (x0 : (⟨S50000x128, .f32⟩ : BufTy).Contents (Elt Ideal)) (x1 : (⟨S400000x64, .f32⟩ : BufTy).Contents (Elt Ideal)) (x2 : (⟨S2x400000, .i32⟩ : BufTy).Contents (Elt Ideal)) (x3 : (⟨S128x320, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (e : Fin 400000) (j : Fin 128) :
    val_main_v29 (F := Ideal) x0 x1 x2 x3 x4 x5 x6 (ValueIdx.ix2 e j)
      = Cert.Spec.lin (fun k => val_main_v24 (F := Ideal) x0 x1 x2 x3 x4 (ValueIdx.ix2 e k))
          (fun k => val_main_v25 (F := Ideal) x5 (ValueIdx.ix2 k j)) (x6 (ValueIdx.ix1 j)) := by
  rw [val_main_v29_apply, val_main_v26_apply, val_main_v28_apply, val_main_v27_apply]
  simp only [lhs_at_v26, rhs_at_v26, bias_at_v28, Ideal.addf_def, Cert.Spec.lin]

/-- The second rectifier. -/
theorem msg_act2 (x0 : (⟨S50000x128, .f32⟩ : BufTy).Contents (Elt Ideal)) (x1 : (⟨S400000x64, .f32⟩ : BufTy).Contents (Elt Ideal)) (x2 : (⟨S2x400000, .i32⟩ : BufTy).Contents (Elt Ideal)) (x3 : (⟨S128x320, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (e : Fin 400000) (j : Fin 128) :
    val_main_v30 (F := Ideal) x0 x1 x2 x3 x4 x5 x6 (ValueIdx.ix2 e j)
      = Cert.Spec.relu (val_main_v29 (F := Ideal) x0 x1 x2 x3 x4 x5 x6 (ValueIdx.ix2 e j)) := by
  rw [val_main_v30_apply, zero_call1, Ideal.maximumf_def, Cert.Spec.relu]

/-- Third message layer: the rectified second layer's row against the third weights. -/
theorem msg_pre3 (x0 : (⟨S50000x128, .f32⟩ : BufTy).Contents (Elt Ideal)) (x1 : (⟨S400000x64, .f32⟩ : BufTy).Contents (Elt Ideal)) (x2 : (⟨S2x400000, .i32⟩ : BufTy).Contents (Elt Ideal)) (x3 : (⟨S128x320, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (e : Fin 400000) (j : Fin 128) :
    val_main_v35 (F := Ideal) x0 x1 x2 x3 x4 x5 x6 x7 x8 (ValueIdx.ix2 e j)
      = Cert.Spec.lin (fun k => val_main_v30 (F := Ideal) x0 x1 x2 x3 x4 x5 x6 (ValueIdx.ix2 e k))
          (fun k => val_main_v31 (F := Ideal) x7 (ValueIdx.ix2 k j)) (x8 (ValueIdx.ix1 j)) := by
  rw [val_main_v35_apply, val_main_v32_apply, val_main_v34_apply, val_main_v33_apply]
  simp only [lhs_at_v32, rhs_at_v32, bias_at_v34, Ideal.addf_def, Cert.Spec.lin]

/-- The reference's message for edge `e`, output `j`, is the message row function of the edge's joined features. -/
theorem ref_msg (x0 : (⟨S50000x128, .f32⟩ : BufTy).Contents (Elt Ideal)) (x1 : (⟨S400000x64, .f32⟩ : BufTy).Contents (Elt Ideal)) (x2 : (⟨S2x400000, .i32⟩ : BufTy).Contents (Elt Ideal)) (x3 : (⟨S128x320, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (e : Fin 400000) (j : Fin 128) :
    val_main_v35 (F := Ideal) x0 x1 x2 x3 x4 x5 x6 x7 x8 (ValueIdx.ix2 e j)
      = Cert.Spec.msgRow (fun k => val_main_v18 (F := Ideal) x0 x1 x2 (ValueIdx.ix2 e k))
          (fun k j' => val_main_v19 (F := Ideal) x3 (ValueIdx.ix2 k j')) (fun j' => x4 (ValueIdx.ix1 j'))
          (fun k j' => val_main_v25 (F := Ideal) x5 (ValueIdx.ix2 k j')) (fun j' => x6 (ValueIdx.ix1 j'))
          (fun k j' => val_main_v31 (F := Ideal) x7 (ValueIdx.ix2 k j')) (fun j' => x8 (ValueIdx.ix1 j')) j := by
  rw [msg_pre3]
  simp only [msg_act2, msg_pre2, msg_act1, msg_pre1, Cert.Spec.msgRow]

/-! ## The edge branch, layer by layer -/

/-- First edge layer before its rectifier: the joined row against a column of the first edge weights, plus the bias. -/
theorem edge_pre1 (x0 : (⟨S50000x128, .f32⟩ : BufTy).Contents (Elt Ideal)) (x1 : (⟨S400000x64, .f32⟩ : BufTy).Contents (Elt Ideal)) (x2 : (⟨S2x400000, .i32⟩ : BufTy).Contents (Elt Ideal)) (x9 : (⟨S64x320, .f32⟩ : BufTy).Contents (Elt Ideal)) (x10 : (⟨S64, .f32⟩ : BufTy).Contents (Elt Ideal)) (e : Fin 400000) (j : Fin 64) :
    val_main_v43 (F := Ideal) x0 x1 x2 x9 x10 (ValueIdx.ix2 e j)
      = Cert.Spec.lin (fun k => val_main_v18 (F := Ideal) x0 x1 x2 (ValueIdx.ix2 e k))
          (fun k => val_main_v39 (F := Ideal) x9 (ValueIdx.ix2 k j)) (x10 (ValueIdx.ix1 j)) := by
  rw [val_main_v43_apply, val_main_v40_apply, val_main_v42_apply, val_main_v41_apply]
  simp only [lhs_at_v40, rhs_at_v40, bias_at_v42, Ideal.addf_def, Cert.Spec.lin]

/-- The edge branch's rectifier. -/
theorem edge_act1 (x0 : (⟨S50000x128, .f32⟩ : BufTy).Contents (Elt Ideal)) (x1 : (⟨S400000x64, .f32⟩ : BufTy).Contents (Elt Ideal)) (x2 : (⟨S2x400000, .i32⟩ : BufTy).Contents (Elt Ideal)) (x9 : (⟨S64x320, .f32⟩ : BufTy).Contents (Elt Ideal)) (x10 : (⟨S64, .f32⟩ : BufTy).Contents (Elt Ideal)) (e : Fin 400000) (j : Fin 64) :
    val_main_v44 (F := Ideal) x0 x1 x2 x9 x10 (ValueIdx.ix2 e j)
      = Cert.Spec.relu (val_main_v43 (F := Ideal) x0 x1 x2 x9 x10 (ValueIdx.ix2 e j)) := by
  rw [val_main_v44_apply, zero_call2, Ideal.maximumf_def, Cert.Spec.relu]

/-- Second edge layer: the rectified first layer's row against the second edge weights. -/
theorem edge_pre2 (x0 : (⟨S50000x128, .f32⟩ : BufTy).Contents (Elt Ideal)) (x1 : (⟨S400000x64, .f32⟩ : BufTy).Contents (Elt Ideal)) (x2 : (⟨S2x400000, .i32⟩ : BufTy).Contents (Elt Ideal)) (x9 : (⟨S64x320, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (e : Fin 400000) (j : Fin 64) :
    val_main_v49 (F := Ideal) x0 x1 x2 x9 x10 x11 x12 (ValueIdx.ix2 e j)
      = Cert.Spec.lin (fun k => val_main_v44 (F := Ideal) x0 x1 x2 x9 x10 (ValueIdx.ix2 e k))
          (fun k => val_main_v45 (F := Ideal) x11 (ValueIdx.ix2 k j)) (x12 (ValueIdx.ix1 j)) := by
  rw [val_main_v49_apply, val_main_v46_apply, val_main_v48_apply, val_main_v47_apply]
  simp only [lhs_at_v46, rhs_at_v46, bias_at_v48, Ideal.addf_def, Cert.Spec.lin]

/-- The reference's updated features of edge `e`, output `j`, are the edge row function of the edge's joined features. -/
theorem ref_edge (x0 : (⟨S50000x128, .f32⟩ : BufTy).Contents (Elt Ideal)) (x1 : (⟨S400000x64, .f32⟩ : BufTy).Contents (Elt Ideal)) (x2 : (⟨S2x400000, .i32⟩ : BufTy).Contents (Elt Ideal)) (x9 : (⟨S64x320, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (e : Fin 400000) (j : Fin 64) :
    val_main_v49 (F := Ideal) x0 x1 x2 x9 x10 x11 x12 (ValueIdx.ix2 e j)
      = Cert.Spec.edgeRow (fun k => val_main_v18 (F := Ideal) x0 x1 x2 (ValueIdx.ix2 e k))
          (fun k j' => val_main_v39 (F := Ideal) x9 (ValueIdx.ix2 k j')) (fun j' => x10 (ValueIdx.ix1 j'))
          (fun k j' => val_main_v45 (F := Ideal) x11 (ValueIdx.ix2 k j')) (fun j' => x12 (ValueIdx.ix1 j')) j := by
  rw [edge_pre2]
  simp only [edge_act1, edge_pre1, Cert.Spec.edgeRow]

end Cert.ReferenceIdeal.RefEdge

end
-- ==== Proof.RefNode.lean ====
/-
  The reference's node update, read at one entry.

  The reference joins a node's own 128 features and its 128 summed messages into one row of 256 and takes a dense
  layer over that row: each output is a sum of 256 products against a column of the transposed weight. A sum over
  `Fin 256` splits at 128 into the sum over the first 128 positions and the sum over the last 128; the first half
  reads the node's own features against input columns 0..127 of the weight, the second half the summed messages
  against input columns 128..255. Those are the two half sums of `Cert.Spec.nodePre`. Addition of extended reals
  is commutative and associative, so the split asks for no finiteness.

  After the dense layer come the bias, the rectifier against the zero pattern, and the layer normalisation over the
  128 outputs of the node: the mean is the sum divided by the pattern of 128, the variance the sum of the squared
  deviations divided by the same pattern, the scale the reciprocal square root of the variance plus the pattern of
  1e-5, then the learned scale and shift. Each of these is one operation of the reference, read here at the entry
  `(n, j)`; a sum whose initial value is the zero pattern is the bare sum. `Cert.Spec.layerNorm` is written in the
  same grouping, so the last step is a comparison of two identical expressions.

  The summed messages are never opened: they enter only as the values `val_main_v38 … (n, k)`.
-/
import proofs.«106394_j49804440764523_1_alg».proof.Proof.Gen.ReferenceIdeal.Read
import proofs.«106394_j49804440764523_1_alg».proof.Proof.Spec

noncomputable section

namespace Cert.ReferenceIdeal.RefNode

open Idealize.ShloMosaic Cert.ReferenceIdeal Cert.ReferenceIdeal.Read

/-! ## Where each operation reads its operand, at an entry given by its coordinates -/

/-- The dense layer reads the joined row `n` at position `k`. -/
theorem lidx52 (n : Fin 50000) (j : Fin 128) (k : Fin 256) :
    lidx_main_v52 (ValueIdx.ix2 n j) k = ValueIdx.ix2 n k :=
  funext fun a => Fin.ext (by match a with | ⟨0, _⟩ => rfl | ⟨1, _⟩ => rfl)

/-- The dense layer reads the transposed weight at row `k`, column `j`. -/
theorem ridx52 (n : Fin 50000) (j : Fin 128) (k : Fin 256) :
    ridx_main_v52 (ValueIdx.ix2 n j) k = ValueIdx.ix2 k j :=
  funext fun a => Fin.ext (by match a with | ⟨0, _⟩ => rfl | ⟨1, _⟩ => rfl)

/-- The transposed weight at `(k, j)` is the weight at `(j, k)`. -/
theorem idx51 (k : Fin 256) (j : Fin 128) :
    idx_main_v51 (ValueIdx.ix2 k j) = ValueIdx.ix2 j k :=
  funext fun a => Fin.ext (by match a with | ⟨0, _⟩ => rfl | ⟨1, _⟩ => rfl)

/-- A sum along a row of node `n` reads the row's entries. -/
theorem idx57 (n : Fin 50000) (k : Fin 128) :
    idx_main_v57 (ValueIdx.ix1 n) k = ValueIdx.ix2 n k :=
  funext fun a => Fin.ext (by match a with | ⟨0, _⟩ => rfl | ⟨1, _⟩ => rfl)

/-- The same for the sum of the squared deviations. -/
theorem idx64 (n : Fin 50000) (k : Fin 128) :
    idx_main_v64 (ValueIdx.ix1 n) k = ValueIdx.ix2 n k :=
  funext fun a => Fin.ext (by match a with | ⟨0, _⟩ => rfl | ⟨1, _⟩ => rfl)

/-- A per-node scalar kept as a column of width one is read at the node. -/
theorem idx58 (n : Fin 50000) : idx_main_v58 (ValueIdx.ix2 n (0 : Fin 1)) = ValueIdx.ix1 n :=
  funext fun a => Fin.ext (by match a with | ⟨0, _⟩ => rfl)

theorem idx65 (n : Fin 50000) : idx_main_v65 (ValueIdx.ix2 n (0 : Fin 1)) = ValueIdx.ix1 n :=
  funext fun a => Fin.ext (by match a with | ⟨0, _⟩ => rfl)

/-- A column of width one broadcast along the 128 outputs reads the node's one entry. -/
theorem idx61 (n : Fin 50000) (j : Fin 128) : idx_main_v61 (ValueIdx.ix2 n j) = ValueIdx.ix2 n (0 : Fin 1) :=
  funext fun a => Fin.ext (by match a with | ⟨0, _⟩ => rfl | ⟨1, _⟩ => rfl)

theorem idx68 (n : Fin 50000) (j : Fin 128) : idx_main_v68 (ValueIdx.ix2 n j) = ValueIdx.ix2 n (0 : Fin 1) :=
  funext fun a => Fin.ext (by match a with | ⟨0, _⟩ => rfl | ⟨1, _⟩ => rfl)

theorem idx73 (n : Fin 50000) (j : Fin 128) : idx_main_v73 (ValueIdx.ix2 n j) = ValueIdx.ix2 n (0 : Fin 1) :=
  funext fun a => Fin.ext (by match a with | ⟨0, _⟩ => rfl | ⟨1, _⟩ => rfl)

/-! ## The vectors of 128 broadcast down the nodes, and the rectifier's zero -/

/-- The bias broadcast down the nodes reads the bias at the output `j`. -/
theorem bias_at (x14 : (⟨S128, .f32⟩ : BufTy).Contents (Elt Ideal)) (n : Fin 50000) (j : Fin 128) :
    val_main_v54 (F := Ideal) x14 (ValueIdx.ix2 n j) = x14 (ValueIdx.ix1 j) := by
  rw [val_main_v54_apply, val_main_v53_apply]
  exact congrArg x14 (funext fun a => Fin.ext (by match a with | ⟨0, _⟩ => rfl))

/-- The learned scale broadcast down the nodes reads the scale at the output `j`. -/
theorem scale_at (x15 : (⟨S128, .f32⟩ : BufTy).Contents (Elt Ideal)) (n : Fin 50000) (j : Fin 128) :
    val_main_v76 (F := Ideal) x15 (ValueIdx.ix2 n j) = x15 (ValueIdx.ix1 j) := by
  rw [val_main_v76_apply, val_main_v75_apply]
  exact congrArg x15 (funext fun a => Fin.ext (by match a with | ⟨0, _⟩ => rfl))

/-- The learned shift broadcast down the nodes reads the shift at the output `j`. -/
theorem shift_at (x16 : (⟨S128, .f32⟩ : BufTy).Contents (Elt Ideal)) (n : Fin 50000) (j : Fin 128) :
    val_main_v79 (F := Ideal) x16 (ValueIdx.ix2 n j) = x16 (ValueIdx.ix1 j) := by
  rw [val_main_v79_apply, val_main_v78_apply]
  exact congrArg x16 (funext fun a => Fin.ext (by match a with | ⟨0, _⟩ => rfl))

/-- The rectifier compares against the zero pattern at every entry. -/
theorem zero_at (i : S50000x128.Idx) : val_main_call3_v0 (F := Ideal) i = Cert.Spec.zero := by
  rw [val_main_call3_v0_apply, val_main_call3_cst_apply, Ideal.ofBits_def]
  rfl

/-- The divisor of the mean is the pattern of 128 at every node. -/
theorem c128_at (i : S50000x1.Idx) : val_main_v59 (F := Ideal) i = Cert.Spec.c128 := by
  rw [val_main_v59_apply, val_main_cst_4_apply, Ideal.ofBits_def]
  rfl

/-- The divisor of the variance is the same pattern. -/
theorem c128_at' (i : S50000x1.Idx) : val_main_v66 (F := Ideal) i = Cert.Spec.c128 := by
  rw [val_main_v66_apply, val_main_cst_6_apply, Ideal.ofBits_def]
  rfl

/-- The variance's offset is the pattern of 1e-5 at every node. -/
theorem eps_at (i : S50000x1.Idx) : val_main_v70 (F := Ideal) i = Cert.Spec.eps := by
  rw [val_main_v70_apply, val_main_cst_7_apply, Ideal.ofBits_def]
  rfl

section
variable (x0 : (⟨S50000x128, .f32⟩ : BufTy).Contents (Elt Ideal))
  (x1 : (⟨S400000x64, .f32⟩ : BufTy).Contents (Elt Ideal))
  (x2 : (⟨S2x400000, .i32⟩ : BufTy).Contents (Elt Ideal))
  (x3 : (⟨S128x320, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S128x128, .f32⟩ : BufTy).Contents (Elt Ideal))
  (x8 : (⟨S128, .f32⟩ : BufTy).Contents (Elt Ideal))
  (x13 : (⟨S128x256, .f32⟩ : BufTy).Contents (Elt Ideal))
  (x14 x15 x16 : (⟨S128, .f32⟩ : BufTy).Contents (Elt Ideal))

/-! ## The joined row -/

/-- The first 128 positions of the joined row of node `n` are the node's own features. -/
theorem joined_left (n : Fin 50000) (k : Fin 128) :
    val_main_v50 (F := Ideal) x0 x1 x2 x3 x4 x5 x6 x7 x8 (ValueIdx.ix2 n (Fin.castAdd 128 k)) = x0 (ValueIdx.ix2 n k) := by
  unfold val_main_v50
  generalize val_main_v38 (F := Ideal) x0 x1 x2 x3 x4 x5 x6 x7 x8 = y
  refine concatenate_pair_apply_left (t := S50000x256) (s₁ := S50000x128) (s₂ := S50000x128) 1 x0 y _ _ rfl (ValueIdx.ix2 n k) ?_
  intro b
  match b with
  | ⟨0, _⟩ => rfl
  | ⟨1, _⟩ => rfl

/-- The last 128 positions of the joined row of node `n` are the node's summed messages: position `128 + k` of
    the row is entry `k` of the second piece. -/
theorem joined_right (n : Fin 50000) (k : Fin 128) :
    val_main_v50 (F := Ideal) x0 x1 x2 x3 x4 x5 x6 x7 x8 (ValueIdx.ix2 n (Fin.natAdd 128 k))
      = val_main_v38 (F := Ideal) x0 x1 x2 x3 x4 x5 x6 x7 x8 (ValueIdx.ix2 n k) := by
  unfold val_main_v50
  generalize val_main_v38 (F := Ideal) x0 x1 x2 x3 x4 x5 x6 x7 x8 = y
  refine concatenate_pair_apply_right (t := S50000x256) (s₁ := S50000x128) (s₂ := S50000x128) 1 x0 y _ _ rfl rfl (ValueIdx.ix2 n k) ?_ ?_
  · intro b hb
    match b, hb with
    | ⟨0, _⟩, _ => rfl
    | ⟨1, _⟩, hb => exact absurd rfl hb
  · show k.val + 128 = 128 + k.val
    omega

/-! ## The dense layer: the sum over 256 is the two half sums -/

/-- The dense layer's output `j` for node `n`, before the bias: the sum over the 256 joined features splits at
    128 into the node's own features against the first 128 input columns of the weight and the summed messages
    against the last 128. -/
theorem dense_at (n : Fin 50000) (j : Fin 128) :
    val_main_v52 (F := Ideal) x0 x1 x2 x3 x4 x5 x6 x7 x8 x13 (ValueIdx.ix2 n j)
      = (∑ k : Fin 128, x0 (ValueIdx.ix2 n k) * x13 (ValueIdx.ix2 j (Fin.castAdd 128 k)))
        + (∑ k : Fin 128, val_main_v38 (F := Ideal) x0 x1 x2 x3 x4 x5 x6 x7 x8 (ValueIdx.ix2 n k)
            * x13 (ValueIdx.ix2 j (Fin.natAdd 128 k))) := by
  rw [val_main_v52_apply, Cert.Spec.sum_256_split]
  refine congrArg₂ (· + ·) (Finset.sum_congr rfl fun k _ => ?_) (Finset.sum_congr rfl fun k _ => ?_)
  · rw [lidx52, ridx52, val_main_v51_apply, idx51, joined_left]
  · rw [lidx52, ridx52, val_main_v51_apply, idx51, joined_right]

/-- The rectified dense output `j` of node `n`: what the layer normalisation is taken over. -/
def u (n : Fin 50000) (j : Fin 128) : EReal :=
  Cert.Spec.relu (Cert.Spec.nodePre (fun k => x0 (ValueIdx.ix2 n k))
    (fun k => val_main_v38 (F := Ideal) x0 x1 x2 x3 x4 x5 x6 x7 x8 (ValueIdx.ix2 n k))
    (fun k j' => x13 (ValueIdx.ix2 j' (Fin.castAdd 128 k))) (fun k j' => x13 (ValueIdx.ix2 j' (Fin.natAdd 128 k)))
    (fun j' => x14 (ValueIdx.ix1 j')) j)

/-- The reference's rectified dense output at `(n, j)` is `u n j`: the two half sums, the bias, the maximum with
    the zero pattern. -/
theorem rectified_at (n : Fin 50000) (j : Fin 128) :
    val_main_v56 (F := Ideal) x0 x1 x2 x3 x4 x5 x6 x7 x8 x13 x14 (ValueIdx.ix2 n j)
      = u x0 x1 x2 x3 x4 x5 x6 x7 x8 x13 x14 n j := by
  rw [val_main_v56_apply, val_main_v55_apply, dense_at, bias_at, zero_at]
  simp only [Ideal.maximumf_def, Ideal.addf_def]
  rfl

/-! ## The mean and the variance of a node's 128 outputs -/

/-- The sum of node `n`'s rectified outputs: the initial value is the zero pattern, so it is the bare sum. -/
theorem rowsum_at (n : Fin 50000) :
    val_main_v57 (F := Ideal) x0 x1 x2 x3 x4 x5 x6 x7 x8 x13 x14 (ValueIdx.ix1 n)
      = ∑ k : Fin 128, u x0 x1 x2 x3 x4 x5 x6 x7 x8 x13 x14 n k := by
  rw [val_main_v57_apply, val_main_cst_3_apply, Ideal.ofBits_def, Ideal.ofBits_zero_f32, zero_add]
  exact Finset.sum_congr rfl fun k _ => by rw [idx57, rectified_at]

/-- The mean of node `n`'s outputs: the sum divided by the pattern of 128. -/
theorem mean_at (n : Fin 50000) :
    val_main_v60 (F := Ideal) x0 x1 x2 x3 x4 x5 x6 x7 x8 x13 x14 (ValueIdx.ix2 n (0 : Fin 1))
      = Ideal.div (∑ k : Fin 128, u x0 x1 x2 x3 x4 x5 x6 x7 x8 x13 x14 n k) Cert.Spec.c128 := by
  rw [val_main_v60_apply, val_main_v58_apply, idx58, rowsum_at, c128_at, Ideal.hostDivf_def]

/-- An output's deviation from its node's mean. -/
theorem centred_at (n : Fin 50000) (k : Fin 128) :
    val_main_v62 (F := Ideal) x0 x1 x2 x3 x4 x5 x6 x7 x8 x13 x14 (ValueIdx.ix2 n k)
      = u x0 x1 x2 x3 x4 x5 x6 x7 x8 x13 x14 n k
        - Ideal.div (∑ k' : Fin 128, u x0 x1 x2 x3 x4 x5 x6 x7 x8 x13 x14 n k') Cert.Spec.c128 := by
  rw [val_main_v62_apply, rectified_at, val_main_v61_apply, idx61, mean_at, Ideal.subf_def]

/-- The sum of node `n`'s squared deviations, again from the zero pattern. -/
theorem sqsum_at (n : Fin 50000) :
    val_main_v64 (F := Ideal) x0 x1 x2 x3 x4 x5 x6 x7 x8 x13 x14 (ValueIdx.ix1 n)
      = ∑ k : Fin 128,
          (u x0 x1 x2 x3 x4 x5 x6 x7 x8 x13 x14 n k
              - Ideal.div (∑ k' : Fin 128, u x0 x1 x2 x3 x4 x5 x6 x7 x8 x13 x14 n k') Cert.Spec.c128)
            * (u x0 x1 x2 x3 x4 x5 x6 x7 x8 x13 x14 n k
              - Ideal.div (∑ k' : Fin 128, u x0 x1 x2 x3 x4 x5 x6 x7 x8 x13 x14 n k') Cert.Spec.c128) := by
  rw [val_main_v64_apply, val_main_cst_5_apply, Ideal.ofBits_def, Ideal.ofBits_zero_f32, zero_add]
  exact Finset.sum_congr rfl fun k _ => by rw [idx64, val_main_v63_apply, centred_at, Ideal.mulf_def]

/-- The normalising factor of node `n`: the reciprocal square root of the variance plus the pattern of 1e-5. -/
theorem rstd_at (n : Fin 50000) :
    val_main_v72 (F := Ideal) x0 x1 x2 x3 x4 x5 x6 x7 x8 x13 x14 (ValueIdx.ix2 n (0 : Fin 1))
      = Ideal.rsqrt (Ideal.div (∑ k : Fin 128,
          (u x0 x1 x2 x3 x4 x5 x6 x7 x8 x13 x14 n k
              - Ideal.div (∑ k' : Fin 128, u x0 x1 x2 x3 x4 x5 x6 x7 x8 x13 x14 n k') Cert.Spec.c128)
            * (u x0 x1 x2 x3 x4 x5 x6 x7 x8 x13 x14 n k
              - Ideal.div (∑ k' : Fin 128, u x0 x1 x2 x3 x4 x5 x6 x7 x8 x13 x14 n k') Cert.Spec.c128)) Cert.Spec.c128
          + Cert.Spec.eps) := by
  rw [val_main_v72_apply, val_main_v71_apply, val_main_v67_apply, val_main_v65_apply, idx65, sqsum_at, c128_at', eps_at,
    Ideal.hostUnary_rsqrt_def, Ideal.addf_def, Ideal.hostDivf_def]

end

/-! ## The whole update -/

/-- The reference's updated features of node `n` at output `j` are `Cert.Spec.nodeRow` of the node's own
    features, its summed messages, the two halves of the weight, the bias, the scale and the shift. -/
theorem ref_node (x0 : (⟨S50000x128, .f32⟩ : BufTy).Contents (Elt Ideal))
    (x1 : (⟨S400000x64, .f32⟩ : BufTy).Contents (Elt Ideal))
    (x2 : (⟨S2x400000, .i32⟩ : BufTy).Contents (Elt Ideal))
    (x3 : (⟨S128x320, .f32⟩ : BufTy).Contents (Elt Ideal))
    (x4 : (⟨S128, .f32⟩ : BufTy).Contents (Elt Ideal))
    (x5 : (⟨S128x128, .f32⟩ : BufTy).Contents (Elt Ideal))
    (x6 : (⟨S128, .f32⟩ : BufTy).Contents (Elt Ideal))
    (x7 : (⟨S128x128, .f32⟩ : BufTy).Contents (Elt Ideal))
    (x8 : (⟨S128, .f32⟩ : BufTy).Contents (Elt Ideal))
    (x13 : (⟨S128x256, .f32⟩ : BufTy).Contents (Elt Ideal))
    (x14 x15 x16 : (⟨S128, .f32⟩ : BufTy).Contents (Elt Ideal)) (n : Fin 50000) (j : Fin 128) :
    val_main_v80 (F := Ideal) x0 x1 x2 x3 x4 x5 x6 x7 x8 x13 x14 x15 x16 (ValueIdx.ix2 n j)
      = Cert.Spec.nodeRow (fun k => x0 (ValueIdx.ix2 n k))
          (fun k => val_main_v38 (F := Ideal) x0 x1 x2 x3 x4 x5 x6 x7 x8 (ValueIdx.ix2 n k))
          (fun k j' => x13 (ValueIdx.ix2 j' (Fin.castAdd 128 k))) (fun k j' => x13 (ValueIdx.ix2 j' (Fin.natAdd 128 k)))
          (fun j' => x14 (ValueIdx.ix1 j')) (fun j' => x15 (ValueIdx.ix1 j')) (fun j' => x16 (ValueIdx.ix1 j')) j := by
  rw [val_main_v80_apply, val_main_v77_apply, val_main_v74_apply, val_main_v69_apply, rectified_at,
    val_main_v68_apply, idx68, mean_at, val_main_v73_apply, idx73, rstd_at, scale_at, shift_at]
  simp only [Ideal.addf_def, Ideal.mulf_def, Ideal.subf_def]
  rfl

end Cert.ReferenceIdeal.RefNode

end
-- ==== Proof.Bridge.lean ====
/-
  The kernel program's two results are the reference's two results, at every index, over one launch memory.

  Row by row both programs compute the same functions (the specification's rows) of the same arrays: the joined edge
  features, the transposed weights, the biases, and — for the node update — the node features, the scatter-added
  messages and the node weights. The host operations that build the joined features, transpose the weights and
  scatter-add the messages are the same terms in both programs, so nothing of them is opened; the kernel's message
  array is the reference's message stage index by index, hence so are the scatter-added messages.
-/
import proofs.«106394_j49804440764523_1_alg».proof.Proof.KIEntry
import proofs.«106394_j49804440764523_1_alg».proof.Proof.KIValue0
import proofs.«106394_j49804440764523_1_alg».proof.Proof.KIValue1
import proofs.«106394_j49804440764523_1_alg».proof.Proof.RefEdge
import proofs.«106394_j49804440764523_1_alg».proof.Proof.RefNode

noncomputable section

namespace Cert.Bridge

open Cert.KernelIdeal Cert.KernelIdeal.Gen Cert.KernelIdeal.Fr Cert.KernelIdeal.HostGlue
open Idealize.ShloMosaic Idealize.ShloMosaic.TcCoe Idealize.SL.Sem

/-! ## A row function of equal arguments is equal -/

theorem msgRow_congr {h h' : Fin 320 → EReal} {w1 w1' : Fin 320 → Fin 128 → EReal} {b1 b1' : Fin 128 → EReal}
    {w2 w2' : Fin 128 → Fin 128 → EReal} {b2 b2' : Fin 128 → EReal} {w3 w3' : Fin 128 → Fin 128 → EReal} {b3 b3' : Fin 128 → EReal}
    (e1 : h = h') (e2 : w1 = w1') (e3 : b1 = b1') (e4 : w2 = w2') (e5 : b2 = b2') (e6 : w3 = w3') (e7 : b3 = b3') (j : Fin 128) :
    Cert.Spec.msgRow h w1 b1 w2 b2 w3 b3 j = Cert.Spec.msgRow h' w1' b1' w2' b2' w3' b3' j := by
  subst e1 e2 e3 e4 e5 e6 e7; rfl

theorem edgeRow_congr {h h' : Fin 320 → EReal} {w1 w1' : Fin 320 → Fin 64 → EReal} {b1 b1' : Fin 64 → EReal}
    {w2 w2' : Fin 64 → Fin 64 → EReal} {b2 b2' : Fin 64 → EReal}
    (e1 : h = h') (e2 : w1 = w1') (e3 : b1 = b1') (e4 : w2 = w2') (e5 : b2 = b2') (j : Fin 64) :
    Cert.Spec.edgeRow h w1 b1 w2 b2 j = Cert.Spec.edgeRow h' w1' b1' w2' b2' j := by
  subst e1 e2 e3 e4 e5; rfl

theorem nodeRow_congr {nf nf' msg msg' : Fin 128 → EReal} {wa wa' wb wb' : Fin 128 → Fin 128 → EReal} {bn bn' g g' b b' : Fin 128 → EReal}
    (e1 : nf = nf') (e2 : msg = msg') (e3 : wa = wa') (e4 : wb = wb') (e5 : bn = bn') (e6 : g = g') (e7 : b = b') (j : Fin 128) :
    Cert.Spec.nodeRow nf msg wa wb bn g b j = Cert.Spec.nodeRow nf' msg' wa' wb' bn' g' b' j := by
  subst e1 e2 e3 e4 e5 e6 e7; rfl

variable (m : (ℓ : Loc nD τ sig) → Buf (Elt Ideal) ℓ) (ρ : Dev nD → PrngReg)

/-! ## The arrays both programs build by the same host operations -/

/-- The joined edge features the edge call finds are the reference's join of the same gathers. -/
theorem feat_eq (c : Dev nD) : B1 m ρ c main_v18 = Cert.ReferenceIdeal.Read.val_main_v18 (F := Ideal) (m ((c : Thread nD τ).loc main_arg0)) (m ((c : Thread nD τ).loc main_arg1)) (m ((c : Thread nD τ).loc main_arg2)) :=
  (B1_v18 m ρ c).trans rfl
/-- The five transposed weight matrices. -/
theorem wm1_eq (c : Dev nD) : B1 m ρ c main_v19 = Cert.ReferenceIdeal.Read.val_main_v19 (F := Ideal) (m ((c : Thread nD τ).loc main_arg3)) := (B1_v19 m ρ c).trans rfl
theorem wm2_eq (c : Dev nD) : B1 m ρ c main_v20 = Cert.ReferenceIdeal.Read.val_main_v25 (F := Ideal) (m ((c : Thread nD τ).loc main_arg5)) := (B1_v20 m ρ c).trans rfl
theorem wm3_eq (c : Dev nD) : B1 m ρ c main_v21 = Cert.ReferenceIdeal.Read.val_main_v31 (F := Ideal) (m ((c : Thread nD τ).loc main_arg7)) := (B1_v21 m ρ c).trans rfl
theorem we1_eq (c : Dev nD) : B1 m ρ c main_v22 = Cert.ReferenceIdeal.Read.val_main_v39 (F := Ideal) (m ((c : Thread nD τ).loc main_arg9)) := (B1_v22 m ρ c).trans rfl
theorem we2_eq (c : Dev nD) : B1 m ρ c main_v23 = Cert.ReferenceIdeal.Read.val_main_v45 (F := Ideal) (m ((c : Thread nD τ).loc main_arg11)) := (B1_v23 m ρ c).trans rfl

/-! ## The edge call's two arrays -/

/-- The edge call's message array is the reference's message stage. -/
theorem msgs_eq (c : Dev nD) :
    (dat0 (F := Ideal) (B1 m ρ) c).arrAt 11 cfg0.N
      = Cert.ReferenceIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨e, j, rfl⟩ : ∃ (e : Fin 400000) (j : Fin 128), i = ValueIdx.ix2 e j := ⟨i 0, i 1, ValueIdx.eq_ix2 i⟩
  rw [Cert.KernelIdeal.Val0.final0_11, Cert.ReferenceIdeal.RefEdge.ref_msg]
  exact msgRow_congr (funext fun k => congrFun (feat_eq m ρ c) _)
    (funext fun k => funext fun j' => congrFun (wm1_eq m ρ c) _) (funext fun j' => congrFun (B1_arg m ρ c main_arg4 (by decide)) _)
    (funext fun k => funext fun j' => congrFun (wm2_eq m ρ c) _) (funext fun j' => congrFun (B1_arg m ρ c main_arg6 (by decide)) _)
    (funext fun k => funext fun j' => congrFun (wm3_eq m ρ c) _) (funext fun j' => congrFun (B1_arg m ρ c main_arg8 (by decide)) _) j

/-- The edge call's updated-edge array is the reference's second result. -/
theorem edges_eq (c : Dev nD) :
    (dat0 (F := Ideal) (B1 m ρ) c).arrAt 12 cfg0.N
      = Cert.ReferenceIdeal.Read.val_main_v49 (F := Ideal) (m ((c : Thread nD τ).loc main_arg0)) (m ((c : Thread nD τ).loc main_arg1)) (m ((c : Thread nD τ).loc main_arg2)) (m ((c : Thread nD τ).loc main_arg9)) (m ((c : Thread nD τ).loc main_arg10)) (m ((c : Thread nD τ).loc main_arg11)) (m ((c : Thread nD τ).loc main_arg12)) := by
  funext i
  obtain ⟨e, j, rfl⟩ : ∃ (e : Fin 400000) (j : Fin 64), i = ValueIdx.ix2 e j := ⟨i 0, i 1, ValueIdx.eq_ix2 i⟩
  rw [Cert.KernelIdeal.Val0.final0_12, Cert.ReferenceIdeal.RefEdge.ref_edge]
  exact edgeRow_congr (funext fun k => congrFun (feat_eq m ρ c) _)
    (funext fun k => funext fun j' => congrFun (we1_eq m ρ c) _) (funext fun j' => congrFun (B1_arg m ρ c main_arg10 (by decide)) _)
    (funext fun k => funext fun j' => congrFun (we2_eq m ρ c) _) (funext fun j' => congrFun (B1_arg m ρ c main_arg12 (by decide)) _) j

/-! ## The node call's array -/

/-- The summed messages the node call finds are the reference's scatter-add stage: the same scatter-add of equal
    message arrays by the same destination row. -/
theorem summed_eq (c : Dev nD) :
    B3 m ρ c main_v27
      = Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (B3_v27 m ρ c).trans ((congrArg (scat (dstVec (m ((c : Thread nD τ).loc main_arg2)))) (msgs_eq m ρ c)).trans rfl)

/-- The node call's output array is the reference's first result. -/
theorem nodes_eq (c : Dev nD) :
    (dat1 (F := Ideal) (B3 m ρ) c).arrAt 7 cfg1.N
      = Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) (m ((c : Thread nD τ).loc main_arg16)) := by
  funext i
  obtain ⟨n, j, rfl⟩ : ∃ (n : Fin 50000) (j : Fin 128), i = ValueIdx.ix2 n j := ⟨i 0, i 1, ValueIdx.eq_ix2 i⟩
  rw [Cert.KernelIdeal.Val1.final1_7, Cert.ReferenceIdeal.RefNode.ref_node]
  exact nodeRow_congr (funext fun k => congrFun (B3_arg m ρ c main_arg0 (by decide) (by decide) (by decide)) _)
    (funext fun k => congrFun (summed_eq m ρ c) _)
    (funext fun k => funext fun j' => B3_v30_apply m ρ c k j') (funext fun k => funext fun j' => B3_v31_apply m ρ c k j')
    (funext fun j' => congrFun (B3_arg m ρ c main_arg14 (by decide) (by decide) (by decide)) _)
    (funext fun j' => congrFun (B3_arg m ρ c main_arg15 (by decide) (by decide) (by decide)) _)
    (funext fun j' => congrFun (B3_arg m ρ c main_arg16 (by decide) (by decide) (by decide)) _) j

/-! ## The same, for any buffers equal to the kernel program's arguments

    Stated over variables so that memories agreeing on the arguments are consumed by substitution. -/

theorem edges_of_agree (c : Dev nD) (x0 : (⟨Cert.ReferenceIdeal.S50000x128, .f32⟩ : BufTy).Contents (Elt Ideal)) (x1 : (⟨Cert.ReferenceIdeal.S400000x64, .f32⟩ : BufTy).Contents (Elt Ideal))
    (x2 : (⟨Cert.ReferenceIdeal.S2x400000, .i32⟩ : BufTy).Contents (Elt Ideal)) (x9 : (⟨Cert.ReferenceIdeal.S64x320, .f32⟩ : BufTy).Contents (Elt Ideal)) (x10 : (⟨Cert.ReferenceIdeal.S64, .f32⟩ : BufTy).Contents (Elt Ideal))
    (x11 : (⟨Cert.ReferenceIdeal.S64x64, .f32⟩ : BufTy).Contents (Elt Ideal)) (x12 : (⟨Cert.ReferenceIdeal.S64, .f32⟩ : BufTy).Contents (Elt Ideal))
    (e0 : x0 = m ((c : Thread nD τ).loc main_arg0)) (e1 : x1 = m ((c : Thread nD τ).loc main_arg1)) (e2 : x2 = m ((c : Thread nD τ).loc main_arg2)) (e9 : x9 = m ((c : Thread nD τ).loc main_arg9))
    (e10 : x10 = m ((c : Thread nD τ).loc main_arg10)) (e11 : x11 = m ((c : Thread nD τ).loc main_arg11)) (e12 : x12 = m ((c : Thread nD τ).loc main_arg12)) :
    Cert.ReferenceIdeal.Read.val_main_v49 (F := Ideal) x0 x1 x2 x9 x10 x11 x12 = (dat0 (F := Ideal) (B1 m ρ) c).arrAt 12 cfg0.N := by
  subst e0 e1 e2 e9 e10 e11 e12
  exact (edges_eq m ρ c).symm

theorem nodes_of_agree (c : Dev nD) (x0 : (⟨Cert.ReferenceIdeal.S50000x128, .f32⟩ : BufTy).Contents (Elt Ideal)) (x1 : (⟨Cert.ReferenceIdeal.S400000x64, .f32⟩ : BufTy).Contents (Elt Ideal))
    (x2 : (⟨Cert.ReferenceIdeal.S2x400000, .i32⟩ : BufTy).Contents (Elt Ideal)) (x3 : (⟨Cert.ReferenceIdeal.S128x320, .f32⟩ : BufTy).Contents (Elt Ideal)) (x4 : (⟨Cert.ReferenceIdeal.S128, .f32⟩ : BufTy).Contents (Elt Ideal))
    (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal)) (x13 : (⟨Cert.ReferenceIdeal.S128x256, .f32⟩ : BufTy).Contents (Elt Ideal))
    (x14 x15 x16 : (⟨Cert.ReferenceIdeal.S128, .f32⟩ : BufTy).Contents (Elt Ideal))
    (e0 : x0 = m ((c : Thread nD τ).loc main_arg0)) (e1 : x1 = m ((c : Thread nD τ).loc main_arg1)) (e2 : x2 = m ((c : Thread nD τ).loc main_arg2)) (e3 : x3 = m ((c : Thread nD τ).loc main_arg3))
    (e4 : x4 = m ((c : Thread nD τ).loc main_arg4)) (e5 : x5 = m ((c : Thread nD τ).loc main_arg5)) (e6 : x6 = m ((c : Thread nD τ).loc main_arg6)) (e7 : x7 = m ((c : Thread nD τ).loc main_arg7))
    (e8 : x8 = m ((c : Thread nD τ).loc main_arg8)) (e13 : x13 = m ((c : Thread nD τ).loc main_arg13)) (e14 : x14 = m ((c : Thread nD τ).loc main_arg14)) (e15 : x15 = m ((c : Thread nD τ).loc main_arg15))
    (e16 : x16 = m ((c : Thread nD τ).loc main_arg16)) :
    Cert.ReferenceIdeal.Read.val_main_v80 (F := Ideal) x0 x1 x2 x3 x4 x5 x6 x7 x8 x13 x14 x15 x16 = (dat1 (F := Ideal) (B3 m ρ) c).arrAt 7 cfg1.N := by
  subst e0 e1 e2 e3 e4 e5 e6 e7 e8 e13 e14 e15 e16
  exact (nodes_eq m ρ c).symm

end Cert.Bridge

end
-- ==== Proof.lean ====
/-
  The certificate of a graph message-passing layer: a Pallas program of two kernels (an edge network over blocks of
  4000 edges, a node update with layer normalisation over blocks of 2000 nodes, with the host's gather, join and
  scatter-add around them) against a plain reference.

  Frames. The kernel program, printed and idealized alike, is run through its four items — host stretch, edge call,
  host stretch, node call — with every buffer's contents followed from the launch memory; the arguments end as
  launched because no host operation writes one and no call has one as an output window. The reference's frame is its
  run with the results dropped.

  Values, at the ideal instance. The run names the two results as the calls' output arrays. Row by row each is the
  specification's function of arrays both programs build by the same host operations; the reference's stages are the
  same functions, the one algebraic step being the split of its 256-term sum at 128. So the kernel's output arrays
  are the reference's result terms, index by index, over memories that agree on the arguments.

  The ideal pass rewrote nothing, so there is nothing to preserve.
-/
import proofs.«106394_j49804440764523_1_alg».proof.Defs
import proofs.«106394_j49804440764523_1_alg».proof.Proof.Gen.Kernel
import proofs.«106394_j49804440764523_1_alg».proof.Proof.Gen.KernelIdeal
import proofs.«106394_j49804440764523_1_alg».proof.Proof.Gen.ReferenceIdeal
import proofs.«106394_j49804440764523_1_alg».proof.Proof.Gen.Pre_finite_inputs
import proofs.«106394_j49804440764523_1_alg».proof.Proof.Gen.ReferenceIdeal.Run
import proofs.«106394_j49804440764523_1_alg».proof.Proof.Gen.ReferenceIdeal.Read
import proofs.«106394_j49804440764523_1_alg».proof.Proof.FrameKRun
import proofs.«106394_j49804440764523_1_alg».proof.Proof.FrameKIRun
import proofs.«106394_j49804440764523_1_alg».proof.Proof.Bridge
import Idealize.ShloMosaic.Adequacy
import Idealize.ShloMosaic.Init

noncomputable section

namespace Cert.Proof

open Idealize.ShloMosaic Idealize.SL.Sem

/-- The printed kernel program runs and leaves its arguments as launched. -/
theorem frame_k : Cert.frame_Kernel := fun m ρ _ => Cert.Kernel.Fr.frame (F := Bits) m ρ

/-- So does its idealization. -/
theorem frame_ki : Cert.frame_KernelIdeal := fun m ρ _ => Cert.KernelIdeal.Fr.frame (F := Ideal) m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten between the printed kernel program and its idealization. -/
theorem preserves : Cert.preserves_Kernel_KernelIdeal := trivial

/-- Both idealized programs, from memories that agree on the arguments, end with the kernel's two output arrays as
    their results: the kernel program by its run, the reference because its result terms are those arrays. -/
theorem algebraic : Cert.algebraic_KernelIdeal_ReferenceIdeal := by
  intro m ρ m' ρ' _ hagree
  refine ⟨fun c => (Cert.KernelIdeal.Fr.dat1 (F := Ideal) (Cert.KernelIdeal.Fr.B3 m ρ) c).arrAt 7 Cert.KernelIdeal.cfg1.N,
    fun c => (Cert.KernelIdeal.Fr.dat0 (F := Ideal) (Cert.KernelIdeal.Fr.B1 m ρ) c).arrAt 12 Cert.KernelIdeal.cfg0.N, ?_, ?_⟩
  · exact (θ_run Cert.KernelIdeal.defs _ _).mono (fun r h c =>
      ⟨(h c _ (Cert.KernelIdeal.Fr.mem_uc Cert.KernelIdeal.main_v32 (by decide))).trans (Cert.KernelIdeal.Fr.W4_main_v32 m ρ c),
       (h c _ (Cert.KernelIdeal.Fr.mem_uc Cert.KernelIdeal.main_v24_1 (by decide))).trans (Cert.KernelIdeal.Fr.W4_main_v24_1 m ρ c),
       (h c _ (Cert.KernelIdeal.Fr.mem_uc Cert.KernelIdeal.main_arg0 (by decide))).trans (Cert.KernelIdeal.Fr.W4_main_arg0 m ρ c),
       (h c _ (Cert.KernelIdeal.Fr.mem_uc Cert.KernelIdeal.main_arg1 (by decide))).trans (Cert.KernelIdeal.Fr.W4_main_arg1 m ρ c),
       (h c _ (Cert.KernelIdeal.Fr.mem_uc Cert.KernelIdeal.main_arg2 (by decide))).trans (Cert.KernelIdeal.Fr.W4_main_arg2 m ρ c),
       (h c _ (Cert.KernelIdeal.Fr.mem_uc Cert.KernelIdeal.main_arg3 (by decide))).trans (Cert.KernelIdeal.Fr.W4_main_arg3 m ρ c),
       (h c _ (Cert.KernelIdeal.Fr.mem_uc Cert.KernelIdeal.main_arg4 (by decide))).trans (Cert.KernelIdeal.Fr.W4_main_arg4 m ρ c),
       (h c _ (Cert.KernelIdeal.Fr.mem_uc Cert.KernelIdeal.main_arg5 (by decide))).trans (Cert.KernelIdeal.Fr.W4_main_arg5 m ρ c),
       (h c _ (Cert.KernelIdeal.Fr.mem_uc Cert.KernelIdeal.main_arg6 (by decide))).trans (Cert.KernelIdeal.Fr.W4_main_arg6 m ρ c),
       (h c _ (Cert.KernelIdeal.Fr.mem_uc Cert.KernelIdeal.main_arg7 (by decide))).trans (Cert.KernelIdeal.Fr.W4_main_arg7 m ρ c),
       (h c _ (Cert.KernelIdeal.Fr.mem_uc Cert.KernelIdeal.main_arg8 (by decide))).trans (Cert.KernelIdeal.Fr.W4_main_arg8 m ρ c),
       (h c _ (Cert.KernelIdeal.Fr.mem_uc Cert.KernelIdeal.main_arg9 (by decide))).trans (Cert.KernelIdeal.Fr.W4_main_arg9 m ρ c),
       (h c _ (Cert.KernelIdeal.Fr.mem_uc Cert.KernelIdeal.main_arg10 (by decide))).trans (Cert.KernelIdeal.Fr.W4_main_arg10 m ρ c),
       (h c _ (Cert.KernelIdeal.Fr.mem_uc Cert.KernelIdeal.main_arg11 (by decide))).trans (Cert.KernelIdeal.Fr.W4_main_arg11 m ρ c),
       (h c _ (Cert.KernelIdeal.Fr.mem_uc Cert.KernelIdeal.main_arg12 (by decide))).trans (Cert.KernelIdeal.Fr.W4_main_arg12 m ρ c),
       (h c _ (Cert.KernelIdeal.Fr.mem_uc Cert.KernelIdeal.main_arg13 (by decide))).trans (Cert.KernelIdeal.Fr.W4_main_arg13 m ρ c),
       (h c _ (Cert.KernelIdeal.Fr.mem_uc Cert.KernelIdeal.main_arg14 (by decide))).trans (Cert.KernelIdeal.Fr.W4_main_arg14 m ρ c),
       (h c _ (Cert.KernelIdeal.Fr.mem_uc Cert.KernelIdeal.main_arg15 (by decide))).trans (Cert.KernelIdeal.Fr.W4_main_arg15 m ρ c),
       (h c _ (Cert.KernelIdeal.Fr.mem_uc Cert.KernelIdeal.main_arg16 (by decide))).trans (Cert.KernelIdeal.Fr.W4_main_arg16 m ρ c)⟩)
      (Cert.KernelIdeal.Fr.run_main (F := Ideal) m ρ)
  · refine (θ_run Cert.ReferenceIdeal.defs _ _).mono (fun r h c => ⟨?_, ?_, (h c).2.2⟩)
      (Cert.ReferenceIdeal.Value.run (F := Ideal) m' ρ')
    · obtain ⟨h0, h1, h2, h3, h4, h5, h6, h7, h8, h9, h10, h11, h12, h13, h14, h15, h16⟩ := hagree c
      exact (h c).1.trans ((Cert.ReferenceIdeal.Read.val_main_v80_eq m' c).trans
        (Cert.Bridge.nodes_of_agree m ρ c _ _ _ _ _ _ _ _ _ _ _ _ _ h0 h1 h2 h3 h4 h5 h6 h7 h8 h13 h14 h15 h16))
    · obtain ⟨h0, h1, h2, h3, h4, h5, h6, h7, h8, h9, h10, h11, h12, h13, h14, h15, h16⟩ := hagree c
      exact (h c).2.1.trans ((Cert.ReferenceIdeal.Read.val_main_v49_eq _ _ _ _ _ _ _).trans
        (Cert.Bridge.edges_of_agree m ρ c _ _ _ _ _ _ _ h0 h1 h2 h9 h10 h11 h12))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
